-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S256x1024 : Shape := ⟨2, ![256, 1024]⟩
abbrev S256x1 : Shape := ⟨2, ![256, 1]⟩
abbrev S512x1024 : Shape := ⟨2, ![512, 1024]⟩
abbrev S256x512 : Shape := ⟨2, ![256, 512]⟩
abbrev S256 : Shape := ⟨1, ![256]⟩

abbrev nBuf : Space → Nat
  | .hbm => 8
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .f32⟩
  | .local _ .vmem, ⟨12, _⟩ => ⟨S256x1024, .f32⟩
  | .local _ .vmem, ⟨13, _⟩ => ⟨S4096x1024, .f32⟩
  | .local _ .vmem, ⟨14, _⟩ => ⟨S4096x1024, .bf16⟩
  | .local _ .vmem, ⟨15, _⟩ => ⟨S256x1024, .f32⟩
  | .local _ .vmem, ⟨16, _⟩ => ⟨S256x1024, .f32⟩
  | .local _ .vmem, ⟨17, _⟩ => ⟨S256x1, .f32⟩
  | .local _ .vmem, ⟨18, _⟩ => ⟨S256x1, .f32⟩
  | .local _ .vmem, ⟨19, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0_0 : Ref sig .tc := ⟨.hbm, 4, rfl⟩
abbrev main_call0_v0_1 : Ref sig .tc := ⟨.hbm, 5, rfl⟩
abbrev main_call0_v0_2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![16, 8], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_22 : BitVec 32 := 0#32
  let v48 : BitVec 1 := Scalar.cmpi .ne v47 c0_i32_22
  v48

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S256x1024_S256x1024_0_0 : (Rect.unit (s := S256x1024) ![0, 0] S256x1024.size inb_S256x1024_S256x1024_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S256x1024_S256x1024 : S256x1024.ShapeCasts S256x1024
  h_S512x1024 : 0 < S512x1024.numel
  shapeCasts_S512x1024_S512x1024 : S512x1024.ShapeCasts S512x1024
  reduces_S256x512_S256 : S256x512.Reduces [1] S256
  shapeCasts_S256_S256x1 : S256.ShapeCasts S256x1
  broadcasts_S256x1_S256x512 : S256x1.Broadcasts S256x512
  broadcasts_S256x1_S256x1024 : S256x1.Broadcasts S256x1024
  dot_S256x1024_S1024x1024_S256x1024_1_0_0_1_n_n_wf : DotDims.WF S256x1024 S1024x1024 S256x1024 [1] [0] [0] [1] [] []
  dot_S256x1024_S512x1024_S256x512_1_1_0_0_n_n_wf : DotDims.WF S256x1024 S512x1024 S256x512 [1] [1] [0] [0] [] []
  dot_S256x512_S512x1024_S256x1024_1_0_0_1_n_n_wf : DotDims.WF S256x512 S512x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .bf16 = 32 ∨ (Rect.block (s := S4096x1024) S256x1024.size (cc0_transform_6 i) (hinb0_6 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x1024.size a ≤ S4096x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .f32 = 32 ∨ (Rect.block (s := S4096x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .f32 = 32 ∨ (Rect.block (s := S4096x1024) S4096x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x1024.size a
  hwx1_3 : ∀ i : grid1.Coords, EltTy.bits .f32 = 32 ∨ (Rect.block (s := S4096x1024) S256x1024.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v0_2) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v0_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S1024x4096 : Shape := ⟨2, ![1024, 4096]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S4096x4096, .f32⟩
  | .hbm, ⟨28, _⟩ => ⟨S4096x4096, .f32⟩
  | .hbm, ⟨29, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.ProjBody.lean ====
/-
  The projection kernel (first pallas_call): at grid point t it reads rows [256·t, 256·t + 256) of x and the three
  whole weight matrices and stores x_t · W_query, x_t · W_key and x_t · W_value (the last narrowed to bf16) as the
  three output blocks. It keeps nothing between points: the region invariant is the plain one.
  Stated at a parameter `V`, the buffers' contents when the region is entered.
-/
import proofs.«406591_j58067957842421_3_alg».proof.Proof.Gen.Kernel.Launch
import proofs.«406591_j58067957842421_3_alg».proof.Proof.Gen.Kernel.Skeleton
import proofs.«406591_j58067957842421_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S256x1024 := Rect.unit (s := S256x1024) ![0, 0] S256x1024.size Facts₀.inb_S256x1024_S256x1024_0_0
abbrev rW : Rect S1024x1024 := Rect.unit (s := S1024x1024) ![0, 0] S1024x1024.size Facts₀.inb_S1024x1024_S1024x1024_0_0

/-- The three output blocks from the x block and a weight matrix: the body's one whole-block store each. -/
def outQ (x : Vec F S256x1024 .f32) (w : Vec F S1024x1024 .f32) : Vec F S256x1024 .f32 :=
  View.canon [⟨rX, k0_pay2 (View.ld x rX) (View.ld w rW)⟩]
def outK (x : Vec F S256x1024 .f32) (w : Vec F S1024x1024 .f32) : Vec F S256x1024 .f32 :=
  View.canon [⟨rX, k0_pay3 (View.ld x rX) (View.ld w rW)⟩]
def outV (x : Vec F S256x1024 .f32) (w : Vec F S1024x1024 .f32) : Vec F S256x1024 .bf16 :=
  View.canon [⟨rX, k0_pay4 (View.ld x rX) (View.ld w rW)⟩]

/-- The proof data of the projection pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-! ## What the body finds in each input window's buffer

An input window's buffer holds its block at every point, fetched there or not: where it is not fetched the block
index has not moved, and the body leaves the buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's triple -/

/-- One store through the whole rectangle covers the block. -/
theorem cover0 {e : EltTy} (p0 : rX.shape.Idx → Elt F e) (y : S256x1024.Idx) :
    ∃ pc ∈ ([⟨rX, p0⟩] : List (View.Piece (Elt F) S256x1024 e)), y ∈ pc.1.set :=
  View.cover_of_tiled [⟨rX, p0⟩] S256x1024.size (by rfl) y

set_option maxHeartbeats 1000000 in
/-- The body on whole staging memrefs, the four inputs' at contents `x w1 w2 w3` and the three outputs' at anything,
    runs to a continuation holding the inputs' as they were and the outputs' at the three products. -/
theorem sound_kernel0 (c : Dev nD) (E : Set ℕ) (i : grid0.Coords)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .bf16) (harg7 : arg7.IsWhole)
    (x : Vec F S256x1024 .f32) (w1 w2 w3 : Vec F S1024x1024 .f32) (K : PUnit → sProp 𝕄) :
    iprop(owns (c : Thread nD τ) arg1 fullShare x ∗ owns (c : Thread nD τ) arg2 fullShare w1
        ∗ owns (c : Thread nD τ) arg3 fullShare w2 ∗ owns (c : Thread nD τ) arg4 fullShare w3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare w1
            ∗ owns (c : Thread nD τ) arg3 fullShare w2 ∗ owns (c : Thread nD τ) arg4 fullShare w3
            ∗ owns (c : Thread nD τ) arg5 fullShare (outQ x w1) ∗ owns (c : Thread nD τ) arg6 fullShare (outK x w2)
            ∗ owns (c : Thread nD τ) arg7 fullShare (outV x w3)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The body obligation, at a generic point -/

/-- What the body is called with at point `t`: the invariant, what the core owes, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the projection kernel, at every point. -/
theorem body_obligation0 (c : Dev nD) : BodyObligation (dat0 (F := F) V c) (defs₀ (F := F)) Variants.none () Set.univ := fun t => by
  rw [bigSep_W0, bigSep_W0]
  exact sound_body0 V c t

end Cert.Kernel.Proj

end
-- ==== Proof.K.AttStep.lean ====
/-
  The flash-attention kernel's point update, as pure functions of what the body reads.

  At grid point (qi, kv) the body reads the query block `q` (256 rows), rows [512·kv, 512·kv + 512) of the key and
  value arrays, and the three scratch buffers: the running row maximum `m`, the running denominator `l` and the
  running numerator `acc`. It leaves
      m'   = max(m, rowmax(s)),            s = (q · kᵀ) / 32 on this key block,
      l'   = exp(m − m') · l + rowsum(exp(s − m')),
      acc' = exp(m − m') · acc + exp(s − m') · v,
  and at kv = 0 it first resets (m, l, acc) to (−∞, 0, 0). At the last key block it also stores acc' / l' as the
  output block. The functions below are those values, spelled through the skeleton's payloads.
-/
import proofs.«406591_j58067957842421_3_alg».proof.Proof.Gen.Kernel.Skeleton
import Idealize.ShloMosaic.Lib.Pipeline.FrameBody

noncomputable section

namespace Cert.Kernel.Att

open Idealize.ShloMosaic Idealize.SL.Sem Cert.Kernel Cert.Kernel.Gen
open Cert.Kernel.Facts₀ Cert.Kernel.Facts

variable {F : FTy → Type} [FloatOps F] [Cert.Kernel.Facts]

/-- The three scratch buffers' contents: running maximum, running denominator, running numerator. -/
abbrev St (F : FTy → Type) : Type := Vec F S256x1 .f32 × Vec F S256x1 .f32 × Vec F S256x1024 .f32

/-- The rectangle of the 512 key (value) rows the point at coordinates `i` reads. -/
abbrev rKV (i : grid1.Coords) : Rect S4096x1024 :=
  Rect.unit (s := S4096x1024) (k1_off1 i) S512x1024.size (Facts₀.k1_off1_inb i)

/-- The key rows read at `i`, out of the whole key array. -/
def kblk (i : grid1.Coords) (Ka : Vec F S4096x1024 .f32) : Vec F S512x1024 .f32 := View.ld Ka (rKV i)
/-- The value rows read at `i`, out of the whole value array. -/
def vblk (i : grid1.Coords) (Va : Vec F S4096x1024 .bf16) : Vec F S512x1024 .bf16 := View.ld Va (rKV i)

/-- The scratch contents the first key block of a query block starts from: (−∞, 0, 0). -/
def st0 : St F := (k1_pay4 (F := F), k1_pay5 (F := F), k1_pay6 (F := F))

/-- One point's update of the scratch from contents `s`. -/
def stepNext (i : grid1.Coords) (q : Vec F S256x1024 .f32) (Ka : Vec F S4096x1024 .f32) (Va : Vec F S4096x1024 .bf16)
    (s : St F) : St F :=
  (k1_pay2 (k1_pay8 (kblk i Ka) q s.1),
   k1_pay11 (kblk i Ka) q s.1 s.1 s.2.1,
   k1_pay1 (k1_pay9 (kblk i Ka) q s.1 s.1) (k1_pay12 (kblk i Ka) (vblk i Va) q s.1) s.2.2)

/-- The update at a query block's first key block: from the reset contents. -/
def stepFirst (i : grid1.Coords) (q : Vec F S256x1024 .f32) (Ka : Vec F S4096x1024 .f32) (Va : Vec F S4096x1024 .bf16) : St F :=
  stepNext i q Ka Va st0

/-- The output block stored at a query block's last key block: numerator over denominator. -/
def outO (s : St F) : Vec F S256x1024 .f32 := k1_pay3 s.2.2 s.2.1

end Cert.Kernel.Att

end
-- ==== Proof.K.AttBody.lean ====
/-
  The flash-attention body run once per control case. The body branches on "first key block" (reset the scratch) and on
  "last key block" (store the output); of the four combinations the grid meets three. In each the body leaves the
  query block, the key array and the value array as it found them and the scratch at the point update of AttStep.
-/
import proofs.«406591_j58067957842421_3_alg».proof.Proof.K.AttStep
import proofs.«406591_j58067957842421_3_alg».proof.Proof.Gen.Kernel.Launch
import proofs.«406591_j58067957842421_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- "This is the query block's first key block": the first `scf.if`'s condition from the grid coordinates. -/
abbrev cFirst (i : grid1.Coords) : Prop :=
  (Scalar.cmpi .ne (Scalar.extui (Scalar.cmpi .eq (BitVec.ofNat 32 (i 1).val) 0#32)) 0#32) = 1#1
/-- "This is the query block's last key block": the second `scf.if`'s condition. -/
abbrev cLast (i : grid1.Coords) : Prop := k1_cond2 i = 1#1

/-- The two zero offsets, however spelt, are the zero function. -/
private theorem hz2 : (![0, 0] : Fin 2 → Nat) = fun _ => 0 := by funext a; fin_cases a <;> rfl

/-- What a buffer reads as after a store through its whole rectangle, whatever was stored before: that store's payload. -/
private theorem read_writes_whole {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self .., View.mem_set_unit_zero hz inb y⟩),
    View.canon_cons_unit_zero hz]

/-- First key block (not the last): whatever the scratch held, it ends at the update from the reset contents; the
    output buffer is not touched. -/
theorem sound1_first (c : Dev nD) (E : Set ℕ) (i : grid1.Coords) (arg2 : Memref sig .tc .vmem S256x1024 .f32) (harg2 : arg2.IsWhole) (arg3 : Memref sig .tc .vmem S4096x1024 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole)
    (hf : cFirst i) (hl : ¬cLast i)
    (q : Vec F S256x1024 .f32) (Ka : Vec F S4096x1024 .f32) (Va : Vec F S4096x1024 .bf16) (o : Vec F S256x1024 .f32) (K : PUnit → sProp 𝕄) :
    iprop(owns (c : Thread nD τ) arg2 fullShare q ∗ owns (c : Thread nD τ) arg3 fullShare Ka ∗ owns (c : Thread nD τ) arg4 fullShare Va
        ∗ owns (c : Thread nD τ) arg5 fullShare o
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare Ka ∗ owns (c : Thread nD τ) arg4 fullShare Va
            ∗ owns (c : Thread nD τ) arg5 fullShare o
            ∗ owns (c : Thread nD τ) arg6 fullShare (stepFirst i q Ka Va).1 ∗ owns (c : Thread nD τ) arg7 fullShare (stepFirst i q Ka Va).2.1
            ∗ owns (c : Thread nD τ) arg8 fullShare (stepFirst i q Ka Va).2.2) -∗ K ⟨⟩))
      ⊢ wp frame (wpE (defs₀ (F := F)) Variants.none c none) E (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole arg6 _ hz2 _ _ _).trans ?_
    sl_unfold_run_names
    simp only [View.readAt_eq_ld, harg2.read_unread, harg3.read_unread, harg4.read_unread,
      View.ld_unit_zero (S := S256x1) hz2, View.ld_unit_zero (S := S256x1024) hz2,
      View.readCov_unit_zero (S := S256x1) _ hz2, View.readCov_unit_zero (S := S256x1024) _ hz2]
    rfl
  isplitl [H7]
  · iexists _; isplitr
    swap; · iexact H7
    ipureintro
    refine (read_writes_whole arg7 _ hz2 _ _ _).trans ?_
    sl_unfold_run_names
    simp only [View.readAt_eq_ld, harg2.read_unread, harg3.read_unread, harg4.read_unread,
      View.ld_unit_zero (S := S256x1) hz2, View.ld_unit_zero (S := S256x1024) hz2,
      View.readCov_unit_zero (S := S256x1) _ hz2, View.readCov_unit_zero (S := S256x1024) _ hz2]
    rfl
  iexists _; isplitr
  swap; · iexact H8
  ipureintro
  refine (read_writes_whole arg8 _ hz2 _ _ _).trans ?_
  sl_unfold_run_names
  simp only [View.readAt_eq_ld, harg2.read_unread, harg3.read_unread, harg4.read_unread,
      View.ld_unit_zero (S := S256x1) hz2, View.ld_unit_zero (S := S256x1024) hz2,
      View.readCov_unit_zero (S := S256x1) _ hz2, View.readCov_unit_zero (S := S256x1024) _ hz2]
  rfl

/-- A middle key block: from scratch contents `s` to their update; the output buffer is not touched. -/
theorem sound1_mid (c : Dev nD) (E : Set ℕ) (i : grid1.Coords) (arg2 : Memref sig .tc .vmem S256x1024 .f32) (harg2 : arg2.IsWhole) (arg3 : Memref sig .tc .vmem S4096x1024 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole)
    (hf : ¬cFirst i) (hl : ¬cLast i)
    (q : Vec F S256x1024 .f32) (Ka : Vec F S4096x1024 .f32) (Va : Vec F S4096x1024 .bf16) (o : Vec F S256x1024 .f32) (s : St F) (K : PUnit → sProp 𝕄) :
    iprop(owns (c : Thread nD τ) arg2 fullShare q ∗ owns (c : Thread nD τ) arg3 fullShare Ka ∗ owns (c : Thread nD τ) arg4 fullShare Va
        ∗ owns (c : Thread nD τ) arg5 fullShare o
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare Ka ∗ owns (c : Thread nD τ) arg4 fullShare Va
            ∗ owns (c : Thread nD τ) arg5 fullShare o
            ∗ owns (c : Thread nD τ) arg6 fullShare (stepNext i q Ka Va s).1 ∗ owns (c : Thread nD τ) arg7 fullShare (stepNext i q Ka Va s).2.1
            ∗ owns (c : Thread nD τ) arg8 fullShare (stepNext i q Ka Va s).2.2) -∗ K ⟨⟩))
      ⊢ wp frame (wpE (defs₀ (F := F)) Variants.none c none) E (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole arg6 _ hz2 _ _ _).trans ?_
    sl_unfold_run_names
    simp only [View.readAt_eq_ld, harg2.read_unread, harg3.read_unread, harg4.read_unread, harg6.read_unread,
      harg7.read_unread, harg8.read_unread, View.ld_unit_zero (S := S256x1) hz2, View.ld_unit_zero (S := S256x1024) hz2]
    rfl
  isplitl [H7]
  · iexists _; isplitr
    swap; · iexact H7
    ipureintro
    refine (read_writes_whole arg7 _ hz2 _ _ _).trans ?_
    sl_unfold_run_names
    simp only [View.readAt_eq_ld, harg2.read_unread, harg3.read_unread, harg4.read_unread, harg6.read_unread,
      harg7.read_unread, harg8.read_unread, View.ld_unit_zero (S := S256x1) hz2, View.ld_unit_zero (S := S256x1024) hz2]
    rfl
  iexists _; isplitr
  swap; · iexact H8
  ipureintro
  refine (read_writes_whole arg8 _ hz2 _ _ _).trans ?_
  sl_unfold_run_names
  simp only [View.readAt_eq_ld, harg2.read_unread, harg3.read_unread, harg4.read_unread, harg6.read_unread,
      harg7.read_unread, harg8.read_unread, View.ld_unit_zero (S := S256x1) hz2, View.ld_unit_zero (S := S256x1024) hz2]
  rfl

/-- The last key block: the scratch updated, and the output buffer at numerator over denominator of the update. -/
theorem sound1_last (c : Dev nD) (E : Set ℕ) (i : grid1.Coords) (arg2 : Memref sig .tc .vmem S256x1024 .f32) (harg2 : arg2.IsWhole) (arg3 : Memref sig .tc .vmem S4096x1024 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole)
    (hf : ¬cFirst i) (hl : cLast i)
    (q : Vec F S256x1024 .f32) (Ka : Vec F S4096x1024 .f32) (Va : Vec F S4096x1024 .bf16) (s : St F) (K : PUnit → sProp 𝕄) :
    iprop(owns (c : Thread nD τ) arg2 fullShare q ∗ owns (c : Thread nD τ) arg3 fullShare Ka ∗ owns (c : Thread nD τ) arg4 fullShare Va
        ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare Ka ∗ owns (c : Thread nD τ) arg4 fullShare Va
            ∗ owns (c : Thread nD τ) arg5 fullShare (outO (stepNext i q Ka Va s))
            ∗ owns (c : Thread nD τ) arg6 fullShare (stepNext i q Ka Va s).1 ∗ owns (c : Thread nD τ) arg7 fullShare (stepNext i q Ka Va s).2.1
            ∗ owns (c : Thread nD τ) arg8 fullShare (stepNext i q Ka Va s).2.2) -∗ K ⟨⟩))
      ⊢ wp frame (wpE (defs₀ (F := F)) Variants.none c none) E (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole arg5 _ hz2 _ _ _).trans ?_
    simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
    rfl
  isplitl [H6]
  · iexists _; isplitr
    swap; · iexact H6
    ipureintro
    sl_unfold_run_names
    refine (read_writes_whole arg6 _ hz2 _ _ _).trans ?_
    simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
    rfl
  isplitl [H7]
  · iexists _; isplitr
    swap; · iexact H7
    ipureintro
    sl_unfold_run_names
    refine (read_writes_whole arg7 _ hz2 _ _ _).trans ?_
    simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
    rfl
  iexists _; isplitr
  swap; · iexact H8
  ipureintro
  sl_unfold_run_names
  refine (read_writes_whole arg8 _ hz2 _ _ _).trans ?_
  simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
  rfl

end Cert.Kernel.Att

end
-- ==== Proof.K.AttDat.lean ====
/-
  The flash-attention pipeline's proof data. The grid is 16 query blocks × 8 key blocks, point t = 8·qi + kv.
  The scratch is carried from point to point inside a query block and reset at kv = 0: `scAt n` is its contents after
  point n, by recursion on n. The output window is stored at kv = 7 only (and written back there); elsewhere it is idle.
  Stated at a parameter `V`, the buffers' contents when the region is entered.
-/
import proofs.«406591_j58067957842421_3_alg».proof.Proof.K.AttBody

set_option maxRecDepth 16384

noncomputable section

namespace Cert.Kernel.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after point `n`: reset-and-update at a query block's first key block, update of the point before otherwise. -/
def scAt (c : Dev nD) : (n : ℕ) → n < cfg1.N → St F
  | 0, hn => stepFirst (grid1.coords ⟨0, hn⟩) (iblk1 V c 0 ⟨0, hn⟩) (iblk1 V c 1 ⟨0, hn⟩) (iblk1 V c 2 ⟨0, hn⟩)
  | n + 1, hn =>
    if (n + 1) % 8 = 0 then
      stepFirst (grid1.coords ⟨n + 1, hn⟩) (iblk1 V c 0 ⟨n + 1, hn⟩) (iblk1 V c 1 ⟨n + 1, hn⟩) (iblk1 V c 2 ⟨n + 1, hn⟩)
    else
      stepNext (grid1.coords ⟨n + 1, hn⟩) (iblk1 V c 0 ⟨n + 1, hn⟩) (iblk1 V c 1 ⟨n + 1, hn⟩) (iblk1 V c 2 ⟨n + 1, hn⟩)
        (scAt c n (Nat.lt_of_succ_lt hn))

theorem scAt_first (c : Dev nD) (t : Fin cfg1.N) (h : t.val % 8 = 0) :
    scAt V c t.val t.isLt = stepFirst (grid1.coords t) (iblk1 V c 0 t) (iblk1 V c 1 t) (iblk1 V c 2 t) := by
  obtain ⟨n, hn⟩ := t
  cases n with
  | zero => exact rfl
  | succ n => exact (if_pos h).trans rfl

theorem scAt_next (c : Dev nD) (t : Fin cfg1.N) (h : ¬t.val % 8 = 0) :
    scAt V c t.val t.isLt = stepNext (grid1.coords t) (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The three scratch operands as whole memrefs. -/
abbrev scM : Memref sig .tc .vmem S256x1 .f32 := Memref.whole cc1_scratch0
abbrev scL : Memref sig .tc .vmem S256x1 .f32 := Memref.whole cc1_scratch1
abbrev scA : Memref sig .tc .vmem S256x1024 .f32 := Memref.whole cc1_scratch2

/-- The core's scoped buffers that are neither a staging buffer of this call nor one of the three scratch operands, each
    at some contents: the invariant carries them unopened. -/
abbrev restS (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region invariant before position `n`: the plain one before the first point; afterwards the three scratch buffers at
    what the point before left, the other scoped buffers at anything, and the generator register at some state. -/
def PhiS (c : Dev nD) : (n : ℕ) → n ≤ cfg1.N → sProp 𝕄
  | 0, _ => Pipeline.ΦA spec1 c
  | n + 1, hn => iprop(owns (c : Thread nD τ) scM fullShare (scAt V c n hn).1 ∗ owns (c : Thread nD τ) scL fullShare (scAt V c n hn).2.1
      ∗ owns (c : Thread nD τ) scA fullShare (scAt V c n hn).2.2 ∗ restS (F := F) c ∗ (∃ r, prngReg c r))

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = outO (scAt V c t.val t.isLt) := by dsimp only [dat1]

/-! ## The invariant, position by position -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (scAt V c n hn).1 ∗ owns (c : Thread nD τ) scL fullShare (scAt V c n hn).2.1
      ∗ owns (c : Thread nD τ) scA fullShare (scAt V c n hn).2.2 ∗ restS (F := F) c ∗ (∃ r, prngReg c r)) := rfl

theorem PhiS_pos (c : Dev nD) (n : ℕ) (h : n ≤ cfg1.N) (hz : n ≠ 0) :
    PhiS V c n h = iprop(owns (c : Thread nD τ) scM fullShare (scAt V c (n - 1) (by omega)).1 ∗ owns (c : Thread nD τ) scL fullShare (scAt V c (n - 1) (by omega)).2.1
      ∗ owns (c : Thread nD τ) scA fullShare (scAt V c (n - 1) (by omega)).2.2 ∗ restS (F := F) c ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-- The scoped rest split at the three scratch operands. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ restS (F := F) c) :=
  Pipeline.scopedRest_split_of_list spec1 c [cc1_scratch0, cc1_scratch1, cc1_scratch2] (by decide) (by decide)

/-- The plain invariant with the scratch operands as memrefs owned at some contents. -/
theorem PhiA1_eq (c : Dev nD) :
    (Pipeline.ΦA spec1 c : sProp 𝕄)
      = iprop(iprop(iprop((∃ d, owns (c : Thread nD τ) scM fullShare d) ∗ (∃ d, owns (c : Thread nD τ) scL fullShare d) ∗ (∃ d, owns (c : Thread nD τ) scA fullShare d))
          ∗ restS (F := F) c) ∗ (∃ r, prngReg c r)) := by
  unfold Pipeline.ΦA; rw [scopedRest1_split]; simp only [scM, scL, scA, owns_whole]; try rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HM, HL, HA, Hr, Hg⟩
  isplitl [HM HL HA Hr]
  · isplitl [HM HL HA]
    · isplitl [HM]; · iexists _; iexact HM
      isplitl [HL]; · iexists _; iexact HL
      iexists _; iexact HA
    iexact Hr
  iexact Hg

/-- After the last point the invariant gives the plain one back: the scratch's named contents are forgotten. -/
theorem hout1 (c : Dev nD) : (dat1 V c).Φ (Fin.last cfg1.N) ⊢ Pipeline.ΦA spec1 c :=
  Phi_out1 V c _ (by rw [Fin.val_last]; have : cfg1.N = 128 := N_1; omega)

/-! ## The conditions and the idle table in closed form -/

/-- "First key block" holds at the points ≡ 0 (mod 8). -/
theorem hcF : ∀ t : Fin cfg1.N, cFirst (grid1.coords t) ↔ t.val % 8 = 0 :=
  (by decide +kernel : ∀ t : Fin grid1.N, cFirst (grid1.coords t) ↔ t.val % 8 = 0)

/-- "Last key block" holds at the points ≡ 7 (mod 8). -/
theorem hcL : ∀ t : Fin cfg1.N, cLast (grid1.coords t) ↔ t.val % 8 = 7 :=
  (by decide +kernel : ∀ t : Fin grid1.N, cLast (grid1.coords t) ↔ t.val % 8 = 7)

/-- The input windows are never idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
/-- Off the last key block the output window is idle and is not written back. -/
theorem idle1_3 : ∀ t : Fin cfg1.N, ¬cLast (grid1.coords t) → cfg1.idle 3 (grid1.coords t) = true := by decide +kernel
theorem noFlush1_3 : ∀ t : Fin cfg1.N, ¬cLast (grid1.coords t) → (cfg1.win 3).flush t = false := by decide +kernel
/-- At the last key block the output window is live. -/
theorem live1_3 : ∀ t : Fin cfg1.N, cLast (grid1.coords t) → cfg1.idle 3 (grid1.coords t) = false := by decide +kernel

/-! ## The input windows hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- Each window's current staging memref at point `t`, as the pipeline passes it. -/
abbrev ms1_0 (t : Fin cfg1.N) : Memref sig .tc .vmem S256x1024 .f32 := win1_0.stage (cfg1.slots t 0)
abbrev ms1_1 (t : Fin cfg1.N) : Memref sig .tc .vmem S4096x1024 .f32 := win1_1.stage (cfg1.slots t 1)
abbrev ms1_2 (t : Fin cfg1.N) : Memref sig .tc .vmem S4096x1024 .bf16 := win1_2.stage (cfg1.slots t 2)
abbrev ms1_3 (t : Fin cfg1.N) : Memref sig .tc .vmem S256x1024 .f32 := win1_3.stage (cfg1.slots t 3)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input windows hold their blocks; the closed forms say which of the three control cases the
    point is in; the invariant hands the body the scratch at what the point before left (at anything at the first point)
    and takes it back at this point's update. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 8 = 0
  · -- a query block's first key block: the scratch is reset, so what it held does not matter
    have hf : cFirst (grid1.coords t) := (hcF t).mpr h0
    have hl : ¬cLast (grid1.coords t) := fun h => by have := (hcL t).mp h; omega
    rw [Dat.leavesExact_idle (dat1 V c) 3 t (idle1_3 t hl) (noFlush1_3 t hl)]
    rw [scAt_first V c t h0]
    by_cases hz : t.val = 0
    · rw [PhiS_castSucc V c t, PhiS_zero V c _ _ hz, PhiA1_eq]
      iintro ⟨⟨⟨⟨⟨%m0, HM⟩, ⟨%l0, HL⟩, ⟨%a0, HA⟩⟩, Hr⟩, Hg⟩, Ho, ⟨%d0, H0⟩, ⟨%d1, H1⟩, ⟨%d2, H2⟩, ⟨%d3, H3⟩⟩
      iapply (sound1_first c Set.univ (grid1.coords t) _ _ _ _ _ _ _ _ _ _ _ _ _ _ hf hl (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HM, HL, HA, Hr, Hg⟩, Ho, ⟨%d0, H0⟩, ⟨%d1, H1⟩, ⟨%d2, H2⟩, ⟨%d3, H3⟩⟩
      iapply (sound1_first c Set.univ (grid1.coords t) _ _ _ _ _ _ _ _ _ _ _ _ _ _ hf hl (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexists _; iexact H3
  · have hf : ¬cFirst (grid1.coords t) := fun h => h0 ((hcF t).mp h)
    have hz : t.val ≠ 0 := fun e => h0 (by rw [e])
    by_cases h7 : t.val % 8 = 7
    · -- the last key block: the scratch updated and the output stored
      have hl : cLast (grid1.coords t) := (hcL t).mpr h7
      rw [show (dat1 V c).leavesExact 3 t = owns (c : Thread nD τ) (ms1_3 t) fullShare ((dat1 V c).after 3 t) from by
        unfold Dat.leavesExact; rw [live1_3 t hl], after1_3]
      rw [scAt_next V c t h0]
      rw [PhiS_castSucc V c t, PhiS_pos V c _ _ hz]
      iintro ⟨⟨HM, HL, HA, Hr, Hg⟩, Ho, ⟨%d0, H0⟩, ⟨%d1, H1⟩, ⟨%d2, H2⟩, ⟨%d3, H3⟩⟩
      iapply (sound1_last c Set.univ (grid1.coords t) _ _ _ _ _ _ _ _ _ _ _ _ _ _ hf hl (iblk1 V c 0 t) (iblk1 V c 1 t) (iblk1 V c 2 t)
        (scAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexact H3
    · -- a middle key block: the scratch updated, the output buffer untouched
      have hl : ¬cLast (grid1.coords t) := fun h => h7 ((hcL t).mp h)
      rw [Dat.leavesExact_idle (dat1 V c) 3 t (idle1_3 t hl) (noFlush1_3 t hl)]
      rw [scAt_next V c t h0]
      rw [PhiS_castSucc V c t, PhiS_pos V c _ _ hz]
      iintro ⟨⟨HM, HL, HA, Hr, Hg⟩, Ho, ⟨%d0, H0⟩, ⟨%d1, H1⟩, ⟨%d2, H2⟩, ⟨%d3, H3⟩⟩
      iapply (sound1_mid c Set.univ (grid1.coords t) _ _ _ _ _ _ _ _ _ _ _ _ _ _ hf hl (iblk1 V c 0 t) (iblk1 V c 1 t) (iblk1 V c 2 t) ((dat1 V c).before 3 t d3)
        (scAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexists _; iexact H3

/-- The library's body obligation for the attention kernel, at every point. -/
theorem body_obligation1 (c : Dev nD) : BodyObligation (dat1 (F := F) V c) (defs₀ (F := F)) Variants.none () Set.univ := fun t => by
  rw [bigSep_W1, bigSep_W1]
  exact sound_body V c t

end Cert.Kernel.Att

end
-- ==== Proof.K.AttRun.lean ====
/-
  The whole program's run: @main is the projection region followed by the attention region, with no host operation
  between them. The buffers' contents at the three boundaries: the launch memory; after the projection, its three
  output arrays (queries, keys, values) at what its write-backs leave; after the attention, the result array at what
  its write-backs leave. Every weakly fair execution terminates with the result array at that last value and the four
  argument arrays as launched.
-/
import proofs.«406591_j58067957842421_3_alg».proof.Proof.K.ProjBody
import proofs.«406591_j58067957842421_3_alg».proof.Proof.K.AttDat
import Idealize.ShloMosaic.Lib.Pipeline.RegionsLoop
import Idealize.ShloMosaic.Lib.Pipeline.FrameSuffix

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Proj Cert.Kernel.Att

variable (m : (ℓ : Loc nD τ sig) → Buf (Elt F) ℓ) (ρ : Dev nD → PrngReg)

/-- Core `c`'s buffers at launch (the projection region's entry). -/
abbrev W1 : Dev nD → Valuation τ sig (Elt F) := fun c b => m (c, b)
abbrev V1 : (c : Dev nD) → (b : Ref sig .tc) → Buf (Elt F) ((c : Thread nD τ).loc b) := fun c b => W1 m c b
/-- After the projection region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: the result array at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-- An argument array is an input of the projection and no array of the attention: it ends as launched. -/
theorem W4_arg (c : Dev nD) (w : Fin cfg0.W) (hw : (cfg0.win w).isOut = false) (b : Ref sig .tc) (hb : Pipeline.arrRef spec0 w = b)
    (hne : ∀ w', Pipeline.arrRef spec1 w' ≠ b) : W4 m c (Proc.devRef .tc b) = m ((c : Thread nD τ).loc b) := by
  subst hb
  rw [W4_of_ne m c _ hne, W2_arr m c w, (dat0 (V1 m) c).arrAt_in w hw _, A_eq0]

/-- The result array ends at what the attention pipeline's write-backs leave. -/
theorem W4_res (c : Dev nD) : W4 m c (Proc.devRef .tc main_v0) = (dat1 (V2 m) c).arrAt 3 cfg1.N := W4_arr m c 3

/-- What the attention region finds in its three input arrays: what the projection's write-backs left. -/
theorem V2_q (c : Dev nD) : V2 m c main_call0_v0_0 = (dat0 (V1 m) c).arrAt 4 cfg0.N := W2_arr m c 4
theorem V2_k (c : Dev nD) : V2 m c main_call0_v0_1 = (dat0 (V1 m) c).arrAt 5 cfg0.N := W2_arr m c 5
theorem V2_v (c : Dev nD) : V2 m c main_call0_v0_2 = (dat0 (V1 m) c).arrAt 6 cfg0.N := W2_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the core's generator register at some state and its debts, none. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W4 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The projection region: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W4`; the scratch enters the region
    invariant at anything and leaves it at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state has the result array at what the attention pipeline's write-backs leave and the four
    argument arrays as launched. -/
theorem run_main : θ_run defs (onTc (τ := τ) (main (F := F))) ⟨m, fun _ => 0, ρ⟩ (fun r => ∀ c : Dev nD,
      r.2.mem ((c.tc : Thread nD τ).loc main_v0) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W1 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W1 m c)
        from Pipeline.unscopedBufs_held c (W1 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_res m c),
       (h c _ (mem_uc main_arg0 (by decide))).trans (W4_arg m c 0 rfl main_arg0 rfl (by decide)),
       (h c _ (mem_uc main_arg1 (by decide))).trans (W4_arg m c 1 rfl main_arg1 rfl (by decide)),
       (h c _ (mem_uc main_arg2 (by decide))).trans (W4_arg m c 2 rfl main_arg2 rfl (by decide)),
       (h c _ (mem_uc main_arg3 (by decide))).trans (W4_arg m c 3 rfl main_arg3 rfl (by decide))⟩)

/-- The frame: every weakly fair execution terminates with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Run

end
-- ==== Proof.KI.ProjBody.lean ====
/-
  The projection kernel (first pallas_call): at grid point t it reads rows [256·t, 256·t + 256) of x and the three
  whole weight matrices and stores x_t · W_query, x_t · W_key and x_t · W_value (the last narrowed to bf16) as the
  three output blocks. It keeps nothing between points: the region invariant is the plain one.
  Stated at a parameter `V`, the buffers' contents when the region is entered.
-/
import proofs.«406591_j58067957842421_3_alg».proof.Proof.Gen.KernelIdeal.Launch
import proofs.«406591_j58067957842421_3_alg».proof.Proof.Gen.KernelIdeal.Skeleton
import proofs.«406591_j58067957842421_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX : Rect S256x1024 := Rect.unit (s := S256x1024) ![0, 0] S256x1024.size Facts₀.inb_S256x1024_S256x1024_0_0
abbrev rW : Rect S1024x1024 := Rect.unit (s := S1024x1024) ![0, 0] S1024x1024.size Facts₀.inb_S1024x1024_S1024x1024_0_0

/-- The three output blocks from the x block and a weight matrix: the body's one whole-block store each. -/
def outQ (x : Vec F S256x1024 .f32) (w : Vec F S1024x1024 .f32) : Vec F S256x1024 .f32 :=
  View.canon [⟨rX, k0_pay2 (View.ld x rX) (View.ld w rW)⟩]
def outK (x : Vec F S256x1024 .f32) (w : Vec F S1024x1024 .f32) : Vec F S256x1024 .f32 :=
  View.canon [⟨rX, k0_pay3 (View.ld x rX) (View.ld w rW)⟩]
def outV (x : Vec F S256x1024 .f32) (w : Vec F S1024x1024 .f32) : Vec F S256x1024 .bf16 :=
  View.canon [⟨rX, k0_pay4 (View.ld x rX) (View.ld w rW)⟩]

/-- The proof data of the projection pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => outQ (iblk0 V c 0 t) (iblk0 V c 1 t)
    | ⟨5, _⟩ => outK (iblk0 V c 0 t) (iblk0 V c 2 t)
    | ⟨6, _⟩ => outV (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = outQ (iblk0 V c 0 t) (iblk0 V c 1 t) := by dsimp only [dat0]
theorem after0_5 (c : Dev nD) (t : Fin cfg0.N) : (dat0 V c).after 5 t = outK (iblk0 V c 0 t) (iblk0 V c 2 t) := by dsimp only [dat0]
theorem after0_6 (c : Dev nD) (t : Fin cfg0.N) : (dat0 V c).after 6 t = outV (iblk0 V c 0 t) (iblk0 V c 3 t) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]

/-! ## What the body finds in each input window's buffer

An input window's buffer holds its block at every point, fetched there or not: where it is not fetched the block
index has not moved, and the body leaves the buffer as it found it. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The body's triple -/

/-- One store through the whole rectangle covers the block. -/
theorem cover0 {e : EltTy} (p0 : rX.shape.Idx → Elt F e) (y : S256x1024.Idx) :
    ∃ pc ∈ ([⟨rX, p0⟩] : List (View.Piece (Elt F) S256x1024 e)), y ∈ pc.1.set :=
  View.cover_of_tiled [⟨rX, p0⟩] S256x1024.size (by rfl) y

set_option maxHeartbeats 1000000 in
/-- The body on whole staging memrefs, the four inputs' at contents `x w1 w2 w3` and the three outputs' at anything,
    runs to a continuation holding the inputs' as they were and the outputs' at the three products. -/
theorem sound_kernel0 (c : Dev nD) (E : Set ℕ) (i : grid0.Coords)
    (arg1 : Memref sig .tc .vmem S256x1024 .f32) (harg1 : arg1.IsWhole)
    (arg2 : Memref sig .tc .vmem S1024x1024 .f32) (harg2 : arg2.IsWhole)
    (arg3 : Memref sig .tc .vmem S1024x1024 .f32) (harg3 : arg3.IsWhole)
    (arg4 : Memref sig .tc .vmem S1024x1024 .f32) (harg4 : arg4.IsWhole)
    (arg5 : Memref sig .tc .vmem S256x1024 .f32) (harg5 : arg5.IsWhole)
    (arg6 : Memref sig .tc .vmem S256x1024 .f32) (harg6 : arg6.IsWhole)
    (arg7 : Memref sig .tc .vmem S256x1024 .bf16) (harg7 : arg7.IsWhole)
    (x : Vec F S256x1024 .f32) (w1 w2 w3 : Vec F S1024x1024 .f32) (K : PUnit → sProp 𝕄) :
    iprop(owns (c : Thread nD τ) arg1 fullShare x ∗ owns (c : Thread nD τ) arg2 fullShare w1
        ∗ owns (c : Thread nD τ) arg3 fullShare w2 ∗ owns (c : Thread nD τ) arg4 fullShare w3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x ∗ owns (c : Thread nD τ) arg2 fullShare w1
            ∗ owns (c : Thread nD τ) arg3 fullShare w2 ∗ owns (c : Thread nD τ) arg4 fullShare w3
            ∗ owns (c : Thread nD τ) arg5 fullShare (outQ x w1) ∗ owns (c : Thread nD τ) arg6 fullShare (outK x w2)
            ∗ owns (c : Thread nD τ) arg7 fullShare (outV x w3)) -∗ K ⟨⟩))
      ⊢ wp frame (wpE (defs₀ (F := F)) Variants.none c none) E
          (cc0__qkv_kernel i arg1 harg1 arg2 harg2 arg3 harg3 arg4 harg4 arg5 harg5 arg6 harg6 arg7 harg7) K := by
  simp only [cc0__qkv_kernel_eq_skeleton]; unfold cc0__qkv_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0 _)
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The body obligation, at a generic point -/

/-- What the body is called with at point `t`: the invariant, what the core owes, and every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for the projection kernel, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Proj

end
-- ==== Proof.KI.AttStep.lean ====
/-
  The flash-attention kernel's point update, as pure functions of what the body reads.

  At grid point (qi, kv) the body reads the query block `q` (256 rows), rows [512·kv, 512·kv + 512) of the key and
  value arrays, and the three scratch buffers: the running row maximum `m`, the running denominator `l` and the
  running numerator `acc`. It leaves
      m'   = max(m, rowmax(s)),            s = (q · kᵀ) / 32 on this key block,
      l'   = exp(m − m') · l + rowsum(exp(s − m')),
      acc' = exp(m − m') · acc + exp(s − m') · v,
  and at kv = 0 it first resets (m, l, acc) to (−∞, 0, 0). At the last key block it also stores acc' / l' as the
  output block. The functions below are those values, spelled through the skeleton's payloads.
-/
import proofs.«406591_j58067957842421_3_alg».proof.Proof.Gen.KernelIdeal.Skeleton
import Idealize.ShloMosaic.Lib.Pipeline.FrameBody

noncomputable section

namespace Cert.KernelIdeal.Att

open Idealize.ShloMosaic Idealize.SL.Sem Cert.KernelIdeal Cert.KernelIdeal.Gen
open Cert.KernelIdeal.Facts₀ Cert.KernelIdeal.Facts

variable {F : FTy → Type} [FloatOps F] [Cert.KernelIdeal.Facts]

/-- The three scratch buffers' contents: running maximum, running denominator, running numerator. -/
abbrev St (F : FTy → Type) : Type := Vec F S256x1 .f32 × Vec F S256x1 .f32 × Vec F S256x1024 .f32

/-- The rectangle of the 512 key (value) rows the point at coordinates `i` reads. -/
abbrev rKV (i : grid1.Coords) : Rect S4096x1024 :=
  Rect.unit (s := S4096x1024) (k1_off1 i) S512x1024.size (Facts₀.k1_off1_inb i)

/-- The key rows read at `i`, out of the whole key array. -/
def kblk (i : grid1.Coords) (Ka : Vec F S4096x1024 .f32) : Vec F S512x1024 .f32 := View.ld Ka (rKV i)
/-- The value rows read at `i`, out of the whole value array. -/
def vblk (i : grid1.Coords) (Va : Vec F S4096x1024 .bf16) : Vec F S512x1024 .bf16 := View.ld Va (rKV i)

/-- The scratch contents the first key block of a query block starts from: (−∞, 0, 0). -/
def st0 : St F := (k1_pay4 (F := F), k1_pay5 (F := F), k1_pay6 (F := F))

/-- One point's update of the scratch from contents `s`. -/
def stepNext (i : grid1.Coords) (q : Vec F S256x1024 .f32) (Ka : Vec F S4096x1024 .f32) (Va : Vec F S4096x1024 .bf16)
    (s : St F) : St F :=
  (k1_pay2 (k1_pay8 (kblk i Ka) q s.1),
   k1_pay11 (kblk i Ka) q s.1 s.1 s.2.1,
   k1_pay1 (k1_pay9 (kblk i Ka) q s.1 s.1) (k1_pay12 (kblk i Ka) (vblk i Va) q s.1) s.2.2)

/-- The update at a query block's first key block: from the reset contents. -/
def stepFirst (i : grid1.Coords) (q : Vec F S256x1024 .f32) (Ka : Vec F S4096x1024 .f32) (Va : Vec F S4096x1024 .bf16) : St F :=
  stepNext i q Ka Va st0

/-- The output block stored at a query block's last key block: numerator over denominator. -/
def outO (s : St F) : Vec F S256x1024 .f32 := k1_pay3 s.2.2 s.2.1

end Cert.KernelIdeal.Att

end
-- ==== Proof.KI.AttBody.lean ====
/-
  The flash-attention body run once per control case. The body branches on "first key block" (reset the scratch) and on
  "last key block" (store the output); of the four combinations the grid meets three. In each the body leaves the
  query block, the key array and the value array as it found them and the scratch at the point update of AttStep.
-/
import proofs.«406591_j58067957842421_3_alg».proof.Proof.KI.AttStep
import proofs.«406591_j58067957842421_3_alg».proof.Proof.Gen.KernelIdeal.Launch
import proofs.«406591_j58067957842421_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- "This is the query block's first key block": the first `scf.if`'s condition from the grid coordinates. -/
abbrev cFirst (i : grid1.Coords) : Prop :=
  (Scalar.cmpi .ne (Scalar.extui (Scalar.cmpi .eq (BitVec.ofNat 32 (i 1).val) 0#32)) 0#32) = 1#1
/-- "This is the query block's last key block": the second `scf.if`'s condition. -/
abbrev cLast (i : grid1.Coords) : Prop := k1_cond2 i = 1#1

/-- The two zero offsets, however spelt, are the zero function. -/
private theorem hz2 : (![0, 0] : Fin 2 → Nat) = fun _ => 0 := by funext a; fin_cases a <;> rfl

/-- What a buffer reads as after a store through its whole rectangle, whatever was stored before: that store's payload. -/
private theorem read_writes_whole {S : Shape} {e : EltTy} (m : Memref sig .tc .vmem S e) (f : m.view.ty.Contents (Elt F))
    {off : Fin S.rank → Nat} (hz : off = fun _ => 0) (inb : ∀ a, off a + S.size a ≤ S.size a) (w : S.Idx → Elt F e)
    (L : List (View.Piece (Elt F) S e)) :
    m.view.read (Elt F) (m.view.writes (Elt F) f ((⟨Rect.unit off S.size inb, w⟩ : View.Piece (Elt F) S e) :: L)) = w := by
  rw [View.read_writes_eq_canon _ _ _ (fun y => ⟨_, List.mem_cons_self .., View.mem_set_unit_zero hz inb y⟩),
    View.canon_cons_unit_zero hz]

/-- First key block (not the last): whatever the scratch held, it ends at the update from the reset contents; the
    output buffer is not touched. -/
theorem sound1_first (c : Dev nD) (E : Set ℕ) (i : grid1.Coords) (arg2 : Memref sig .tc .vmem S256x1024 .f32) (harg2 : arg2.IsWhole) (arg3 : Memref sig .tc .vmem S4096x1024 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole)
    (hf : cFirst i) (hl : ¬cLast i)
    (q : Vec F S256x1024 .f32) (Ka : Vec F S4096x1024 .f32) (Va : Vec F S4096x1024 .bf16) (o : Vec F S256x1024 .f32) (K : PUnit → sProp 𝕄) :
    iprop(owns (c : Thread nD τ) arg2 fullShare q ∗ owns (c : Thread nD τ) arg3 fullShare Ka ∗ owns (c : Thread nD τ) arg4 fullShare Va
        ∗ owns (c : Thread nD τ) arg5 fullShare o
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare q ∗ owns (c : Thread nD τ) arg3 fullShare Ka ∗ owns (c : Thread nD τ) arg4 fullShare Va
            ∗ owns (c : Thread nD τ) arg5 fullShare o
            ∗ owns (c : Thread nD τ) arg6 fullShare (stepFirst i q Ka Va).1 ∗ owns (c : Thread nD τ) arg7 fullShare (stepFirst i q Ka Va).2.1
            ∗ owns (c : Thread nD τ) arg8 fullShare (stepFirst i q Ka Va).2.2) -∗ K ⟨⟩))
      ⊢ wp frame (wpE (defs₀ (F := F)) Variants.none c none) E (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg4.eq_unread hf4
  obtain rfl := harg5.eq_unread hf5
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole arg6 _ hz2 _ _ _).trans ?_
    sl_unfold_run_names
    simp only [View.readAt_eq_ld, harg2.read_unread, harg3.read_unread, harg4.read_unread,
      View.ld_unit_zero (S := S256x1) hz2, View.ld_unit_zero (S := S256x1024) hz2,
      View.readCov_unit_zero (S := S256x1) _ hz2, View.readCov_unit_zero (S := S256x1024) _ hz2]
    rfl
  isplitl [H7]
  · iexists _; isplitr
    swap; · iexact H7
    ipureintro
    refine (read_writes_whole arg7 _ hz2 _ _ _).trans ?_
    sl_unfold_run_names
    simp only [View.readAt_eq_ld, harg2.read_unread, harg3.read_unread, harg4.read_unread,
      View.ld_unit_zero (S := S256x1) hz2, View.ld_unit_zero (S := S256x1024) hz2,
      View.readCov_unit_zero (S := S256x1) _ hz2, View.readCov_unit_zero (S := S256x1024) _ hz2]
    rfl
  iexists _; isplitr
  swap; · iexact H8
  ipureintro
  refine (read_writes_whole arg8 _ hz2 _ _ _).trans ?_
  sl_unfold_run_names
  simp only [View.readAt_eq_ld, harg2.read_unread, harg3.read_unread, harg4.read_unread,
      View.ld_unit_zero (S := S256x1) hz2, View.ld_unit_zero (S := S256x1024) hz2,
      View.readCov_unit_zero (S := S256x1) _ hz2, View.readCov_unit_zero (S := S256x1024) _ hz2]
  rfl

/-- A middle key block: from scratch contents `s` to their update; the output buffer is not touched. -/
theorem sound1_mid (c : Dev nD) (E : Set ℕ) (i : grid1.Coords) (arg2 : Memref sig .tc .vmem S256x1024 .f32) (harg2 : arg2.IsWhole) (arg3 : Memref sig .tc .vmem S4096x1024 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole)
    (hf : ¬cFirst i) (hl : ¬cLast i)
    (q : Vec F S256x1024 .f32) (Ka : Vec F S4096x1024 .f32) (Va : Vec F S4096x1024 .bf16) (o : Vec F S256x1024 .f32) (s : St F) (K : PUnit → sProp 𝕄) :
    iprop(owns (c : Thread nD τ) arg2 fullShare q ∗ owns (c : Thread nD τ) arg3 fullShare Ka ∗ owns (c : Thread nD τ) arg4 fullShare Va
        ∗ owns (c : Thread nD τ) arg5 fullShare o
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare Ka ∗ owns (c : Thread nD τ) arg4 fullShare Va
            ∗ owns (c : Thread nD τ) arg5 fullShare o
            ∗ owns (c : Thread nD τ) arg6 fullShare (stepNext i q Ka Va s).1 ∗ owns (c : Thread nD τ) arg7 fullShare (stepNext i q Ka Va s).2.1
            ∗ owns (c : Thread nD τ) arg8 fullShare (stepNext i q Ka Va s).2.2) -∗ K ⟨⟩))
      ⊢ wp frame (wpE (defs₀ (F := F)) Variants.none c none) E (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    refine (read_writes_whole arg6 _ hz2 _ _ _).trans ?_
    sl_unfold_run_names
    simp only [View.readAt_eq_ld, harg2.read_unread, harg3.read_unread, harg4.read_unread, harg6.read_unread,
      harg7.read_unread, harg8.read_unread, View.ld_unit_zero (S := S256x1) hz2, View.ld_unit_zero (S := S256x1024) hz2]
    rfl
  isplitl [H7]
  · iexists _; isplitr
    swap; · iexact H7
    ipureintro
    refine (read_writes_whole arg7 _ hz2 _ _ _).trans ?_
    sl_unfold_run_names
    simp only [View.readAt_eq_ld, harg2.read_unread, harg3.read_unread, harg4.read_unread, harg6.read_unread,
      harg7.read_unread, harg8.read_unread, View.ld_unit_zero (S := S256x1) hz2, View.ld_unit_zero (S := S256x1024) hz2]
    rfl
  iexists _; isplitr
  swap; · iexact H8
  ipureintro
  refine (read_writes_whole arg8 _ hz2 _ _ _).trans ?_
  sl_unfold_run_names
  simp only [View.readAt_eq_ld, harg2.read_unread, harg3.read_unread, harg4.read_unread, harg6.read_unread,
      harg7.read_unread, harg8.read_unread, View.ld_unit_zero (S := S256x1) hz2, View.ld_unit_zero (S := S256x1024) hz2]
  rfl

/-- The last key block: the scratch updated, and the output buffer at numerator over denominator of the update. -/
theorem sound1_last (c : Dev nD) (E : Set ℕ) (i : grid1.Coords) (arg2 : Memref sig .tc .vmem S256x1024 .f32) (harg2 : arg2.IsWhole) (arg3 : Memref sig .tc .vmem S4096x1024 .f32) (harg3 : arg3.IsWhole) (arg4 : Memref sig .tc .vmem S4096x1024 .bf16) (harg4 : arg4.IsWhole) (arg5 : Memref sig .tc .vmem S256x1024 .f32) (harg5 : arg5.IsWhole) (arg6 : Memref sig .tc .vmem S256x1 .f32) (harg6 : arg6.IsWhole) (arg7 : Memref sig .tc .vmem S256x1 .f32) (harg7 : arg7.IsWhole) (arg8 : Memref sig .tc .vmem S256x1024 .f32) (harg8 : arg8.IsWhole)
    (hf : ¬cFirst i) (hl : cLast i)
    (q : Vec F S256x1024 .f32) (Ka : Vec F S4096x1024 .f32) (Va : Vec F S4096x1024 .bf16) (s : St F) (K : PUnit → sProp 𝕄) :
    iprop(owns (c : Thread nD τ) arg2 fullShare q ∗ owns (c : Thread nD τ) arg3 fullShare Ka ∗ owns (c : Thread nD τ) arg4 fullShare Va
        ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare q ∗ owns (c : Thread nD τ) arg3 fullShare Ka ∗ owns (c : Thread nD τ) arg4 fullShare Va
            ∗ owns (c : Thread nD τ) arg5 fullShare (outO (stepNext i q Ka Va s))
            ∗ owns (c : Thread nD τ) arg6 fullShare (stepNext i q Ka Va s).1 ∗ owns (c : Thread nD τ) arg7 fullShare (stepNext i q Ka Va s).2.1
            ∗ owns (c : Thread nD τ) arg8 fullShare (stepNext i q Ka Va s).2.2) -∗ K ⟨⟩))
      ⊢ wp frame (wpE (defs₀ (F := F)) Variants.none c none) E (cc1__flash_attn_kernel i arg2 harg2 arg3 harg3 arg4 harg4 arg5 harg5 arg6 harg6 arg7 harg7 arg8 harg8) K := by
  simp only [cc1__flash_attn_kernel_eq_skeleton]; unfold cc1__flash_attn_kernel_skel
  unfold owns
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3; obtain rfl := harg4.eq_unread hf4
  obtain rfl := harg6.eq_unread hf6; obtain rfl := harg7.eq_unread hf7
  obtain rfl := harg8.eq_unread hf8
  sl_exec (disch := first | exact hf | exact hl)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    refine (read_writes_whole arg5 _ hz2 _ _ _).trans ?_
    simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
    rfl
  isplitl [H6]
  · iexists _; isplitr
    swap; · iexact H6
    ipureintro
    sl_unfold_run_names
    refine (read_writes_whole arg6 _ hz2 _ _ _).trans ?_
    simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
    rfl
  isplitl [H7]
  · iexists _; isplitr
    swap; · iexact H7
    ipureintro
    sl_unfold_run_names
    refine (read_writes_whole arg7 _ hz2 _ _ _).trans ?_
    simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
    rfl
  iexists _; isplitr
  swap; · iexact H8
  ipureintro
  sl_unfold_run_names
  refine (read_writes_whole arg8 _ hz2 _ _ _).trans ?_
  simp only [View.readAt_eq_ld, harg2.read_unread, harg3.read_unread, harg4.read_unread, harg6.read_unread,
      harg7.read_unread, harg8.read_unread, View.ld_unit_zero (S := S256x1) hz2, View.ld_unit_zero (S := S256x1024) hz2,
      View.readCov_unit_zero (S := S256x1) _ hz2, View.readCov_unit_zero (S := S256x1024) _ hz2]
  rfl

end Cert.KernelIdeal.Att

end
-- ==== Proof.KI.AttDat.lean ====
/-
  The flash-attention pipeline's proof data. The grid is 16 query blocks × 8 key blocks, point t = 8·qi + kv.
  The scratch is carried from point to point inside a query block and reset at kv = 0: `scAt n` is its contents after
  point n, by recursion on n. The output window is stored at kv = 7 only (and written back there); elsewhere it is idle.
  Stated at a parameter `V`, the buffers' contents when the region is entered.
-/
import proofs.«406591_j58067957842421_3_alg».proof.Proof.KI.AttBody

set_option maxRecDepth 16384

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch after point `n`: reset-and-update at a query block's first key block, update of the point before otherwise. -/
def scAt (c : Dev nD) : (n : ℕ) → n < cfg1.N → St F
  | 0, hn => stepFirst (grid1.coords ⟨0, hn⟩) (iblk1 V c 0 ⟨0, hn⟩) (iblk1 V c 1 ⟨0, hn⟩) (iblk1 V c 2 ⟨0, hn⟩)
  | n + 1, hn =>
    if (n + 1) % 8 = 0 then
      stepFirst (grid1.coords ⟨n + 1, hn⟩) (iblk1 V c 0 ⟨n + 1, hn⟩) (iblk1 V c 1 ⟨n + 1, hn⟩) (iblk1 V c 2 ⟨n + 1, hn⟩)
    else
      stepNext (grid1.coords ⟨n + 1, hn⟩) (iblk1 V c 0 ⟨n + 1, hn⟩) (iblk1 V c 1 ⟨n + 1, hn⟩) (iblk1 V c 2 ⟨n + 1, hn⟩)
        (scAt c n (Nat.lt_of_succ_lt hn))

theorem scAt_first (c : Dev nD) (t : Fin cfg1.N) (h : t.val % 8 = 0) :
    scAt V c t.val t.isLt = stepFirst (grid1.coords t) (iblk1 V c 0 t) (iblk1 V c 1 t) (iblk1 V c 2 t) := by
  obtain ⟨n, hn⟩ := t
  cases n with
  | zero => exact rfl
  | succ n => exact (if_pos h).trans rfl

theorem scAt_next (c : Dev nD) (t : Fin cfg1.N) (h : ¬t.val % 8 = 0) :
    scAt V c t.val t.isLt = stepNext (grid1.coords t) (iblk1 V c 0 t) (iblk1 V c 1 t) (iblk1 V c 2 t)
      (scAt V c (t.val - 1) (Nat.lt_of_le_of_lt (Nat.sub_le _ _) t.isLt)) := by
  obtain ⟨n, hn⟩ := t
  cases n with
  | zero => exact absurd (Nat.zero_mod _) h
  | succ n => exact (if_neg h).trans rfl

/-- The three scratch operands as whole memrefs. -/
abbrev scM : Memref sig .tc .vmem S256x1 .f32 := Memref.whole cc1_scratch0
abbrev scL : Memref sig .tc .vmem S256x1 .f32 := Memref.whole cc1_scratch1
abbrev scA : Memref sig .tc .vmem S256x1024 .f32 := Memref.whole cc1_scratch2

/-- The core's scoped buffers that are neither a staging buffer of this call nor one of the three scratch operands, each
    at some contents: the invariant carries them unopened. -/
abbrev restS (c : Dev nD) : sProp 𝕄 :=
  Pipeline.scopedRestBut (Ix := Unit) (Name := ℕ) (U := UR sig nD τ) (Lvl := ℕ) (Val := Elt F) spec1 c [cc1_scratch0, cc1_scratch1, cc1_scratch2]

/-- The region invariant before position `n`: the plain one before the first point; afterwards the three scratch buffers at
    what the point before left, the other scoped buffers at anything, and the generator register at some state. -/
def PhiS (c : Dev nD) : (n : ℕ) → n ≤ cfg1.N → sProp 𝕄
  | 0, _ => Pipeline.ΦA spec1 c
  | n + 1, hn => iprop(owns (c : Thread nD τ) scM fullShare (scAt V c n hn).1 ∗ owns (c : Thread nD τ) scL fullShare (scAt V c n hn).2.1
      ∗ owns (c : Thread nD τ) scA fullShare (scAt V c n hn).2.2 ∗ restS (F := F) c ∗ (∃ r, prngReg c r))

/-- The proof data of the attention pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (scAt V c t.val t.isLt)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = outO (scAt V c t.val t.isLt) := by dsimp only [dat1]

/-! ## The invariant, position by position -/

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM fullShare (scAt V c n hn).1 ∗ owns (c : Thread nD τ) scL fullShare (scAt V c n hn).2.1
      ∗ owns (c : Thread nD τ) scA fullShare (scAt V c n hn).2.2 ∗ restS (F := F) c ∗ (∃ r, prngReg c r)) := rfl

theorem PhiS_pos (c : Dev nD) (n : ℕ) (h : n ≤ cfg1.N) (hz : n ≠ 0) :
    PhiS V c n h = iprop(owns (c : Thread nD τ) scM fullShare (scAt V c (n - 1) (by omega)).1 ∗ owns (c : Thread nD τ) scL fullShare (scAt V c (n - 1) (by omega)).2.1
      ∗ owns (c : Thread nD τ) scA fullShare (scAt V c (n - 1) (by omega)).2.2 ∗ restS (F := F) c ∗ (∃ r, prngReg c r)) := by
  cases n with
  | zero => exact absurd rfl hz
  | succ n => rfl

theorem PhiS_castSucc (c : Dev nD) (t : Fin cfg1.N) :
    (dat1 V c).Φ t.castSucc = PhiS V c t.val (Nat.le_of_lt t.isLt) := by
  dsimp only [dat1]; simp only [Fin.coe_castSucc]

/-- The scoped rest split at the three scratch operands. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f))
          ∗ restS (F := F) c) :=
  Pipeline.scopedRest_split_of_list spec1 c [cc1_scratch0, cc1_scratch1, cc1_scratch2] (by decide) (by decide)

/-- The plain invariant with the scratch operands as memrefs owned at some contents. -/
theorem PhiA1_eq (c : Dev nD) :
    (Pipeline.ΦA spec1 c : sProp 𝕄)
      = iprop(iprop(iprop((∃ d, owns (c : Thread nD τ) scM fullShare d) ∗ (∃ d, owns (c : Thread nD τ) scL fullShare d) ∗ (∃ d, owns (c : Thread nD τ) scA fullShare d))
          ∗ restS (F := F) c) ∗ (∃ r, prngReg c r)) := by
  unfold Pipeline.ΦA; rw [scopedRest1_split]; simp only [scM, scL, scA, owns_whole]; try rfl

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the plain one back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HM, HL, HA, Hr, Hg⟩
  isplitl [HM HL HA Hr]
  · isplitl [HM HL HA]
    · isplitl [HM]; · iexists _; iexact HM
      isplitl [HL]; · iexists _; iexact HL
      iexists _; iexact HA
    iexact Hr
  iexact Hg

/-- After the last point the invariant gives the plain one back: the scratch's named contents are forgotten. -/
theorem hout1 (c : Dev nD) : (dat1 V c).Φ (Fin.last cfg1.N) ⊢ Pipeline.ΦA spec1 c :=
  Phi_out1 V c _ (by rw [Fin.val_last]; have : cfg1.N = 128 := N_1; omega)

/-! ## The conditions and the idle table in closed form -/

/-- "First key block" holds at the points ≡ 0 (mod 8). -/
theorem hcF : ∀ t : Fin cfg1.N, cFirst (grid1.coords t) ↔ t.val % 8 = 0 :=
  (by decide +kernel : ∀ t : Fin grid1.N, cFirst (grid1.coords t) ↔ t.val % 8 = 0)

/-- "Last key block" holds at the points ≡ 7 (mod 8). -/
theorem hcL : ∀ t : Fin cfg1.N, cLast (grid1.coords t) ↔ t.val % 8 = 7 :=
  (by decide +kernel : ∀ t : Fin grid1.N, cLast (grid1.coords t) ↔ t.val % 8 = 7)

/-- The input windows are never idle. -/
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
/-- Off the last key block the output window is idle and is not written back. -/
theorem idle1_3 : ∀ t : Fin cfg1.N, ¬cLast (grid1.coords t) → cfg1.idle 3 (grid1.coords t) = true := by decide +kernel
theorem noFlush1_3 : ∀ t : Fin cfg1.N, ¬cLast (grid1.coords t) → (cfg1.win 3).flush t = false := by decide +kernel
/-- At the last key block the output window is live. -/
theorem live1_3 : ∀ t : Fin cfg1.N, cLast (grid1.coords t) → cfg1.idle 3 (grid1.coords t) = false := by decide +kernel

/-! ## The input windows hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- Each window's current staging memref at point `t`, as the pipeline passes it. -/
abbrev ms1_0 (t : Fin cfg1.N) : Memref sig .tc .vmem S256x1024 .f32 := win1_0.stage (cfg1.slots t 0)
abbrev ms1_1 (t : Fin cfg1.N) : Memref sig .tc .vmem S4096x1024 .f32 := win1_1.stage (cfg1.slots t 1)
abbrev ms1_2 (t : Fin cfg1.N) : Memref sig .tc .vmem S4096x1024 .bf16 := win1_2.stage (cfg1.slots t 2)
abbrev ms1_3 (t : Fin cfg1.N) : Memref sig .tc .vmem S256x1024 .f32 := win1_3.stage (cfg1.slots t 3)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the input windows hold their blocks; the closed forms say which of the three control cases the
    point is in; the invariant hands the body the scratch at what the point before left (at anything at the first point)
    and takes it back at this point's update. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  by_cases h0 : t.val % 8 = 0
  · -- a query block's first key block: the scratch is reset, so what it held does not matter
    have hf : cFirst (grid1.coords t) := (hcF t).mpr h0
    have hl : ¬cLast (grid1.coords t) := fun h => by have := (hcL t).mp h; omega
    rw [Dat.leavesExact_idle (dat1 V c) 3 t (idle1_3 t hl) (noFlush1_3 t hl)]
    rw [scAt_first V c t h0]
    by_cases hz : t.val = 0
    · rw [PhiS_castSucc V c t, PhiS_zero V c _ _ hz, PhiA1_eq]
      iintro ⟨⟨⟨⟨⟨%m0, HM⟩, ⟨%l0, HL⟩, ⟨%a0, HA⟩⟩, Hr⟩, Hg⟩, Ho, ⟨%d0, H0⟩, ⟨%d1, H1⟩, ⟨%d2, H2⟩, ⟨%d3, H3⟩⟩
      iapply (sound1_first c Set.univ (grid1.coords t) _ _ _ _ _ _ _ _ _ _ _ _ _ _ hf hl (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨HM, HL, HA, Hr, Hg⟩, Ho, ⟨%d0, H0⟩, ⟨%d1, H1⟩, ⟨%d2, H2⟩, ⟨%d3, H3⟩⟩
      iapply (sound1_first c Set.univ (grid1.coords t) _ _ _ _ _ _ _ _ _ _ _ _ _ _ hf hl (iblk1 V c 0 t) (iblk1 V c 1 t) (iblk1 V c 2 t) ((dat1 V c).before 3 t d3) _)
      isplitl [H0]; · iexact H0
      isplitl [H1]; · iexact H1
      isplitl [H2]; · iexact H2
      isplitl [H3]; · iexact H3
      isplitl [HM]; · iexists _; iexact HM
      isplitl [HL]; · iexists _; iexact HL
      isplitl [HA]; · iexists _; iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexists _; iexact H3
  · have hf : ¬cFirst (grid1.coords t) := fun h => h0 ((hcF t).mp h)
    have hz : t.val ≠ 0 := fun e => h0 (by rw [e])
    by_cases h7 : t.val % 8 = 7
    · -- the last key block: the scratch updated and the output stored
      have hl : cLast (grid1.coords t) := (hcL t).mpr h7
      rw [show (dat1 V c).leavesExact 3 t = owns (c : Thread nD τ) (ms1_3 t) fullShare ((dat1 V c).after 3 t) from by
        unfold Dat.leavesExact; rw [live1_3 t hl], after1_3]
      rw [scAt_next V c t h0]
      rw [PhiS_castSucc V c t, PhiS_pos V c _ _ hz]
      iintro ⟨⟨HM, HL, HA, Hr, Hg⟩, Ho, ⟨%d0, H0⟩, ⟨%d1, H1⟩, ⟨%d2, H2⟩, ⟨%d3, H3⟩⟩
      iapply (sound1_last c Set.univ (grid1.coords t) _ _ _ _ _ _ _ _ _ _ _ _ _ _ hf hl (iblk1 V c 0 t) (iblk1 V c 1 t) (iblk1 V c 2 t)
        (scAt V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexact H3
    · -- a middle key block: the scratch updated, the output buffer untouched
      have hl : ¬cLast (grid1.coords t) := fun h => h7 ((hcL t).mp h)
      rw [Dat.leavesExact_idle (dat1 V c) 3 t (idle1_3 t hl) (noFlush1_3 t hl)]
      rw [scAt_next V c t h0]
      rw [PhiS_castSucc V c t, PhiS_pos V c _ _ hz]
      iintro ⟨⟨HM, HL, HA, Hr, Hg⟩, Ho, ⟨%d0, H0⟩, ⟨%d1, H1⟩, ⟨%d2, H2⟩, ⟨%d3, H3⟩⟩
      iapply (sound1_mid c Set.univ (grid1.coords t) _ _ _ _ _ _ _ _ _ _ _ _ _ _ hf hl (iblk1 V c 0 t) (iblk1 V c 1 t) (iblk1 V c 2 t) ((dat1 V c).before 3 t d3)
        (scAt V c (t.val - 1) (Nat.lt_of_le_of_lt (Nat.sub_le _ _) t.isLt)) _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, HM, HL, HA⟩
      isplitl [HM HL HA Hr Hg]
      · isplitl [HM]; · iexact HM
        isplitl [HL]; · iexact HL
        isplitl [HA]; · iexact HA
        isplitl [Hr]; · iexact Hr
        iexact Hg
      isplitl [Ho]; · iexact Ho
      isplitl [H0]; · iexact H0
      isplitl [H1]; · iexact H1
      isplitl [H2]; · iexact H2
      iexists _; iexact H3

/-- The library's body obligation for the attention kernel, at every point. -/
theorem body_obligation1 (c : Dev nD) : BodyObligation (dat1 (F := F) V c) (defs₀ (F := F)) Variants.none () Set.univ := fun t => by
  rw [bigSep_W1, bigSep_W1]
  exact sound_body V c t

end Cert.KernelIdeal.Att

end
-- ==== Proof.KI.AttRun.lean ====
/-
  The whole program's run: @main is the projection region followed by the attention region, with no host operation
  between them. The buffers' contents at the three boundaries: the launch memory; after the projection, its three
  output arrays (queries, keys, values) at what its write-backs leave; after the attention, the result array at what
  its write-backs leave. Every weakly fair execution terminates with the result array at that last value and the four
  argument arrays as launched.
-/
import proofs.«406591_j58067957842421_3_alg».proof.Proof.KI.ProjBody
import proofs.«406591_j58067957842421_3_alg».proof.Proof.KI.AttDat
import Idealize.ShloMosaic.Lib.Pipeline.RegionsLoop
import Idealize.ShloMosaic.Lib.Pipeline.FrameSuffix

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Proj Cert.KernelIdeal.Att

variable (m : (ℓ : Loc nD τ sig) → Buf (Elt F) ℓ) (ρ : Dev nD → PrngReg)

/-- Core `c`'s buffers at launch (the projection region's entry). -/
abbrev W1 : Dev nD → Valuation τ sig (Elt F) := fun c b => m (c, b)
abbrev V1 : (c : Dev nD) → (b : Ref sig .tc) → Buf (Elt F) ((c : Thread nD τ).loc b) := fun c b => W1 m c b
/-- After the projection region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the attention region: the result array at what the pipeline leaves, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-- An argument array is an input of the projection and no array of the attention: it ends as launched. -/
theorem W4_arg (c : Dev nD) (w : Fin cfg0.W) (hw : (cfg0.win w).isOut = false) (b : Ref sig .tc) (hb : Pipeline.arrRef spec0 w = b)
    (hne : ∀ w', Pipeline.arrRef spec1 w' ≠ b) : W4 m c (Proc.devRef .tc b) = m ((c : Thread nD τ).loc b) := by
  subst hb
  rw [W4_of_ne m c _ hne, W2_arr m c w, (dat0 (V1 m) c).arrAt_in w hw _, A_eq0]

/-- The result array ends at what the attention pipeline's write-backs leave. -/
theorem W4_res (c : Dev nD) : W4 m c (Proc.devRef .tc main_v0) = (dat1 (V2 m) c).arrAt 3 cfg1.N := W4_arr m c 3

/-- What the attention region finds in its three input arrays: what the projection's write-backs left. -/
theorem V2_q (c : Dev nD) : V2 m c main_call0_v0_0 = (dat0 (V1 m) c).arrAt 4 cfg0.N := W2_arr m c 4
theorem V2_k (c : Dev nD) : V2 m c main_call0_v0_1 = (dat0 (V1 m) c).arrAt 5 cfg0.N := W2_arr m c 5
theorem V2_v (c : Dev nD) : V2 m c main_call0_v0_2 = (dat0 (V1 m) c).arrAt 6 cfg0.N := W2_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers: the core's generator register at some state and its debts, none. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W4 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- The projection region: entered from every unscoped buffer at the launch contents, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W2`, left at `W4`; the scratch enters the region
    invariant at anything and leaves it at anything. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting,
    and every final state has the result array at what the attention pipeline's write-backs leave and the four
    argument arrays as launched. -/
theorem run_main : θ_run defs (onTc (τ := τ) (main (F := F))) ⟨m, fun _ => 0, ρ⟩ (fun r => ∀ c : Dev nD,
      r.2.mem ((c.tc : Thread nD τ).loc main_v0) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W1 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W1 m c)
        from Pipeline.unscopedBufs_held c (W1 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v0 (by decide))).trans (W4_res m c),
       (h c _ (mem_uc main_arg0 (by decide))).trans (W4_arg m c 0 rfl main_arg0 rfl (by decide)),
       (h c _ (mem_uc main_arg1 (by decide))).trans (W4_arg m c 1 rfl main_arg1 rfl (by decide)),
       (h c _ (mem_uc main_arg2 (by decide))).trans (W4_arg m c 2 rfl main_arg2 rfl (by decide)),
       (h c _ (mem_uc main_arg3 (by decide))).trans (W4_arg m c 3 rfl main_arg3 rfl (by decide))⟩)

/-- The frame: every weakly fair execution terminates with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Run

end
-- ==== Proof.AttnSpec.lean ====
/-
  Softmax attention over the reals, and its online (blockwise) evaluation.

  For real matrices x (4096 × 1024) and three weights (1024 × 1024): queries, keys, values are the products x·W;
  the scores are S i j = (Σ_d Q i d · K j d) / 32; with M i = max_j S i j the attention output is
      attn i d = (Σ_j exp(S i j − M i) · V j d) / (Σ_j exp(S i j − M i)).
  The reference divides each weight by the denominator before the sum over j (`attnRef`); the two agree because the
  denominator is a positive real. The kernel evaluates the same quotient online over 8 blocks of 512 keys: it keeps a
  running maximum m, denominator l and numerator a, and block b updates them by
      m' = max(m, max_{j∈b} S i j),  l' = exp(m − m')·l + Σ_{j∈b} exp(S i j − m'),  a' = exp(m − m')·a + Σ_{j∈b} exp(S i j − m')·V j d,
  starting from block 0 alone; after block 7, a / l is attn (`online_final`), since exp(m − m')·exp(s − m) = exp(s − m').
-/
import Mathlib.Analysis.SpecialFunctions.Exp
import Mathlib.Algebra.BigOperators.Field
import Mathlib.Data.Finset.Lattice.Fold
import Mathlib.Algebra.Order.BigOperators.Group.Finset

noncomputable section

namespace Cert.Attn

open scoped BigOperators

/-- x · W. -/
def proj (x : Fin 4096 → Fin 1024 → ℝ) (w : Fin 1024 → Fin 1024 → ℝ) : Fin 4096 → Fin 1024 → ℝ :=
  fun i j => ∑ k : Fin 1024, x i k * w k j

/-- The scaled scores: (Q · Kᵀ) / 32. -/
def score (Q K : Fin 4096 → Fin 1024 → ℝ) : Fin 4096 → Fin 4096 → ℝ :=
  fun i j => (∑ d : Fin 1024, Q i d * K j d) * (1 / 32)

/-- A row's maximum score. -/
def rowMax (S : Fin 4096 → Fin 4096 → ℝ) (i : Fin 4096) : ℝ :=
  Finset.univ.sup' Finset.univ_nonempty (S i)

/-- A row's softmax denominator. -/
def denom (S : Fin 4096 → Fin 4096 → ℝ) (i : Fin 4096) : ℝ := ∑ j : Fin 4096, Real.exp (S i j - rowMax S i)

/-- Softmax attention, the quotient taken once: numerator over denominator. -/
def attn (S : Fin 4096 → Fin 4096 → ℝ) (V : Fin 4096 → Fin 1024 → ℝ) : Fin 4096 → Fin 1024 → ℝ :=
  fun i d => (∑ j : Fin 4096, Real.exp (S i j - rowMax S i) * V j d) / denom S i

/-- Softmax attention as the reference computes it: each weight divided by the denominator first. -/
def attnRef (S : Fin 4096 → Fin 4096 → ℝ) (V : Fin 4096 → Fin 1024 → ℝ) : Fin 4096 → Fin 1024 → ℝ :=
  fun i d => ∑ j : Fin 4096, (Real.exp (S i j - rowMax S i) / denom S i) * V j d

/-- The denominator is positive: the maximal term contributes exp 0 = 1. -/
theorem denom_pos (S : Fin 4096 → Fin 4096 → ℝ) (i : Fin 4096) : 0 < denom S i := by
  -- every term is an exponential, hence positive, and there is at least one term
  unfold denom
  exact Finset.sum_pos (fun j _ => Real.exp_pos _) Finset.univ_nonempty

theorem attnRef_eq (S : Fin 4096 → Fin 4096 → ℝ) (V : Fin 4096 → Fin 1024 → ℝ) : attnRef S V = attn S V := by
  -- (e / D) · v = (e · v) / D termwise, and the division commutes with the finite sum
  funext i d
  unfold attnRef attn
  rw [Finset.sum_div]
  exact Finset.sum_congr rfl (fun j _ => div_mul_eq_mul_div _ _ _)

/-- Key `r` of key block `b` (blocks of 512; total by reduction modulo 4096, exact for b < 8). -/
def kj (b : ℕ) (r : Fin 512) : Fin 4096 := ⟨(512 * b + r.val) % 4096, Nat.mod_lt _ (by norm_num)⟩

theorem kj_val (b : ℕ) (hb : b < 8) (r : Fin 512) : (kj b r).val = 512 * b + r.val := by
  -- 512·b + r < 512·8 = 4096, so the reduction modulo 4096 is the identity
  have hr := r.isLt
  show (512 * b + r.val) % 4096 = 512 * b + r.val
  exact Nat.mod_eq_of_lt (by omega)

/-- The 8 blocks of 512 keys tile the 4096 keys: (b, r) ↦ 512·b + r is a bijection, with inverse
    j ↦ (j / 512, j % 512). -/
def blockEquiv : Fin 8 × Fin 512 ≃ Fin 4096 where
  toFun p := kj p.1.val p.2
  invFun j := (⟨j.val / 512, by have := j.isLt; omega⟩, ⟨j.val % 512, Nat.mod_lt _ (by norm_num)⟩)
  left_inv p := by
    obtain ⟨a, r⟩ := p
    have ha := a.isLt
    have hr := r.isLt
    have h := kj_val a.val ha r
    refine Prod.ext (Fin.ext ?_) (Fin.ext ?_)
    · show (kj a.val r).val / 512 = a.val
      rw [h]; omega
    · show (kj a.val r).val % 512 = r.val
      rw [h]; omega
  right_inv j := by
    have hj := j.isLt
    apply Fin.ext
    show (kj (j.val / 512) ⟨j.val % 512, _⟩).val = j.val
    rw [kj_val _ (by omega)]
    show 512 * (j.val / 512) + j.val % 512 = j.val
    omega

/-- Summing block by block over the 8 blocks is summing over all 4096 keys. -/
theorem sum_blocks (f : Fin 4096 → ℝ) :
    ∑ b ∈ Finset.range 8, ∑ r : Fin 512, f (kj b r) = ∑ j : Fin 4096, f j := by
  rw [Finset.sum_range (fun b => ∑ r : Fin 512, f (kj b r))]
  rw [← Fintype.sum_prod_type' (fun (a : Fin 8) (r : Fin 512) => f (kj a.val r))]
  exact Fintype.sum_equiv blockEquiv _ _ (fun _ => rfl)

/-- Block `b`'s maximum score in row `i`. -/
def bmax (S : Fin 4096 → Fin 4096 → ℝ) (i : Fin 4096) (b : ℕ) : ℝ :=
  Finset.univ.sup' Finset.univ_nonempty (fun r : Fin 512 => S i (kj b r))

/-- The running maximum after blocks 0..n. -/
def onM (S : Fin 4096 → Fin 4096 → ℝ) (i : Fin 4096) : ℕ → ℝ
  | 0 => bmax S i 0
  | n + 1 => max (onM S i n) (bmax S i (n + 1))

/-- The running denominator after blocks 0..n. -/
def onL (S : Fin 4096 → Fin 4096 → ℝ) (i : Fin 4096) : ℕ → ℝ
  | 0 => ∑ r : Fin 512, Real.exp (S i (kj 0 r) - onM S i 0)
  | n + 1 => Real.exp (onM S i n - onM S i (n + 1)) * onL S i n + ∑ r : Fin 512, Real.exp (S i (kj (n + 1) r) - onM S i (n + 1))

/-- The running numerator after blocks 0..n. -/
def onA (S : Fin 4096 → Fin 4096 → ℝ) (V : Fin 4096 → Fin 1024 → ℝ) (i : Fin 4096) (d : Fin 1024) : ℕ → ℝ
  | 0 => ∑ r : Fin 512, Real.exp (S i (kj 0 r) - onM S i 0) * V (kj 0 r) d
  | n + 1 => Real.exp (onM S i n - onM S i (n + 1)) * onA S V i d n
      + ∑ r : Fin 512, Real.exp (S i (kj (n + 1) r) - onM S i (n + 1)) * V (kj (n + 1) r) d

/-- The running denominator is positive (so the final quotient is an honest one). -/
theorem onL_pos (S : Fin 4096 → Fin 4096 → ℝ) (i : Fin 4096) (n : ℕ) : 0 < onL S i n := by
  -- a block's sum of exponentials is positive; the update adds it to a positive multiple of a positive number
  induction n with
  | zero =>
    rw [onL]
    exact Finset.sum_pos (fun r _ => Real.exp_pos _) Finset.univ_nonempty
  | succ n ih =>
    rw [onL]
    exact add_pos (mul_pos (Real.exp_pos _) ih)
      (Finset.sum_pos (fun r _ => Real.exp_pos _) Finset.univ_nonempty)

/-- Closed form of the running denominator: after blocks 0..n it is the sum, over those blocks, of
    exp(S i j − m) with m the current running maximum. The step is exp(m − m')·exp(s − m) = exp(s − m'). -/
theorem onL_closed (S : Fin 4096 → Fin 4096 → ℝ) (i : Fin 4096) (n : ℕ) :
    onL S i n = ∑ b ∈ Finset.range (n + 1), ∑ r : Fin 512, Real.exp (S i (kj b r) - onM S i n) := by
  induction n with
  | zero =>
    rw [onL, Finset.sum_range_one]
  | succ n ih =>
    rw [onL, ih, Finset.sum_range_succ _ (n + 1), Finset.mul_sum]
    congr 1
    refine Finset.sum_congr rfl (fun b _ => ?_)
    rw [Finset.mul_sum]
    refine Finset.sum_congr rfl (fun r _ => ?_)
    rw [← Real.exp_add]
    congr 1
    ring

/-- Closed form of the running numerator: the same sum weighted by the values. -/
theorem onA_closed (S : Fin 4096 → Fin 4096 → ℝ) (V : Fin 4096 → Fin 1024 → ℝ) (i : Fin 4096) (d : Fin 1024)
    (n : ℕ) :
    onA S V i d n
      = ∑ b ∈ Finset.range (n + 1), ∑ r : Fin 512, Real.exp (S i (kj b r) - onM S i n) * V (kj b r) d := by
  induction n with
  | zero =>
    rw [onA, Finset.sum_range_one]
  | succ n ih =>
    rw [onA, ih, Finset.sum_range_succ _ (n + 1), Finset.mul_sum]
    congr 1
    refine Finset.sum_congr rfl (fun b _ => ?_)
    rw [Finset.mul_sum]
    refine Finset.sum_congr rfl (fun r _ => ?_)
    rw [← mul_assoc, ← Real.exp_add]
    congr 2
    ring

/-- After all 8 blocks the online quotient is softmax attention. -/
theorem online_final (S : Fin 4096 → Fin 4096 → ℝ) (V : Fin 4096 → Fin 1024 → ℝ) (i : Fin 4096) (d : Fin 1024) :
    onA S V i d 7 / onL S i 7 = attn S V i d := by
  -- after block 7 both running sums range over all keys, shifted by the final running maximum m;
  -- exp(s − m) = exp(M − m)·exp(s − M), and the common positive factor exp(M − m) cancels in the quotient
  have hL : onL S i 7 = ∑ j : Fin 4096, Real.exp (S i j - onM S i 7) := by
    rw [onL_closed]
    exact sum_blocks (fun j => Real.exp (S i j - onM S i 7))
  have hA : onA S V i d 7 = ∑ j : Fin 4096, Real.exp (S i j - onM S i 7) * V j d := by
    rw [onA_closed]
    exact sum_blocks (fun j => Real.exp (S i j - onM S i 7) * V j d)
  have hshift : ∀ j : Fin 4096, Real.exp (S i j - onM S i 7)
      = Real.exp (rowMax S i - onM S i 7) * Real.exp (S i j - rowMax S i) := by
    intro j
    rw [← Real.exp_add]
    congr 1
    ring
  rw [hL, hA]
  unfold attn denom
  simp only [hshift, mul_assoc, ← Finset.mul_sum]
  exact mul_div_mul_left _ _ (Real.exp_pos _).ne'

/-- A block's maximum is at most the row's maximum. -/
theorem bmax_le_rowMax (S : Fin 4096 → Fin 4096 → ℝ) (i : Fin 4096) (b : ℕ) : bmax S i b ≤ rowMax S i :=
  Finset.sup'_le _ _ (fun r _ => Finset.le_sup' (S i) (Finset.mem_univ (kj b r)))

/-- The running maximum never exceeds the row's maximum. -/
theorem onM_le_rowMax (S : Fin 4096 → Fin 4096 → ℝ) (i : Fin 4096) (n : ℕ) : onM S i n ≤ rowMax S i := by
  induction n with
  | zero => rw [onM]; exact bmax_le_rowMax S i 0
  | succ n ih => rw [onM]; exact max_le ih (bmax_le_rowMax S i (n + 1))

/-- The running maximum dominates the maximum of every block already visited. -/
theorem bmax_le_onM (S : Fin 4096 → Fin 4096 → ℝ) (i : Fin 4096) (n b : ℕ) (h : b ≤ n) :
    bmax S i b ≤ onM S i n := by
  induction n with
  | zero =>
    obtain rfl : b = 0 := by omega
    rw [onM]
  | succ n ih =>
    rw [onM]
    rcases Nat.lt_or_ge b (n + 1) with hb | hb
    · exact le_trans (ih (by omega)) (le_max_left _ _)
    · obtain rfl : b = n + 1 := by omega
      exact le_max_right _ _

/-- After all 8 blocks the running maximum is the row's maximum: every key lies in one of the blocks. -/
theorem onM_final (S : Fin 4096 → Fin 4096 → ℝ) (i : Fin 4096) : onM S i 7 = rowMax S i := by
  refine le_antisymm (onM_le_rowMax S i 7) (Finset.sup'_le _ _ (fun j _ => ?_))
  obtain ⟨⟨a, r⟩, rfl⟩ := blockEquiv.surjective j
  have ha := a.isLt
  show S i (kj a.val r) ≤ onM S i 7
  exact le_trans (Finset.le_sup' (fun r : Fin 512 => S i (kj a.val r)) (Finset.mem_univ r))
    (bmax_le_onM S i 7 a.val (by omega))

end Cert.Attn

end
-- ==== Proof.RealArr.lean ====
/-
  A real matrix read as an array of extended reals (every entry finite).
-/
import Idealize.ShloMosaic.PureOps.Ideal
import Idealize.ShloMosaic.Lib.ValueIdx

noncomputable section

namespace Cert.Attn

open Idealize.ShloMosaic

/-- The a × b real matrix `X` as an array over the shape [a, b]: entry (i₀, i₁) is the real number X i₀ i₁. -/
def arr2 {a b : ℕ} (X : Fin a → Fin b → ℝ) : (⟨2, ![a, b]⟩ : Shape).Idx → EReal :=
  fun i => ((X (i 0) (i 1) : ℝ) : EReal)

theorem arr2_apply {a b : ℕ} (X : Fin a → Fin b → ℝ) (i : (⟨2, ![a, b]⟩ : Shape).Idx) :
    arr2 X i = ((X (i 0) (i 1) : ℝ) : EReal) := rfl

end Cert.Attn

end
-- ==== Proof.LibFinite.lean ====
/-
  General facts on the extended reals and on arrays of extended reals: which
  operations keep a value finite (a real number), and the distributive law of a
  product over a sum inside a finite sum, which holds for finite terms.
-/
import Idealize.ShloMosaic.PureOps.Ideal
import Idealize.ShloMosaic.PureOps.Ideal.Laws
import Idealize.ShloMosaic.Lib.ValueIdx

noncomputable section

namespace Cert.Fin

open Idealize.ShloMosaic
open scoped BigOperators

/-- An extended real is finite when it is (the image of) a real number. -/
def IsFin (x : EReal) : Prop := ∃ r : ℝ, x = (r : EReal)

/-- An array of extended reals is finite when every entry is. -/
def AllFin {ι : Type*} (v : ι → EReal) : Prop := ∀ i, IsFin (v i)

/-- A real number, read as an extended real, is finite. -/
theorem isFin_coe (r : ℝ) : IsFin (r : EReal) := ⟨r, rfl⟩

/-- Zero is finite. -/
theorem isFin_zero : IsFin 0 := ⟨0, rfl⟩

/-- One is finite. -/
theorem isFin_one : IsFin 1 := ⟨1, rfl⟩

/-- A finite value is neither infinity. -/
theorem IsFin.ne_top {x : EReal} (h : IsFin x) : x ≠ ⊤ := by
  obtain ⟨r, rfl⟩ := h; exact EReal.coe_ne_top r

/-- A finite value is neither infinity. -/
theorem IsFin.ne_bot {x : EReal} (h : IsFin x) : x ≠ ⊥ := by
  obtain ⟨r, rfl⟩ := h; exact EReal.coe_ne_bot r

/-- A value that is neither infinity is finite. -/
theorem isFin_of_ne {x : EReal} (ht : x ≠ ⊤) (hb : x ≠ ⊥) : IsFin x := by
  induction x using EReal.rec with
  | bot => exact absurd rfl hb
  | top => exact absurd rfl ht
  | coe r => exact ⟨r, rfl⟩

/-- Finite exactly when neither infinity. -/
theorem isFin_iff {x : EReal} : IsFin x ↔ x ≠ ⊤ ∧ x ≠ ⊥ :=
  ⟨fun h => ⟨h.ne_top, h.ne_bot⟩, fun h => isFin_of_ne h.1 h.2⟩

/-- The sum of two finite values is finite. -/
theorem IsFin.add {a b : EReal} (ha : IsFin a) (hb : IsFin b) : IsFin (a + b) := by
  obtain ⟨r, rfl⟩ := ha; obtain ⟨s, rfl⟩ := hb
  exact ⟨r + s, (EReal.coe_add r s).symm⟩

/-- The product of two finite values is finite. -/
theorem IsFin.mul {a b : EReal} (ha : IsFin a) (hb : IsFin b) : IsFin (a * b) := by
  obtain ⟨r, rfl⟩ := ha; obtain ⟨s, rfl⟩ := hb
  exact ⟨r * s, (EReal.coe_mul r s).symm⟩

/-- The negation of a finite value is finite. -/
theorem IsFin.neg {a : EReal} (ha : IsFin a) : IsFin (-a) := by
  obtain ⟨r, rfl⟩ := ha
  exact ⟨-r, (EReal.coe_neg r).symm⟩

/-- The difference of two finite values is finite. -/
theorem IsFin.sub {a b : EReal} (ha : IsFin a) (hb : IsFin b) : IsFin (a - b) := by
  obtain ⟨r, rfl⟩ := ha; obtain ⟨s, rfl⟩ := hb
  exact ⟨r - s, (EReal.coe_sub r s).symm⟩

/-- The maximum of two finite values is finite. -/
theorem IsFin.max {a b : EReal} (ha : IsFin a) (hb : IsFin b) : IsFin (max a b) := by
  rcases max_choice a b with h | h <;> rw [h] <;> assumption

/-- The minimum of two finite values is finite. -/
theorem IsFin.min {a b : EReal} (ha : IsFin a) (hb : IsFin b) : IsFin (min a b) := by
  rcases min_choice a b with h | h <;> rw [h] <;> assumption

/-- A finite sum of finite values is finite. -/
theorem isFin_sum {ι : Type*} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite array is the coercion of an array of reals. -/
theorem AllFin.exists_real {ι : Type*} {v : ι → EReal} (h : AllFin v) :
    ∃ r : ι → ℝ, ∀ i, v i = (r i : EReal) := by
  choose r hr using h
  exact ⟨r, hr⟩

/-- Inside a finite sum, a product distributes over a sum of two finite terms. -/
theorem sum_mul_add2 {K : ℕ} (x a b : Fin K → EReal) (hx : AllFin x) (ha : AllFin a) (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-- Inside a finite sum, a product distributes over a sum of three finite terms. -/
theorem sum_mul_add3 {K : ℕ} (x a b c : Fin K → EReal) (hx : AllFin x) (ha : AllFin a) (hb : AllFin b)
    (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The same distributive law over any finite index type. -/
theorem sum_mul_add3' {ι : Type*} [Fintype ι] (x a b c : ι → EReal) (hx : AllFin x) (ha : AllFin a)
    (hb : AllFin b) (hc : AllFin c) :
    ∑ k, x k * ((a k + b k) + c k) = ((∑ k, x k * a k) + ∑ k, x k * b k) + ∑ k, x k * c k := by
  obtain ⟨xr, hxr⟩ := hx.exists_real
  obtain ⟨ar, har⟩ := ha.exists_real
  obtain ⟨br, hbr⟩ := hb.exists_real
  obtain ⟨cr, hcr⟩ := hc.exists_real
  simp only [hxr, har, hbr, hcr, ← EReal.coe_add, ← EReal.coe_mul, ← coe_sum]
  congr 1
  rw [← Finset.sum_add_distrib, ← Finset.sum_add_distrib]
  exact Finset.sum_congr rfl fun k _ => by ring

/-- The two-term law over any finite index type. -/
theorem sum_mul_add2' {ι : Type*} [Fintype ι] (x a b : ι → EReal) (hx : AllFin x) (ha : AllFin a)
    (hb : AllFin b) :
    ∑ k, x k * (a k + b k) = (∑ k, x k * a k) + ∑ k, x k * b k := by
  obtain ⟨xr, hxr⟩ := hx.exists_real
  obtain ⟨ar, har⟩ := ha.exists_real
  obtain ⟨br, hbr⟩ := hb.exists_real
  simp only [hxr, har, hbr, ← EReal.coe_add, ← EReal.coe_mul, ← coe_sum]
  congr 1
  rw [← Finset.sum_add_distrib]
  exact Finset.sum_congr rfl fun k _ => by ring

/-! ### The float literals -/

/-- The word of `+0.0` denotes zero. -/
theorem ofBits_zero : Ideal.ofBits .f32 0x00000000#32 = 0 := Ideal.ofBits_zero_f32

/-- The word of `1.0` denotes one. -/
theorem ofBits_one : Ideal.ofBits .f32 0x3F800000#32 = 1 := by
  simp [Ideal.ofBits, Ideal.ieee, -EReal.coe_mul]; norm_num

/-- The word of `64.0` denotes the real number sixty-four. -/
theorem ofBits_64 : Ideal.ofBits .f32 0x42800000#32 = ((64 : ℝ) : EReal) := by
  simp [Ideal.ofBits, Ideal.ieee, -EReal.coe_mul]; norm_num

/-- The word nearest `1e-5` denotes the dyadic rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- Zero's word denotes a finite value. -/
theorem isFin_ofBits_zero : IsFin (Ideal.ofBits .f32 0x00000000#32) := ofBits_zero ▸ isFin_zero

/-- One's word denotes a finite value. -/
theorem isFin_ofBits_one : IsFin (Ideal.ofBits .f32 0x3F800000#32) := ofBits_one ▸ isFin_one

/-- Sixty-four's word denotes a finite value. -/
theorem isFin_ofBits_64 : IsFin (Ideal.ofBits .f32 0x42800000#32) := ofBits_64 ▸ isFin_coe _

/-- The small positive constant's word denotes a finite value. -/
theorem isFin_ofBits_eps : IsFin (Ideal.ofBits .f32 0x3727C5AC#32) := ofBits_eps ▸ isFin_coe _

/-- Sixty-four is not zero. -/
theorem ofBits_64_ne_zero : Ideal.ofBits .f32 0x42800000#32 ≠ 0 := by
  rw [ofBits_64]; exact_mod_cast (by norm_num : (64 : ℝ) ≠ 0)

/-- Sixty-four is positive. -/
theorem ofBits_64_pos : 0 < Ideal.ofBits .f32 0x42800000#32 := by
  rw [ofBits_64]; exact_mod_cast (by norm_num : (0 : ℝ) < 64)

/-- One is not zero. -/
theorem ofBits_one_ne_zero : Ideal.ofBits .f32 0x3F800000#32 ≠ 0 := by
  rw [ofBits_one]; exact one_ne_zero

/-- The small constant is positive. -/
theorem ofBits_eps_pos : 0 < Ideal.ofBits .f32 0x3727C5AC#32 := by
  rw [ofBits_eps]; exact_mod_cast (by positivity : (0 : ℝ) < 10995116 / 2 ^ 40)

/-! ### Quotient and reciprocal square root -/

/-- The quotient of a real by a nonzero real, as extended reals, is the real quotient. -/
theorem div_coe_coe (r s : ℝ) (hs : s ≠ 0) : Ideal.div (r : EReal) (s : EReal) = ((r / s : ℝ) : EReal) := by
  rw [Ideal.div, if_neg (by exact_mod_cast hs), ← EReal.coe_inv, ← EReal.coe_mul, div_eq_mul_inv]

/-- The quotient of a finite value by a finite nonzero value is finite. -/
theorem IsFin.div {x y : EReal} (hx : IsFin x) (hy : IsFin y) (hy0 : y ≠ 0) : IsFin (Ideal.div x y) := by
  obtain ⟨r, rfl⟩ := hx; obtain ⟨s, rfl⟩ := hy
  have hs : s ≠ 0 := by exact_mod_cast hy0
  exact ⟨r / s, div_coe_coe r s hs⟩

/-- The reciprocal square root of a positive real is the real `1 / √r`. -/
theorem rsqrt_coe_pos (r : ℝ) (hr : 0 < r) : Ideal.rsqrt (r : EReal) = (((Real.sqrt r)⁻¹ : ℝ) : EReal) := by
  rw [Ideal.rsqrt_coe, if_neg (not_lt.mpr hr.le), if_neg hr.ne']

/-- The reciprocal square root of a finite positive value is finite. -/
theorem IsFin.rsqrt {x : EReal} (hx : IsFin x) (hpos : 0 < x) : IsFin (Ideal.rsqrt x) := by
  obtain ⟨r, rfl⟩ := hx
  have hr : 0 < r := by exact_mod_cast hpos
  exact ⟨_, rsqrt_coe_pos r hr⟩

/-- The reciprocal square root of a finite positive value is positive. -/
theorem rsqrt_pos {x : EReal} (hx : IsFin x) (hpos : 0 < x) : 0 < Ideal.rsqrt x := by
  obtain ⟨r, rfl⟩ := hx
  have hr : 0 < r := by exact_mod_cast hpos
  rw [rsqrt_coe_pos r hr]
  exact_mod_cast inv_pos.mpr (Real.sqrt_pos.mpr hr)

/-- A finite value times itself is not negative. -/
theorem mul_self_nonneg' {x : EReal} (hx : IsFin x) : 0 ≤ x * x := by
  obtain ⟨r, rfl⟩ := hx
  rw [← EReal.coe_mul]; exact_mod_cast mul_self_nonneg r

/-- A finite sum of values that are not negative is not negative. -/
theorem sum_nonneg' {ι : Type*} (s : Finset ι) (f : ι → EReal) (h : ∀ i ∈ s, 0 ≤ f i) : 0 ≤ ∑ i ∈ s, f i :=
  Finset.sum_nonneg h

/-- A sum of squared deviations of finite values from a finite centre is not negative. -/
theorem sum_sq_nonneg {ι : Type*} (s : Finset ι) (h : ι → EReal) (μ : EReal) (hh : ∀ j ∈ s, IsFin (h j))
    (hμ : IsFin μ) : 0 ≤ ∑ j ∈ s, (h j - μ) * (h j - μ) :=
  Finset.sum_nonneg fun j hj => mul_self_nonneg' ((hh j hj).sub hμ)

/-- The quotient of a finite value that is not negative by a finite positive value is not negative. -/
theorem div_nonneg' {x y : EReal} (hx : IsFin x) (hx0 : 0 ≤ x) (hy : IsFin y) (hy0 : 0 < y) :
    0 ≤ Ideal.div x y := by
  obtain ⟨r, rfl⟩ := hx; obtain ⟨s, rfl⟩ := hy
  have hr : 0 ≤ r := by exact_mod_cast hx0
  have hs : 0 < s := by exact_mod_cast hy0
  rw [div_coe_coe r s hs.ne']
  exact_mod_cast div_nonneg hr hs.le

/-- A value that is not negative plus a positive value is positive. -/
theorem add_pos' {a b : EReal} (ha : 0 ≤ a) (hb : 0 < b) : 0 < a + b :=
  lt_of_lt_of_le hb (le_add_of_nonneg_left ha)

/-- The mean of squared deviations over sixty-four, plus the small constant, is positive (and finite). -/
theorem var_add_eps_pos {ι : Type*} (s : Finset ι) (h : ι → EReal) (μ : EReal) (hh : ∀ j ∈ s, IsFin (h j))
    (hμ : IsFin μ) :
    0 < Ideal.div (∑ j ∈ s, (h j - μ) * (h j - μ)) (Ideal.ofBits .f32 0x42800000#32)
        + Ideal.ofBits .f32 0x3727C5AC#32 :=
  add_pos' (div_nonneg' (isFin_sum s _ fun j hj => ((hh j hj).sub hμ).mul ((hh j hj).sub hμ))
    (sum_sq_nonneg s h μ hh hμ) isFin_ofBits_64 ofBits_64_pos) ofBits_eps_pos

/-- … and it is finite. -/
theorem var_add_eps_fin {ι : Type*} (s : Finset ι) (h : ι → EReal) (μ : EReal) (hh : ∀ j ∈ s, IsFin (h j))
    (hμ : IsFin μ) :
    IsFin (Ideal.div (∑ j ∈ s, (h j - μ) * (h j - μ)) (Ideal.ofBits .f32 0x42800000#32)
        + Ideal.ofBits .f32 0x3727C5AC#32) :=
  ((isFin_sum s _ fun j hj => ((hh j hj).sub hμ).mul ((hh j hj).sub hμ)).div isFin_ofBits_64
    ofBits_64_ne_zero).add isFin_ofBits_eps

/-! ### Array operations keep finiteness -/

section Arrays
variable {s t : Shape} {φ : FTy}

/-- The entrywise sum of two finite arrays is finite. -/
theorem allFin_addf {x y : FVec Ideal s φ} (hx : AllFin x) (hy : AllFin y) : AllFin (addf x y) :=
  fun i => (hx i).add (hy i)

/-- The entrywise difference of two finite arrays is finite. -/
theorem allFin_subf {x y : FVec Ideal s φ} (hx : AllFin x) (hy : AllFin y) : AllFin (subf x y) :=
  fun i => (hx i).sub (hy i)

/-- The entrywise product of two finite arrays is finite. -/
theorem allFin_mulf {x y : FVec Ideal s φ} (hx : AllFin x) (hy : AllFin y) : AllFin (mulf x y) :=
  fun i => (hx i).mul (hy i)

/-- The entrywise maximum of two finite arrays is finite. -/
theorem allFin_maximumf {x y : FVec Ideal s φ} (hx : AllFin x) (hy : AllFin y) : AllFin (maximumf x y) :=
  fun i => (hx i).max (hy i)

/-- The entrywise minimum of two finite arrays is finite. -/
theorem allFin_minimumf {x y : FVec Ideal s φ} (hx : AllFin x) (hy : AllFin y) : AllFin (minimumf x y) :=
  fun i => (hx i).min (hy i)

/-- The entrywise negation of a finite array is finite. -/
theorem allFin_negf {x : FVec Ideal s φ} (hx : AllFin x) : AllFin (negf x) :=
  fun i => (hx i).neg

/-- The entrywise quotient of a finite array by a finite, nowhere zero array is finite. -/
theorem allFin_divf {x y : FVec Ideal s φ} (hx : AllFin x) (hy : AllFin y) (hy0 : ∀ i, y i ≠ 0) :
    AllFin (divf x y) :=
  fun i => (hx i).div (hy i) (hy0 i)

/-- The same for the quotient as the reference program writes it. -/
theorem allFin_hostDivf {x y : FVec Ideal s φ} (hx : AllFin x) (hy : AllFin y) (hy0 : ∀ i, y i ≠ 0) :
    AllFin (Host.divf x y) :=
  fun i => (hx i).div (hy i) (hy0 i)

/-- The entrywise reciprocal square root of a finite, everywhere positive array is finite. -/
theorem allFin_rsqrt {x : FVec Ideal s φ} (hx : AllFin x) (hpos : ∀ i, 0 < x i) : AllFin (rsqrt x) :=
  fun i => (hx i).rsqrt (hpos i)

/-- The same for the reciprocal square root as the reference program writes it. -/
theorem allFin_hostRsqrt {x : FVec Ideal s φ} (hx : AllFin x) (hpos : ∀ i, 0 < x i) : AllFin (Host.rsqrt x) :=
  fun i => (hx i).rsqrt (hpos i)

/-- A change of format is the identity on extended reals, so it keeps finiteness. -/
theorem allFin_truncf {x : FVec Ideal s φ} (ψ : FTy) (h : ψ.bits < φ.bits) (hx : AllFin x) :
    AllFin (truncf ψ x h) :=
  fun i => hx i

/-- A change of format is the identity on extended reals, so it keeps finiteness. -/
theorem allFin_extf {x : FVec Ideal s φ} (ψ : FTy) (h : φ.bits < ψ.bits) (hx : AllFin x) :
    AllFin (extf ψ x h) :=
  fun i => hx i

/-- The array that repeats one finite value is finite. -/
theorem allFin_broadcast {x : EReal} (hx : IsFin x) : AllFin (broadcast t x) :=
  fun _ => hx

/-- Every entry of a broadcast array is an entry of its source. -/
theorem allFin_broadcastTo {x : s.Idx → EReal} (h : s.Broadcasts t) (hx : AllFin x) :
    AllFin (broadcastTo t x h) :=
  fun _ => hx _

/-- Every entry of a broadcast array is an entry of its source. -/
theorem allFin_broadcastInDim {x : s.Idx → EReal} (dims : Fin s.rank → Fin t.rank)
    (h : s.BroadcastsInDim t dims) (hx : AllFin x) : AllFin (broadcastInDim t dims h x) :=
  fun _ => hx _

/-- Every entry of a reshaped array is an entry of its source. -/
theorem allFin_shapeCast {x : s.Idx → EReal} (h : s.ShapeCasts t) (hx : AllFin x) :
    AllFin (shapeCast t x h) :=
  fun _ => hx _

/-- Every entry of a slice is an entry of its source. -/
theorem allFin_slice {x : s.Idx → EReal} (off : Fin s.rank → Nat) (h : s.Slices off t) (hx : AllFin x) :
    AllFin (extractStridedSlice t off x h) :=
  fun _ => hx _

/-- Every entry of a transposed array is an entry of its source. -/
theorem allFin_transpose {x : s.Idx → EReal} (perm : List (Fin s.rank)) (h : s.Transposes perm t)
    (hx : AllFin x) : AllFin (transpose t perm x h) :=
  fun _ => hx _

/-- The constant array of a word that denotes a finite value is finite. -/
theorem allFin_constant {b : BitVec φ.bits} (hb : IsFin (Ideal.ofBits φ b)) :
    AllFin (constant (F := Ideal) s φ b) :=
  fun _ => hb

/-- An entrywise choice between two finite arrays is finite. -/
theorem allFin_select {c : IVec s 1} {a b : s.Idx → EReal} (ha : AllFin a) (hb : AllFin b) :
    AllFin (select c a b) := by
  intro i
  show IsFin (Scalar.select (c i) (a i) (b i))
  unfold Scalar.select
  split
  · exact ha i
  · exact hb i

/-- Every entry of a gathered array is an entry of its source, whatever the indices. -/
theorem allFin_gather {si : Shape} {w : Nat} (d : GatherDims s si t) {x : s.Idx → EReal} (idx : IVec si w)
    (hx : AllFin x) : AllFin (Host.gather d x idx) :=
  fun _ => hx _

/-- An accumulating scatter gives, at each place, the operand's entry plus a finite sum of update
    entries: finite when the operand and the updates are. -/
theorem allFin_scatterAdd {si u : Shape} {w : Nat} (d : ScatterDims s si u) {x : FVec Ideal s φ}
    (idx : IVec si w) {upd : FVec Ideal u φ} (hx : AllFin x) (hu : AllFin upd) :
    AllFin (Host.scatterAdd d x idx upd) :=
  fun i => (hx i).add (isFin_sum _ _ fun j _ => hu j)

/-- A matrix product into a finite accumulator, of finite operands, is finite: each entry is the
    accumulator's plus a finite sum of products. -/
theorem allFin_matmul {sl sr so : Shape} {φ₁ φ₂ : FTy} (d : DotDims sl sr so) (prec : Option ContractPrecision)
    {lhs : FVec Ideal sl φ₁} {rhs : FVec Ideal sr φ₂} {acc : FVec Ideal so .f32} (hl : AllFin lhs)
    (hr : AllFin rhs) (ha : AllFin acc) : AllFin (matmul d prec lhs rhs acc) :=
  fun j => (ha j).add (isFin_sum _ _ fun k _ => (hl _).mul (hr _))

/-- The reference's matrix product of finite operands is finite: each entry is a finite sum of products. -/
theorem allFin_dotGeneral {sl sr so : Shape} {φ₁ φ₂ : FTy} (d : DotDims sl sr so)
    (prec : Option ContractPrecision) {lhs : FVec Ideal sl φ₁} {rhs : FVec Ideal sr φ₂} (hl : AllFin lhs)
    (hr : AllFin rhs) : AllFin (Host.dotGeneral d prec lhs rhs) :=
  fun j => isFin_zero.add (isFin_sum _ _ fun k _ => (hl _).mul (hr _))

/-- The reference's sum over axes, from a finite initial value, of a finite array is finite. -/
theorem allFin_reduceAdd {axes : List (Fin s.rank)} {u : Shape} {x : FVec Ideal s φ} {init : u.Idx → Ideal φ}
    (h : s.ReducesTo axes t) (hu : 0 < u.numel) (hx : AllFin x) (hi : AllFin init) :
    AllFin (Host.reduceAdd x init h hu) :=
  fun j => (hi _).add (isFin_sum _ _ fun i _ => hx i)

/-- The kernel's sum over axes of a finite array is finite. -/
theorem allFin_multiReduction_add {axes : List (Fin s.rank)} {x : FVec Ideal s φ} (acc : BitVec φ.bits)
    (h : s.Reduces axes t) (hφ : FKind.Formats φ) (hacc : acc = FKind.add.neutral φ hφ) (hx : AllFin x) :
    AllFin (multiReduction .add axes t x acc h hφ hacc) := by
  intro j
  show IsFin (Ideal.reduceAdd h x j)
  unfold Ideal.reduceAdd
  exact isFin_sum _ _ fun i _ => hx i

/-- Every entry of a concatenation is an entry of one of its parts. -/
theorem allFin_concatenate (a : Fin t.rank) (xs : List ((s : Shape) × (s.Idx → EReal)))
    (h : Shape.Concatenates (xs.map (·.1)) t a) (hxs : ∀ p ∈ xs, AllFin p.2) :
    AllFin (concatenate t a xs h) := by
  intro j
  unfold concatenate
  exact hxs _ (List.getElem_mem _) _

end Arrays

end Cert.Fin

end
-- ==== Proof.KI.ProjValue.lean ====
/-
  What the projection region leaves, read over the extended reals: when x and a weight matrix hold real numbers, the
  output array holds the real matrix product x · W, entry by entry (block t of the output is rows [256·t, 256·t + 256)
  of the product, and the 16 blocks cover the array).
-/
import proofs.«406591_j58067957842421_3_alg».proof.Proof.KI.ProjBody
import proofs.«406591_j58067957842421_3_alg».proof.Proof.AttnSpec
import proofs.«406591_j58067957842421_3_alg».proof.Proof.RealArr
import Idealize.ShloMosaic.Lib.Pipeline.Value
import Idealize.ShloMosaic.Lib.ValueIdx
import Idealize.ShloMosaic.PureOps.Ideal.Laws
import proofs.«406591_j58067957842421_3_alg».proof.Proof.LibFinite

set_option maxRecDepth 16384

noncomputable section

namespace Cert.KernelIdeal.Proj

open Idealize.ShloMosaic Idealize.ShloMosaic.TcCoe Idealize.SL.Sem
open Idealize.ShloMosaic.Pipeline (Dat Cfg Window)
open Cert.KernelIdeal Cert.KernelIdeal.Gen Cert.Attn

variable (V : (c : Dev nD) → (b : Ref sig .tc) → Buf (Elt Ideal) ((c : Thread nD τ).loc b))

/-! ## The matrix product inside a block -/

theorem zero_offsets : (![0, 0] : Fin 2 → Nat) = fun _ => 0 := funext fun a => by fin_cases a <;> rfl

/-- The left operand's index at output index `i` and contraction index `q`: row `i 0`, column `q`. -/
theorem lhs_axis0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_axis1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
/-- The right operand's: row `q`, column `i 1`. -/
theorem rhs_axis0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_axis1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry (i 0, k) of the x block and entry (k, i 1) of a weight matrix. -/
abbrev lidx (i : S256x1024.Idx) (k : Fin 1024) : S256x1024.Idx := fun a => match a with
  | ⟨0, _⟩ => ⟨(i 0).val, (i 0).isLt⟩
  | ⟨1, _⟩ => ⟨k.val, k.isLt⟩
abbrev ridx (i : S256x1024.Idx) (k : Fin 1024) : S1024x1024.Idx := fun a => match a with
  | ⟨0, _⟩ => ⟨k.val, k.isLt⟩
  | ⟨1, _⟩ => ⟨(i 1).val, (i 1).isLt⟩

/-- Over the extended reals the block product into a zero accumulator is, entry by entry, the sum over the 1024
    contraction indices of the products of the operands' entries. -/
theorem matmul_entry (l : FVec Ideal S256x1024 .bf16) (r : FVec Ideal S1024x1024 .bf16) (i : S256x1024.Idx) :
    matmul dot_S256x1024_S1024x1024_S256x1024_1_0_0_1_n_n none l r (constant (F := Ideal) S256x1024 .f32 0x00000000#32) i
      = ∑ k : Fin 1024, l (lidx i k) * r (ridx i k) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx i ((ValueIdx.contrEquiv1 dot_S256x1024_S1024x1024_S256x1024_1_0_0_1_n_n 1024 rfl rfl).symm k) = lidx i k := funext fun a => Fin.ext (by
    match a with
    | ⟨0, _⟩ => exact lhs_axis0 _ _
    | ⟨1, _⟩ => exact (lhs_axis1 _ _).trans hk)
  have er : dot_S256x1024_S1024x1024_S256x1024_1_0_0_1_n_n.rhsIdx i ((ValueIdx.contrEquiv1 dot_S256x1024_S1024x1024_S256x1024_1_0_0_1_n_n 1024 rfl rfl).symm k) = ridx i k := funext fun a => Fin.ext (by
    match a with
    | ⟨0, _⟩ => exact (rhs_axis0 _ _).trans hk
    | ⟨1, _⟩ => exact rhs_axis1 _ _)
  rw [el, er]

/-- The three payloads at an entry: narrowing is the identity on extended reals, so each is the plain sum. -/
theorem payQ_entry (x : Vec Ideal S256x1024 .f32) (w : Vec Ideal S1024x1024 .f32) (i : S256x1024.Idx) :
    k0_pay2 (F := Ideal) x w i = ∑ k : Fin 1024, x (lidx i k) * w (ridx i k) := by
  unfold k0_pay2 k0_pay1
  exact matmul_entry _ _ i
theorem payK_entry (x : Vec Ideal S256x1024 .f32) (w : Vec Ideal S1024x1024 .f32) (i : S256x1024.Idx) :
    k0_pay3 (F := Ideal) x w i = ∑ k : Fin 1024, x (lidx i k) * w (ridx i k) := by
  unfold k0_pay3 k0_pay1
  exact matmul_entry _ _ i
theorem payV_entry (x : Vec Ideal S256x1024 .f32) (w : Vec Ideal S1024x1024 .f32) (i : S256x1024.Idx) :
    k0_pay4 (F := Ideal) x w i = ∑ k : Fin 1024, x (lidx i k) * w (ridx i k) := by
  unfold k0_pay4 k0_pay1
  exact matmul_entry _ _ i

/-! ## The blocks as rows of the arrays

The printed index maps, decided once over the 16 grid points: the x block and the three output blocks sit at block
row `t`, the weight blocks are the whole matrices. -/

theorem idx_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_w1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx_w2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_w3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_q : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx_k : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx_v : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-- Entry `y` of the x block at point `t` is entry (256·t + y 0, y 1) of x. -/
theorem xblock_entry (c : Dev nD) (xr : Fin 4096 → Fin 1024 → ℝ)
    (hx : (V c main_arg0 : Vec Ideal S4096x1024 .f32) = arr2 xr) (t : Fin cfg0.N) (y : S256x1024.Idx)
    (r : Fin 4096) (k : Fin 1024) (hr : r.val = 256 * t.val + (y 0).val) (hk : k.val = (y 1).val) :
    (iblk0 V c 0 t : Vec Ideal S256x1024 .f32) y = ((xr r k : ℝ) : EReal) := by
  obtain ⟨i0, i1⟩ := idx_x t
  show (V c main_arg0 : Vec Ideal S4096x1024 .f32) (((cfg0.win 0).blk t).view.emb y) = _
  rw [hx, arr2_apply]
  have e0 : ((((cfg0.win 0).blk t).view.emb y) 0 : Fin 4096) = r := Fin.ext (by
    show win0_0.index t (0 : Fin 2) * 256 + 1 * (y 0).val = r.val; rw [i0, hr]; omega)
  have e1 : ((((cfg0.win 0).blk t).view.emb y) 1 : Fin 1024) = k := Fin.ext (by
    show win0_0.index t (1 : Fin 2) * 1024 + 1 * (y 1).val = k.val; rw [i1, hk]; omega)
  rw [e0, e1]

/-- Entry `y` of the first weight block, at any point, is entry `y` of the matrix. -/
theorem w1block_entry (c : Dev nD) (wr : Fin 1024 → Fin 1024 → ℝ)
    (hw : (V c main_arg1 : Vec Ideal S1024x1024 .f32) = arr2 wr) (t : Fin cfg0.N) (y : S1024x1024.Idx)
    (k : Fin 1024) (q : Fin 1024) (hk : k.val = (y 0).val) (hq : q.val = (y 1).val) :
    (iblk0 V c 1 t : Vec Ideal S1024x1024 .f32) y = ((wr k q : ℝ) : EReal) := by
  obtain ⟨i0, i1⟩ := idx_w1 t
  show (V c main_arg1 : Vec Ideal S1024x1024 .f32) (((cfg0.win 1).blk t).view.emb y) = _
  rw [hw, arr2_apply]
  have e0 : ((((cfg0.win 1).blk t).view.emb y) 0 : Fin 1024) = k := Fin.ext (by
    show win0_1.index t (0 : Fin 2) * 1024 + 1 * (y 0).val = k.val; rw [i0, hk]; omega)
  have e1 : ((((cfg0.win 1).blk t).view.emb y) 1 : Fin 1024) = q := Fin.ext (by
    show win0_1.index t (1 : Fin 2) * 1024 + 1 * (y 1).val = q.val; rw [i1, hq]; omega)
  rw [e0, e1]

/-- Entry `y` of the second weight block, at any point, is entry `y` of the matrix. -/
theorem w2block_entry (c : Dev nD) (wr : Fin 1024 → Fin 1024 → ℝ)
    (hw : (V c main_arg2 : Vec Ideal S1024x1024 .f32) = arr2 wr) (t : Fin cfg0.N) (y : S1024x1024.Idx)
    (k : Fin 1024) (q : Fin 1024) (hk : k.val = (y 0).val) (hq : q.val = (y 1).val) :
    (iblk0 V c 2 t : Vec Ideal S1024x1024 .f32) y = ((wr k q : ℝ) : EReal) := by
  obtain ⟨i0, i1⟩ := idx_w2 t
  show (V c main_arg2 : Vec Ideal S1024x1024 .f32) (((cfg0.win 2).blk t).view.emb y) = _
  rw [hw, arr2_apply]
  have e0 : ((((cfg0.win 2).blk t).view.emb y) 0 : Fin 1024) = k := Fin.ext (by
    show win0_2.index t (0 : Fin 2) * 1024 + 1 * (y 0).val = k.val; rw [i0, hk]; omega)
  have e1 : ((((cfg0.win 2).blk t).view.emb y) 1 : Fin 1024) = q := Fin.ext (by
    show win0_2.index t (1 : Fin 2) * 1024 + 1 * (y 1).val = q.val; rw [i1, hq]; omega)
  rw [e0, e1]

/-- Entry `y` of the third weight block, at any point, is entry `y` of the matrix. -/
theorem w3block_entry (c : Dev nD) (wr : Fin 1024 → Fin 1024 → ℝ)
    (hw : (V c main_arg3 : Vec Ideal S1024x1024 .f32) = arr2 wr) (t : Fin cfg0.N) (y : S1024x1024.Idx)
    (k : Fin 1024) (q : Fin 1024) (hk : k.val = (y 0).val) (hq : q.val = (y 1).val) :
    (iblk0 V c 3 t : Vec Ideal S1024x1024 .f32) y = ((wr k q : ℝ) : EReal) := by
  obtain ⟨i0, i1⟩ := idx_w3 t
  show (V c main_arg3 : Vec Ideal S1024x1024 .f32) (((cfg0.win 3).blk t).view.emb y) = _
  rw [hw, arr2_apply]
  have e0 : ((((cfg0.win 3).blk t).view.emb y) 0 : Fin 1024) = k := Fin.ext (by
    show win0_3.index t (0 : Fin 2) * 1024 + 1 * (y 0).val = k.val; rw [i0, hk]; omega)
  have e1 : ((((cfg0.win 3).blk t).view.emb y) 1 : Fin 1024) = q := Fin.ext (by
    show win0_3.index t (1 : Fin 2) * 1024 + 1 * (y 1).val = q.val; rw [i1, hq]; omega)
  rw [e0, e1]

/-- What point `t` writes back to the query array is block `t` of the real product. -/
theorem flushedQ_eq (c : Dev nD) (xr : Fin 4096 → Fin 1024 → ℝ) (wr : Fin 1024 → Fin 1024 → ℝ)
    (hx : (V c main_arg0 : Vec Ideal S4096x1024 .f32) = arr2 xr) (hw : (V c main_arg1 : Vec Ideal S1024x1024 .f32) = arr2 wr)
    (t : Fin cfg0.N) :
    (dat0 V c).flushed 4 t = ((cfg0.win 4).blk t).view.read (Elt Ideal) (arr2 (proj xr wr) : Vec Ideal S4096x1024 .f32) := by
  show (cfg0.win 4).cut (grid0.coords t) ((dat0 V c).after 4 t) = _
  rw [after0_4]
  unfold outQ
  rw [View.canon_unit_zero zero_offsets]
  simp only [View.ld_unit_zero (S := S256x1024) zero_offsets, View.ld_unit_zero (S := S1024x1024) zero_offsets]
  obtain ⟨i0, i1⟩ := idx_q t
  funext j
  show k0_pay2 (F := Ideal) (iblk0 V c 0 t) (iblk0 V c 1 t) j
    = (arr2 (proj xr wr) : Vec Ideal S4096x1024 .f32) (((cfg0.win 4).blk t).view.emb j)
  rw [payQ_entry, arr2_apply]
  unfold proj
  rw [Cert.Fin.coe_sum]
  refine Finset.sum_congr rfl fun k _ => ?_
  rw [EReal.coe_mul]
  congr 1
  · refine xblock_entry V c xr hx t _ _ k ?_ rfl
    show win0_4.index t (0 : Fin 2) * 256 + 1 * (j 0).val = 256 * t.val + (j 0).val
    rw [i0]; omega
  · refine w1block_entry V c wr hw t _ k _ rfl ?_
    show win0_4.index t (1 : Fin 2) * 1024 + 1 * (j 1).val = (j 1).val
    rw [i1]; omega

/-- What point `t` writes back to the key array is block `t` of the real product. -/
theorem flushedK_eq (c : Dev nD) (xr : Fin 4096 → Fin 1024 → ℝ) (wr : Fin 1024 → Fin 1024 → ℝ)
    (hx : (V c main_arg0 : Vec Ideal S4096x1024 .f32) = arr2 xr) (hw : (V c main_arg2 : Vec Ideal S1024x1024 .f32) = arr2 wr)
    (t : Fin cfg0.N) :
    (dat0 V c).flushed 5 t = ((cfg0.win 5).blk t).view.read (Elt Ideal) (arr2 (proj xr wr) : Vec Ideal S4096x1024 .f32) := by
  show (cfg0.win 5).cut (grid0.coords t) ((dat0 V c).after 5 t) = _
  rw [after0_5]
  unfold outK
  rw [View.canon_unit_zero zero_offsets]
  simp only [View.ld_unit_zero (S := S256x1024) zero_offsets, View.ld_unit_zero (S := S1024x1024) zero_offsets]
  obtain ⟨i0, i1⟩ := idx_k t
  funext j
  show k0_pay3 (F := Ideal) (iblk0 V c 0 t) (iblk0 V c 2 t) j
    = (arr2 (proj xr wr) : Vec Ideal S4096x1024 .f32) (((cfg0.win 5).blk t).view.emb j)
  rw [payK_entry, arr2_apply]
  unfold proj
  rw [Cert.Fin.coe_sum]
  refine Finset.sum_congr rfl fun k _ => ?_
  rw [EReal.coe_mul]
  congr 1
  · refine xblock_entry V c xr hx t _ _ k ?_ rfl
    show win0_5.index t (0 : Fin 2) * 256 + 1 * (j 0).val = 256 * t.val + (j 0).val
    rw [i0]; omega
  · refine w2block_entry V c wr hw t _ k _ rfl ?_
    show win0_5.index t (1 : Fin 2) * 1024 + 1 * (j 1).val = (j 1).val
    rw [i1]; omega

/-- What point `t` writes back to the value array is block `t` of the real product. -/
theorem flushedV_eq (c : Dev nD) (xr : Fin 4096 → Fin 1024 → ℝ) (wr : Fin 1024 → Fin 1024 → ℝ)
    (hx : (V c main_arg0 : Vec Ideal S4096x1024 .f32) = arr2 xr) (hw : (V c main_arg3 : Vec Ideal S1024x1024 .f32) = arr2 wr)
    (t : Fin cfg0.N) :
    (dat0 V c).flushed 6 t = ((cfg0.win 6).blk t).view.read (Elt Ideal) (arr2 (proj xr wr) : Vec Ideal S4096x1024 .bf16) := by
  show (cfg0.win 6).cut (grid0.coords t) ((dat0 V c).after 6 t) = _
  rw [after0_6]
  unfold outV
  rw [View.canon_unit_zero zero_offsets]
  simp only [View.ld_unit_zero (S := S256x1024) zero_offsets, View.ld_unit_zero (S := S1024x1024) zero_offsets]
  obtain ⟨i0, i1⟩ := idx_v t
  funext j
  show k0_pay4 (F := Ideal) (iblk0 V c 0 t) (iblk0 V c 3 t) j
    = (arr2 (proj xr wr) : Vec Ideal S4096x1024 .bf16) (((cfg0.win 6).blk t).view.emb j)
  rw [payV_entry, arr2_apply]
  unfold proj
  rw [Cert.Fin.coe_sum]
  refine Finset.sum_congr rfl fun k _ => ?_
  rw [EReal.coe_mul]
  congr 1
  · refine xblock_entry V c xr hx t _ _ k ?_ rfl
    show win0_6.index t (0 : Fin 2) * 256 + 1 * (j 0).val = 256 * t.val + (j 0).val
    rw [i0]; omega
  · refine w3block_entry V c wr hw t _ k _ rfl ?_
    show win0_6.index t (1 : Fin 2) * 1024 + 1 * (j 1).val = (j 1).val
    rw [i1]; omega

/-! ## The 16 blocks cover the array -/

/-- An index of the query array is in point `t`'s block iff each coordinate is in the block's range on its axis. -/
theorem mem_blkQ (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_call0_v0_0).slice (win0_4.rect t)).set ↔ _
  rw [View.set_slice_whole, Rect.mem_set_unit]
  exact Iff.rfl

/-- Row ρ of the array is in the block of point ρ / 256, and every point writes its block back. -/
theorem coverQ (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨i0, i1⟩ := idx_q t
  refine ⟨t, flush0_4 t, ?_⟩
  rw [mem_blkQ]
  intro a
  match a with
  | ⟨0, _⟩ =>
    show win0_4.index t (0 : Fin 2) * 256 ≤ (i 0).val ∧ (i 0).val < win0_4.index t (0 : Fin 2) * 256 + 256
    rw [i0, ht]; omega
  | ⟨1, _⟩ =>
    show win0_4.index t (1 : Fin 2) * 1024 ≤ (i 1).val ∧ (i 1).val < win0_4.index t (1 : Fin 2) * 1024 + 1024
    rw [i1]; omega

/-- An index of the key array is in point `t`'s block iff each coordinate is in the block's range on its axis. -/
theorem mem_blkK (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_call0_v0_1).slice (win0_5.rect t)).set ↔ _
  rw [View.set_slice_whole, Rect.mem_set_unit]
  exact Iff.rfl

/-- Row ρ of the array is in the block of point ρ / 256, and every point writes its block back. -/
theorem coverK (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨i0, i1⟩ := idx_k t
  refine ⟨t, flush0_5 t, ?_⟩
  rw [mem_blkK]
  intro a
  match a with
  | ⟨0, _⟩ =>
    show win0_5.index t (0 : Fin 2) * 256 ≤ (i 0).val ∧ (i 0).val < win0_5.index t (0 : Fin 2) * 256 + 256
    rw [i0, ht]; omega
  | ⟨1, _⟩ =>
    show win0_5.index t (1 : Fin 2) * 1024 ≤ (i 1).val ∧ (i 1).val < win0_5.index t (1 : Fin 2) * 1024 + 1024
    rw [i1]; omega

/-- An index of the value array is in point `t`'s block iff each coordinate is in the block's range on its axis. -/
theorem mem_blkV (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_call0_v0_2).slice (win0_6.rect t)).set ↔ _
  rw [View.set_slice_whole, Rect.mem_set_unit]
  exact Iff.rfl

/-- Row ρ of the array is in the block of point ρ / 256, and every point writes its block back. -/
theorem coverV (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by omega⟩, rfl⟩
  obtain ⟨i0, i1⟩ := idx_v t
  refine ⟨t, flush0_6 t, ?_⟩
  rw [mem_blkV]
  intro a
  match a with
  | ⟨0, _⟩ =>
    show win0_6.index t (0 : Fin 2) * 256 ≤ (i 0).val ∧ (i 0).val < win0_6.index t (0 : Fin 2) * 256 + 256
    rw [i0, ht]; omega
  | ⟨1, _⟩ =>
    show win0_6.index t (1 : Fin 2) * 1024 ≤ (i 1).val ∧ (i 1).val < win0_6.index t (1 : Fin 2) * 1024 + 1024
    rw [i1]; omega

/-- The query array after the region: x · W_query. -/
theorem projQ_final (c : Dev nD) (xr : Fin 4096 → Fin 1024 → ℝ) (wr : Fin 1024 → Fin 1024 → ℝ)
    (hx : (V c main_arg0 : Vec Ideal S4096x1024 .f32) = arr2 xr) (hw : (V c main_arg1 : Vec Ideal S1024x1024 .f32) = arr2 wr) :
    ((dat0 V c).arrAt 4 cfg0.N : Vec Ideal S4096x1024 .f32) = arr2 (proj xr wr) :=
  (dat0 V c).arrAt_eq_of_cover 4 (arr2 (proj xr wr) : Vec Ideal S4096x1024 .f32) (fun t _ => flushedQ_eq V c xr wr hx hw t) coverQ

/-- The key array after the region: x · W_key. -/
theorem projK_final (c : Dev nD) (xr : Fin 4096 → Fin 1024 → ℝ) (wr : Fin 1024 → Fin 1024 → ℝ)
    (hx : (V c main_arg0 : Vec Ideal S4096x1024 .f32) = arr2 xr) (hw : (V c main_arg2 : Vec Ideal S1024x1024 .f32) = arr2 wr) :
    ((dat0 V c).arrAt 5 cfg0.N : Vec Ideal S4096x1024 .f32) = arr2 (proj xr wr) :=
  (dat0 V c).arrAt_eq_of_cover 5 (arr2 (proj xr wr) : Vec Ideal S4096x1024 .f32) (fun t _ => flushedK_eq V c xr wr hx hw t) coverK

/-- The value array after the region: x · W_value (its narrower float format is the identity on extended reals). -/
theorem projV_final (c : Dev nD) (xr : Fin 4096 → Fin 1024 → ℝ) (wr : Fin 1024 → Fin 1024 → ℝ)
    (hx : (V c main_arg0 : Vec Ideal S4096x1024 .f32) = arr2 xr) (hw : (V c main_arg3 : Vec Ideal S1024x1024 .f32) = arr2 wr) :
    ((dat0 V c).arrAt 6 cfg0.N : Vec Ideal S4096x1024 .bf16) = arr2 (proj xr wr) :=
  (dat0 V c).arrAt_eq_of_cover 6 (arr2 (proj xr wr) : Vec Ideal S4096x1024 .bf16) (fun t _ => flushedV_eq V c xr wr hx hw t) coverV

end Cert.KernelIdeal.Proj

end
-- ==== Proof.KI.AttStepValue.lean ====
/-
  One point's update of the scratch, read over the extended reals. With the query block, key array and value array
  holding real matrices, and key block b read (rows [512·b, 512·b + 512)), write sc r j = (Σ_d Q r d · K (512·b + j) d)/32
  for the block's scores of query row r. From a scratch holding reals (M, L, A) the update leaves
      M' r = max (M r) (max_j sc r j),  L' r = exp(M r − M' r)·L r + Σ_j exp(sc r j − M' r),
      A' r d = exp(M r − M' r)·A r d + Σ_j exp(sc r j − M' r)·V (512·b + j) d;
  from the reset scratch (−∞, 0, 0) the old maximum's exponential is exp(−∞) = 0 and the update leaves the block's own
  M' r = max_j sc r j, L' r = Σ_j exp(sc r j − M' r), A' r d = Σ_j exp(sc r j − M' r)·V (512·b + j) d.
  Every intermediate value is a real number: products and sums of reals, exponentials of reals.
-/
import proofs.«406591_j58067957842421_3_alg».proof.Proof.KI.AttStep
import proofs.«406591_j58067957842421_3_alg».proof.Proof.AttnSpec
import proofs.«406591_j58067957842421_3_alg».proof.Proof.RealArr
import proofs.«406591_j58067957842421_3_alg».proof.Proof.LibFinite
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Att

open Idealize.ShloMosaic Idealize.ShloMosaic.TcCoe Idealize.SL.Sem
open Idealize.ShloMosaic.Pipeline (Dat Cfg Window)
open Cert.KernelIdeal Cert.KernelIdeal.Gen Cert.Attn

open ValueIdx

/-- Query row `r`'s scaled scores against key block `b`. -/
def blockScore (Qb : Fin 256 → Fin 1024 → ℝ) (K : Fin 4096 → Fin 1024 → ℝ) (b : ℕ) (r : Fin 256) (j : Fin 512) : ℝ :=
  (∑ d : Fin 1024, Qb r d * K (kj b j) d) * (1 / 32)

/-! ### Literals -/

/-- The word of negative infinity denotes the bottom element. -/
private theorem ofBits_neg_inf : Ideal.ofBits .f32 0xFF800000#32 = (⊥ : EReal) := by
  simp [Ideal.ofBits, Ideal.ieee]

/-- The word of 1/32 denotes the real number 1/32. -/
private theorem ofBits_inv32 : Ideal.ofBits .f32 0x3D000000#32 = ((1 / 32 : ℝ) : EReal) := by
  simp [Ideal.ofBits, Ideal.ieee, -EReal.coe_mul]; norm_num

/-! ### Layout operations at explicit coordinates -/

/-- A column [256,1] broadcast along rows reads, at (r, c), the column's entry of row r. -/
private theorem bcast_col_apply {n : ℕ} (h : S256x1.Broadcasts ⟨2, ![256, n]⟩) (x : S256x1.Idx → EReal) (r : Fin 256) (c : Fin n) :
    broadcastTo ⟨2, ![256, n]⟩ x h (ix2 r c) = x (ix2 r (0 : Fin 1)) :=
  broadcastTo_apply x h (ix2 r c) (ix2 r (0 : Fin 1)) (fun a => match a with
    | ⟨0, _⟩ => by show r.val = if (256 : Nat) = 1 then 0 else r.val; rw [if_neg (by decide)]
    | ⟨1, _⟩ => by show 0 = if (1 : Nat) = 1 then 0 else c.val; rw [if_pos rfl])

/-- A vector [256] viewed as a column [256,1] reads, at (r, 0), its entry r. -/
private theorem cast_col_apply (h : S256.ShapeCasts S256x1) (x : S256.Idx → EReal) (r : Fin 256) (z : Fin 1) :
    shapeCast S256x1 x h (ix2 r z) = x (ix1 r) :=
  shapeCast_apply x h (ix2 r z) (ix1 r) (by
    rw [Shape.rowMajor_val_one, Shape.rowMajor_val_two]
    show r.val = r.val * 1 + z.val
    have := z.isLt; omega)

/-- The index over row r with lane k inserted is (r, k). -/
private theorem lift_row (h : S256x512.Reduces [1] S256) (r : Fin 256) (k : Fin 512) : h.lift (ix1 r) k = ix2 r k := by
  funext c; apply Fin.ext
  match c with
  | ⟨0, _⟩ => rfl
  | ⟨1, _⟩ => rfl

/-- The only column index of a one-column array is 0. -/
private theorem fin1_eq_zero (z : Fin 1) : z = 0 := Subsingleton.elim _ _

/-! ### The key and value rows read -/

/-- The key block read at block b holds key 512·b + j in row j. -/
private theorem kblk_apply (i : grid1.Coords) (b : ℕ) (hb : b < 8) (hoff : k1_off1 i = ![512 * b, 0])
    (K : Fin 4096 → Fin 1024 → ℝ) (j : Fin 512) (d : Fin 1024) :
    kblk (F := Ideal) i (arr2 K) (ix2 j d) = ((K (kj b j) d : ℝ) : EReal) := by
  have e0 : (rKV i).idx (ix2 j d) 0 = kj b j := Fin.ext (by
    show k1_off1 i 0 + 1 * j.val = _
    rw [hoff, kj_val b hb]; show 512 * b + 1 * j.val = _; omega)
  have e1 : (rKV i).idx (ix2 j d) 1 = d := Fin.ext (by
    show k1_off1 i 1 + 1 * d.val = _
    rw [hoff]; show 0 + 1 * d.val = d.val; omega)
  exact congrArg₂ (fun a c => ((K a c : ℝ) : EReal)) e0 e1

/-- The value block read at block b holds value row 512·b + j in row j. -/
private theorem vblk_apply (i : grid1.Coords) (b : ℕ) (hb : b < 8) (hoff : k1_off1 i = ![512 * b, 0])
    (V : Fin 4096 → Fin 1024 → ℝ) (j : Fin 512) (d : Fin 1024) :
    vblk (F := Ideal) i (arr2 V) (ix2 j d) = ((V (kj b j) d : ℝ) : EReal) := by
  have e0 : (rKV i).idx (ix2 j d) 0 = kj b j := Fin.ext (by
    show k1_off1 i 0 + 1 * j.val = _
    rw [hoff, kj_val b hb]; show 512 * b + 1 * j.val = _; omega)
  have e1 : (rKV i).idx (ix2 j d) 1 = d := Fin.ext (by
    show k1_off1 i 1 + 1 * d.val = _
    rw [hoff]; show 0 + 1 * d.val = d.val; omega)
  exact congrArg₂ (fun a c => ((V a c : ℝ) : EReal)) e0 e1

/-! ### Order facts on the extended reals -/

/-- The coercion of the reals commutes with the binary maximum. -/
private theorem coe_max' (x y : ℝ) : ((max x y : ℝ) : EReal) = max (x : EReal) (y : EReal) :=
  EReal.coe_strictMono.monotone.map_max

/-- The fold of the maximum from −∞ over finitely many reals is their supremum. -/
private theorem fold_max_coe {n : ℕ} (hn : (Finset.univ : Finset (Fin n)).Nonempty) (x : Fin n → ℝ) :
    (Finset.univ : Finset (Fin n)).fold max (⊥ : EReal) (fun k => ((x k : ℝ) : EReal))
      = ((Finset.univ.sup' hn x : ℝ) : EReal) := by
  apply le_antisymm
  · rw [Finset.fold_max_le]
    exact ⟨bot_le, fun k _ => EReal.coe_le_coe_iff.mpr (Finset.le_sup' x (Finset.mem_univ k))⟩
  · obtain ⟨k, _, hk⟩ := Finset.exists_mem_eq_sup' hn x
    rw [hk, Finset.le_fold_max]
    exact Or.inr ⟨k, Finset.mem_univ k, le_rfl⟩

/-! ### The score product: queries against the key block, contracting the feature axis of both -/

private theorem qk_lhs_0 (i : S256x512.Idx) (q : dot_S256x1024_S512x1024_S256x512_1_1_0_0_n_n.contr.Idx) :
    (dot_S256x1024_S512x1024_S256x512_1_1_0_0_n_n.lhsIdx i q 0).val = (i 0).val := by
  unfold DotDims.lhsIdx
  rw [dif_neg (show ¬(0 : Fin S256x1024.rank) ∈ dot_S256x1024_S512x1024_S256x512_1_1_0_0_n_n.lhsBatch by decide), dif_pos (show (0 : Fin S256x1024.rank) ∈ dot_S256x1024_S512x1024_S256x512_1_1_0_0_n_n.lhsNonContracting by decide)]
  rfl
private theorem qk_lhs_1 (i : S256x512.Idx) (q : dot_S256x1024_S512x1024_S256x512_1_1_0_0_n_n.contr.Idx) :
    (dot_S256x1024_S512x1024_S256x512_1_1_0_0_n_n.lhsIdx i q 1).val = (q ⟨0, by decide⟩).val :=
  dot_S256x1024_S512x1024_S256x512_1_1_0_0_n_n.lhsIdx_val_of_single rfl i q
private theorem qk_rhs_0 (i : S256x512.Idx) (q : dot_S256x1024_S512x1024_S256x512_1_1_0_0_n_n.contr.Idx) :
    (dot_S256x1024_S512x1024_S256x512_1_1_0_0_n_n.rhsIdx i q 0).val = (i 1).val := by
  unfold DotDims.rhsIdx
  rw [dif_neg (show ¬(0 : Fin S512x1024.rank) ∈ dot_S256x1024_S512x1024_S256x512_1_1_0_0_n_n.rhsBatch by decide), dif_pos (show (0 : Fin S512x1024.rank) ∈ dot_S256x1024_S512x1024_S256x512_1_1_0_0_n_n.rhsNonContracting by decide)]
  rfl
private theorem qk_rhs_1 (i : S256x512.Idx) (q : dot_S256x1024_S512x1024_S256x512_1_1_0_0_n_n.contr.Idx) :
    (dot_S256x1024_S512x1024_S256x512_1_1_0_0_n_n.rhsIdx i q 1).val = (q ⟨0, by decide⟩).val :=
  dot_S256x1024_S512x1024_S256x512_1_1_0_0_n_n.rhsIdx_val_of_single rfl i q

/-- Entry (r, j) of the product into a zero accumulator: the sum over the features of query row r times key row j. -/
private theorem qk_apply (A : FVec Ideal S256x1024 .f32) (B : FVec Ideal S512x1024 .f32) (r : Fin 256) (j : Fin 512) :
    matmul (φ₁ := .f32) (φ₂ := .f32) dot_S256x1024_S512x1024_S256x512_1_1_0_0_n_n (some .fp32) A B (constant (F := Ideal) S256x512 .f32 0x00000000#32) (ix2 r j)
      = ∑ d : Fin 1024, A (ix2 r d) * B (ix2 j d) := by
  simp only [matmul]
  rw [Ideal.matmul_constant_zero_apply, ← Equiv.sum_comp (ValueIdx.contrEquiv1 dot_S256x1024_S512x1024_S256x512_1_1_0_0_n_n 1024 rfl rfl).symm]
  refine Finset.sum_congr rfl fun k _ => ?_
  have hk := ValueIdx.contrEquiv1_symm_val dot_S256x1024_S512x1024_S256x512_1_1_0_0_n_n 1024 rfl rfl k
  have el : dot_S256x1024_S512x1024_S256x512_1_1_0_0_n_n.lhsIdx (ix2 r j) ((ValueIdx.contrEquiv1 dot_S256x1024_S512x1024_S256x512_1_1_0_0_n_n 1024 rfl rfl).symm k) = ix2 r k := funext fun a => Fin.ext (by
    match a with
    | ⟨0, _⟩ => exact qk_lhs_0 _ _
    | ⟨1, _⟩ => exact (qk_lhs_1 _ _).trans hk)
  have er : dot_S256x1024_S512x1024_S256x512_1_1_0_0_n_n.rhsIdx (ix2 r j) ((ValueIdx.contrEquiv1 dot_S256x1024_S512x1024_S256x512_1_1_0_0_n_n 1024 rfl rfl).symm k) = ix2 j k := funext fun a => Fin.ext (by
    match a with
    | ⟨0, _⟩ => exact qk_rhs_0 _ _
    | ⟨1, _⟩ => exact (qk_rhs_1 _ _).trans hk)
  rw [el, er]

/-- Scaled scores of the query rows against the rows of a key block: (Σ_d q r d · k j d) / 32. -/
private def sc (qb : Fin 256 → Fin 1024 → ℝ) (kb : Fin 512 → Fin 1024 → ℝ) (r : Fin 256) (j : Fin 512) : ℝ :=
  (∑ d : Fin 1024, qb r d * kb j d) * (1 / 32)

/-- A query row's largest score in the block. -/
private def bm (qb : Fin 256 → Fin 1024 → ℝ) (kb : Fin 512 → Fin 1024 → ℝ) (r : Fin 256) : ℝ :=
  Finset.univ.sup' Finset.univ_nonempty (sc qb kb r)

/-- The scaled scores at (r, j), for a query block and a key block holding reals. -/
private theorem pay7_apply (Kb : Vec Ideal S512x1024 .f32) (Q : Vec Ideal S256x1024 .f32)
    (kb : Fin 512 → Fin 1024 → ℝ) (qb : Fin 256 → Fin 1024 → ℝ)
    (hK : ∀ (j : Fin 512) (d : Fin 1024), Kb (ix2 j d) = ((kb j d : ℝ) : EReal))
    (hQ : ∀ (r : Fin 256) (d : Fin 1024), Q (ix2 r d) = ((qb r d : ℝ) : EReal)) (r : Fin 256) (j : Fin 512) :
    k1_pay7 Kb Q (ix2 r j) = ((sc qb kb r j : ℝ) : EReal) := by
  unfold k1_pay7 sc
  show matmul (φ₁ := .f32) (φ₂ := .f32) dot_S256x1024_S512x1024_S256x512_1_1_0_0_n_n (some .fp32) (shapeCast S256x1024 Q shapeCasts_S256x1024_S256x1024)
      (shapeCast S512x1024 Kb shapeCasts_S512x1024_S512x1024) (constant (F := Ideal) S256x512 .f32 0x00000000#32) (ix2 r j)
        * Ideal.ofBits .f32 0x3D000000#32 = _
  rw [qk_apply, ofBits_inv32, EReal.coe_mul, Cert.Fin.coe_sum]
  refine congrArg (· * ((1 / 32 : ℝ) : EReal)) (Finset.sum_congr rfl fun d _ => ?_)
  rw [shapeCast_self, shapeCast_self, hQ, hK, EReal.coe_mul]

/-! ### The lane reductions -/

/-- A row's lane maximum from −∞, over real entries, is the supremum of the row. -/
private theorem rowmax_apply (X : FVec Ideal S256x512 .f32) (x : Fin 256 → Fin 512 → ℝ)
    (hX : ∀ (r : Fin 256) (j : Fin 512), X (ix2 r j) = ((x r j : ℝ) : EReal)) (r : Fin 256)
    (hφ : FKind.Formats .f32) (hacc : (0xFF800000#32 : BitVec 32) = FKind.maximumf.neutral .f32 hφ) :
    multiReduction (F := Ideal) .maximumf [1] S256 X 0xFF800000#32 reduces_S256x512_S256 hφ hacc (ix1 r)
      = ((Finset.univ.sup' Finset.univ_nonempty (x r) : ℝ) : EReal) := by
  refine (Ideal.multiReduction_maximumf_single X _ reduces_S256x512_S256 hφ hacc (ix1 r)).trans ?_
  have e : (X ∘ reduces_S256x512_S256.lift (ix1 r) : Fin 512 → EReal) = fun k => ((x r k : ℝ) : EReal) :=
    funext fun k => by show X (reduces_S256x512_S256.lift (ix1 r) k) = _; rw [lift_row, hX]
  have b : FloatOps.ofBits (F := Ideal) .f32 0xFF800000#32 = (⊥ : EReal) := ofBits_neg_inf
  exact (congrArg₂ (fun (c : EReal) (f : Fin 512 → EReal) => (Finset.univ : Finset (Fin 512)).fold max c f) b e).trans
    (fold_max_coe _ _)

/-- A row's lane sum from zero is the sum of the row. -/
private theorem rowsum_apply (X : FVec Ideal S256x512 .f32) (r : Fin 256)
    (hφ : FKind.Formats .f32) (hacc : (0x00000000#32 : BitVec 32) = FKind.add.neutral .f32 hφ) :
    multiReduction (F := Ideal) .add [1] S256 X 0x00000000#32 reduces_S256x512_S256 hφ hacc (ix1 r)
      = ∑ j : Fin 512, X (ix2 r j) := by
  refine (Ideal.multiReduction_add_single X _ reduces_S256x512_S256 hφ hacc (ix1 r)).trans ?_
  show ∑ k : Fin 512, X (reduces_S256x512_S256.lift (ix1 r) k) = _
  exact Finset.sum_congr rfl fun k _ => by rw [lift_row]

/-! ### The weighted-value product: block weights against the value block, contracting the key axis -/

private theorem pv_lhs_0 (i : S256x1024.Idx) (q : dot_S256x512_S512x1024_S256x1024_1_0_0_1_n_n.contr.Idx) :
    (dot_S256x512_S512x1024_S256x1024_1_0_0_1_n_n.lhsIdx i q 0).val = (i 0).val := by
  unfold DotDims.lhsIdx
  rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
  rfl
private theorem pv_lhs_1 (i : S256x1024.Idx) (q : dot_S256x512_S512x1024_S256x1024_1_0_0_1_n_n.contr.Idx) :
    (dot_S256x512_S512x1024_S256x1024_1_0_0_1_n_n.lhsIdx i q 1).val = (q ⟨0, by decide⟩).val :=
  dot_S256x512_S512x1024_S256x1024_1_0_0_1_n_n.lhsIdx_val_of_single rfl i q
private theorem pv_rhs_0 (i : S256x1024.Idx) (q : dot_S256x512_S512x1024_S256x1024_1_0_0_1_n_n.contr.Idx) :
    (dot_S256x512_S512x1024_S256x1024_1_0_0_1_n_n.rhsIdx i q 0).val = (q ⟨0, by decide⟩).val :=
  dot_S256x512_S512x1024_S256x1024_1_0_0_1_n_n.rhsIdx_val_of_single rfl i q
private theorem pv_rhs_1 (i : S256x1024.Idx) (q : dot_S256x512_S512x1024_S256x1024_1_0_0_1_n_n.contr.Idx) :
    (dot_S256x512_S512x1024_S256x1024_1_0_0_1_n_n.rhsIdx i q 1).val = (i 1).val := by
  unfold DotDims.rhsIdx
  rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
  rfl

/-- Entry (r, d) of the product into a zero accumulator: the sum over the block's keys of weight (r, j) times value (j, d). -/
private theorem pv_apply (A : FVec Ideal S256x512 .bf16) (B : FVec Ideal S512x1024 .bf16) (r : Fin 256) (d : Fin 1024) :
    matmul (φ₁ := .bf16) (φ₂ := .bf16) dot_S256x512_S512x1024_S256x1024_1_0_0_1_n_n none A B (constant (F := Ideal) S256x1024 .f32 0x00000000#32) (ix2 r d)
      = ∑ j : Fin 512, A (ix2 r j) * B (ix2 j d) := by
  simp only [matmul]
  rw [Ideal.matmul_constant_zero_apply, ← Equiv.sum_comp (ValueIdx.contrEquiv1 dot_S256x512_S512x1024_S256x1024_1_0_0_1_n_n 512 rfl rfl).symm]
  refine Finset.sum_congr rfl fun k _ => ?_
  have hk := ValueIdx.contrEquiv1_symm_val dot_S256x512_S512x1024_S256x1024_1_0_0_1_n_n 512 rfl rfl k
  have el : dot_S256x512_S512x1024_S256x1024_1_0_0_1_n_n.lhsIdx (ix2 r d) ((ValueIdx.contrEquiv1 dot_S256x512_S512x1024_S256x1024_1_0_0_1_n_n 512 rfl rfl).symm k) = ix2 r k := funext fun a => Fin.ext (by
    match a with
    | ⟨0, _⟩ => exact pv_lhs_0 _ _
    | ⟨1, _⟩ => exact (pv_lhs_1 _ _).trans hk)
  have er : dot_S256x512_S512x1024_S256x1024_1_0_0_1_n_n.rhsIdx (ix2 r d) ((ValueIdx.contrEquiv1 dot_S256x512_S512x1024_S256x1024_1_0_0_1_n_n 512 rfl rfl).symm k) = ix2 k d := funext fun a => Fin.ext (by
    match a with
    | ⟨0, _⟩ => exact (pv_rhs_0 _ _).trans hk
    | ⟨1, _⟩ => exact pv_rhs_1 _ _)
  rw [el, er]

/-! ### The payloads at an index, over the extended reals -/

/-- The new running maximum: the old one against the row's largest score. -/
private theorem pay8_apply (Kb : Vec Ideal S512x1024 .f32) (Q : Vec Ideal S256x1024 .f32)
    (kb : Fin 512 → Fin 1024 → ℝ) (qb : Fin 256 → Fin 1024 → ℝ)
    (hK : ∀ (j : Fin 512) (d : Fin 1024), Kb (ix2 j d) = ((kb j d : ℝ) : EReal))
    (hQ : ∀ (r : Fin 256) (d : Fin 1024), Q (ix2 r d) = ((qb r d : ℝ) : EReal))
    (m : Vec Ideal S256x1 .f32) (r : Fin 256) (z : Fin 1) :
    k1_pay8 Kb Q m (ix2 r z) = max (m (ix2 r z)) ((bm qb kb r : ℝ) : EReal) := by
  unfold k1_pay8
  exact congrArg (max (m (ix2 r z))) ((cast_col_apply _ _ r z).trans
    (rowmax_apply (k1_pay7 Kb Q) (sc qb kb) (pay7_apply Kb Q kb qb hK hQ) r _ _))

/-- The rescaling factor of the old sums: exp(old maximum − new maximum). -/
private theorem pay9_apply (Kb : Vec Ideal S512x1024 .f32) (Q : Vec Ideal S256x1024 .f32)
    (kb : Fin 512 → Fin 1024 → ℝ) (qb : Fin 256 → Fin 1024 → ℝ)
    (hK : ∀ (j : Fin 512) (d : Fin 1024), Kb (ix2 j d) = ((kb j d : ℝ) : EReal))
    (hQ : ∀ (r : Fin 256) (d : Fin 1024), Q (ix2 r d) = ((qb r d : ℝ) : EReal))
    (m m' : Vec Ideal S256x1 .f32) (r : Fin 256) (z : Fin 1) :
    k1_pay9 Kb Q m m' (ix2 r z) = Ideal.exp (m' (ix2 r z) - max (m (ix2 r z)) ((bm qb kb r : ℝ) : EReal)) := by
  unfold k1_pay9
  exact congrArg (fun t => Ideal.exp (m' (ix2 r z) - t)) (pay8_apply Kb Q kb qb hK hQ m r z)

/-- The block's weights: exp(score − new maximum). -/
private theorem pay10_apply (Kb : Vec Ideal S512x1024 .f32) (Q : Vec Ideal S256x1024 .f32)
    (kb : Fin 512 → Fin 1024 → ℝ) (qb : Fin 256 → Fin 1024 → ℝ)
    (hK : ∀ (j : Fin 512) (d : Fin 1024), Kb (ix2 j d) = ((kb j d : ℝ) : EReal))
    (hQ : ∀ (r : Fin 256) (d : Fin 1024), Q (ix2 r d) = ((qb r d : ℝ) : EReal))
    (m : Vec Ideal S256x1 .f32) (r : Fin 256) (j : Fin 512) :
    k1_pay10 Kb Q m (ix2 r j)
      = Ideal.exp (((sc qb kb r j : ℝ) : EReal) - max (m (ix2 r (0 : Fin 1))) ((bm qb kb r : ℝ) : EReal)) := by
  unfold k1_pay10
  exact congrArg₂ (fun s t => Ideal.exp (s - t)) (pay7_apply Kb Q kb qb hK hQ r j)
    ((bcast_col_apply _ _ r j).trans (pay8_apply Kb Q kb qb hK hQ m r 0))

/-- The new running denominator. -/
private theorem pay11_apply (Kb : Vec Ideal S512x1024 .f32) (Q : Vec Ideal S256x1024 .f32)
    (kb : Fin 512 → Fin 1024 → ℝ) (qb : Fin 256 → Fin 1024 → ℝ)
    (hK : ∀ (j : Fin 512) (d : Fin 1024), Kb (ix2 j d) = ((kb j d : ℝ) : EReal))
    (hQ : ∀ (r : Fin 256) (d : Fin 1024), Q (ix2 r d) = ((qb r d : ℝ) : EReal))
    (m m' l : Vec Ideal S256x1 .f32) (r : Fin 256) (z : Fin 1) :
    k1_pay11 Kb Q m m' l (ix2 r z)
      = Ideal.exp (m' (ix2 r z) - max (m (ix2 r z)) ((bm qb kb r : ℝ) : EReal)) * l (ix2 r z)
        + ∑ j : Fin 512, Ideal.exp (((sc qb kb r j : ℝ) : EReal) - max (m (ix2 r (0 : Fin 1))) ((bm qb kb r : ℝ) : EReal)) := by
  unfold k1_pay11
  refine (congrFun (shapeCast_self _ _) (ix2 r z)).trans ?_
  refine congrArg₂ (fun s t => s * l (ix2 r z) + t) (pay9_apply Kb Q kb qb hK hQ m m' r z) ?_
  exact (cast_col_apply _ _ r z).trans ((rowsum_apply _ r _ _).trans
    (Finset.sum_congr rfl fun j _ => pay10_apply Kb Q kb qb hK hQ m r j))

/-- The block's contribution to the numerator. -/
private theorem pay12_apply (Kb : Vec Ideal S512x1024 .f32) (Q : Vec Ideal S256x1024 .f32)
    (kb : Fin 512 → Fin 1024 → ℝ) (qb : Fin 256 → Fin 1024 → ℝ)
    (hK : ∀ (j : Fin 512) (d : Fin 1024), Kb (ix2 j d) = ((kb j d : ℝ) : EReal))
    (hQ : ∀ (r : Fin 256) (d : Fin 1024), Q (ix2 r d) = ((qb r d : ℝ) : EReal))
    (Vb : Vec Ideal S512x1024 .bf16) (vb : Fin 512 → Fin 1024 → ℝ)
    (hV : ∀ (j : Fin 512) (d : Fin 1024), Vb (ix2 j d) = ((vb j d : ℝ) : EReal))
    (m : Vec Ideal S256x1 .f32) (r : Fin 256) (d : Fin 1024) :
    k1_pay12 Kb Vb Q m (ix2 r d)
      = ∑ j : Fin 512, Ideal.exp (((sc qb kb r j : ℝ) : EReal) - max (m (ix2 r (0 : Fin 1))) ((bm qb kb r : ℝ) : EReal))
          * ((vb j d : ℝ) : EReal) := by
  unfold k1_pay12
  refine (pv_apply _ _ r d).trans (Finset.sum_congr rfl fun j _ => ?_)
  exact congrArg₂ (· * ·) (pay10_apply Kb Q kb qb hK hQ m r j)
    ((congrFun (shapeCast_self _ _) (ix2 j d)).trans (hV j d))

/-- The new running numerator: the old one rescaled plus the block's contribution. -/
private theorem pay1_apply (a : FVec Ideal S256x1 .f32) (p : FVec Ideal S256x1024 .f32) (acc : Vec Ideal S256x1024 .f32)
    (r : Fin 256) (d : Fin 1024) :
    k1_pay1 a p acc (ix2 r d) = a (ix2 r (0 : Fin 1)) * acc (ix2 r d) + p (ix2 r d) := by
  unfold k1_pay1
  refine (congrFun (shapeCast_self _ _) (ix2 r d)).trans ?_
  exact congrArg (fun t => t * acc (ix2 r d) + p (ix2 r d)) (bcast_col_apply _ _ r d)

/-- The stored running maximum is the computed one. -/
private theorem pay2_apply (v : FVec Ideal S256x1 .f32) (y : S256x1.Idx) : k1_pay2 v y = v y := by
  unfold k1_pay2
  exact congrFun (shapeCast_self _ _) y

/-! ### One point's update over the extended reals -/

/-- The block's scores are the scores against the key rows the block reads. -/
private theorem blockScore_eq (Qb : Fin 256 → Fin 1024 → ℝ) (K : Fin 4096 → Fin 1024 → ℝ) (b : ℕ) :
    blockScore Qb K b = sc Qb (fun j d => K (kj b j) d) := rfl

/-- The update from any scratch contents, entry by entry, with the scores and values real. -/
private theorem stepNext_ereal (i : grid1.Coords) (b : ℕ) (hb : b < 8) (hoff : k1_off1 i = ![512 * b, 0])
    (Qb : Fin 256 → Fin 1024 → ℝ) (K Vr : Fin 4096 → Fin 1024 → ℝ) (s : St Ideal) :
    (∀ (r : Fin 256) (z : Fin 1), (stepNext i (arr2 Qb) (arr2 K) (arr2 Vr) s).1 (ix2 r z)
        = max (s.1 (ix2 r z)) ((bm Qb (fun j d => K (kj b j) d) r : ℝ) : EReal))
    ∧ (∀ (r : Fin 256) (z : Fin 1), (stepNext i (arr2 Qb) (arr2 K) (arr2 Vr) s).2.1 (ix2 r z)
        = Ideal.exp (s.1 (ix2 r z) - max (s.1 (ix2 r z)) ((bm Qb (fun j d => K (kj b j) d) r : ℝ) : EReal)) * s.2.1 (ix2 r z)
          + ∑ j : Fin 512, Ideal.exp (((sc Qb (fun j d => K (kj b j) d) r j : ℝ) : EReal)
              - max (s.1 (ix2 r (0 : Fin 1))) ((bm Qb (fun j d => K (kj b j) d) r : ℝ) : EReal)))
    ∧ (∀ (r : Fin 256) (d : Fin 1024), (stepNext i (arr2 Qb) (arr2 K) (arr2 Vr) s).2.2 (ix2 r d)
        = Ideal.exp (s.1 (ix2 r (0 : Fin 1)) - max (s.1 (ix2 r (0 : Fin 1))) ((bm Qb (fun j d => K (kj b j) d) r : ℝ) : EReal)) * s.2.2 (ix2 r d)
          + ∑ j : Fin 512, Ideal.exp (((sc Qb (fun j d => K (kj b j) d) r j : ℝ) : EReal)
              - max (s.1 (ix2 r (0 : Fin 1))) ((bm Qb (fun j d => K (kj b j) d) r : ℝ) : EReal)) * ((Vr (kj b j) d : ℝ) : EReal)) := by
  have hK := kblk_apply i b hb hoff K
  have hV := vblk_apply i b hb hoff Vr
  have hQ : ∀ (r : Fin 256) (d : Fin 1024), arr2 Qb (ix2 r d) = ((Qb r d : ℝ) : EReal) := fun r d => rfl
  unfold stepNext
  refine ⟨fun r z => ?_, fun r z => ?_, fun r d => ?_⟩
  · exact (pay2_apply _ _).trans (pay8_apply _ _ _ _ hK hQ s.1 r z)
  · exact pay11_apply _ _ _ _ hK hQ s.1 s.1 s.2.1 r z
  · exact (pay1_apply _ _ _ r d).trans (congrArg₂ (fun x y => x * s.2.2 (ix2 r d) + y)
      (pay9_apply _ _ _ _ hK hQ s.1 s.1 r 0) (pay12_apply _ _ _ _ hK hQ _ _ hV s.1 r d))

/-- The update from a scratch holding reals. -/
theorem stepNext_value (i : grid1.Coords) (b : ℕ) (hb : b < 8) (hoff : k1_off1 i = ![512 * b, 0])
    (Qb : Fin 256 → Fin 1024 → ℝ) (K Vr : Fin 4096 → Fin 1024 → ℝ) (s : St Ideal)
    (M L : Fin 256 → ℝ) (A : Fin 256 → Fin 1024 → ℝ)
    (h1 : ∀ (r : Fin 256) (z : Fin 1), s.1 (ix2 r z) = ((M r : ℝ) : EReal))
    (h2 : ∀ (r : Fin 256) (z : Fin 1), s.2.1 (ix2 r z) = ((L r : ℝ) : EReal))
    (h3 : ∀ (r : Fin 256) (d : Fin 1024), s.2.2 (ix2 r d) = ((A r d : ℝ) : EReal)) :
    (∀ (r : Fin 256) (z : Fin 1), (stepNext i (arr2 Qb) (arr2 K) (arr2 Vr) s).1 (ix2 r z)
        = ((max (M r) (Finset.univ.sup' Finset.univ_nonempty (blockScore Qb K b r)) : ℝ) : EReal))
    ∧ (∀ (r : Fin 256) (z : Fin 1), (stepNext i (arr2 Qb) (arr2 K) (arr2 Vr) s).2.1 (ix2 r z)
        = ((Real.exp (M r - max (M r) (Finset.univ.sup' Finset.univ_nonempty (blockScore Qb K b r))) * L r
            + ∑ j : Fin 512, Real.exp (blockScore Qb K b r j - max (M r) (Finset.univ.sup' Finset.univ_nonempty (blockScore Qb K b r))) : ℝ) : EReal))
    ∧ (∀ (r : Fin 256) (d : Fin 1024), (stepNext i (arr2 Qb) (arr2 K) (arr2 Vr) s).2.2 (ix2 r d)
        = ((Real.exp (M r - max (M r) (Finset.univ.sup' Finset.univ_nonempty (blockScore Qb K b r))) * A r d
            + ∑ j : Fin 512, Real.exp (blockScore Qb K b r j - max (M r) (Finset.univ.sup' Finset.univ_nonempty (blockScore Qb K b r))) * Vr (kj b j) d : ℝ) : EReal)) := by
  obtain ⟨e1, e2, e3⟩ := stepNext_ereal i b hb hoff Qb K Vr s
  simp only [blockScore_eq]
  refine ⟨fun r z => ?_, fun r z => ?_, fun r d => ?_⟩
  · rw [e1, h1, coe_max']; rfl
  · rw [e2, h1, h1 r 0, h2]
    simp only [← coe_max', ← EReal.coe_sub, Ideal.exp_coe, ← EReal.coe_mul, ← Cert.Fin.coe_sum, ← EReal.coe_add]
    rfl
  · rw [e3, h1 r 0, h3]
    simp only [← coe_max', ← EReal.coe_sub, Ideal.exp_coe, ← EReal.coe_mul, ← Cert.Fin.coe_sum, ← EReal.coe_add]
    rfl

/-- The update from the reset scratch. -/
theorem stepFirst_value (i : grid1.Coords) (b : ℕ) (hb : b < 8) (hoff : k1_off1 i = ![512 * b, 0])
    (Qb : Fin 256 → Fin 1024 → ℝ) (K Vr : Fin 4096 → Fin 1024 → ℝ) :
    (∀ (r : Fin 256) (z : Fin 1), (stepFirst (F := Ideal) i (arr2 Qb) (arr2 K) (arr2 Vr)).1 (ix2 r z)
        = ((Finset.univ.sup' Finset.univ_nonempty (blockScore Qb K b r) : ℝ) : EReal))
    ∧ (∀ (r : Fin 256) (z : Fin 1), (stepFirst (F := Ideal) i (arr2 Qb) (arr2 K) (arr2 Vr)).2.1 (ix2 r z)
        = ((∑ j : Fin 512, Real.exp (blockScore Qb K b r j - Finset.univ.sup' Finset.univ_nonempty (blockScore Qb K b r)) : ℝ) : EReal))
    ∧ (∀ (r : Fin 256) (d : Fin 1024), (stepFirst (F := Ideal) i (arr2 Qb) (arr2 K) (arr2 Vr)).2.2 (ix2 r d)
        = ((∑ j : Fin 512, Real.exp (blockScore Qb K b r j - Finset.univ.sup' Finset.univ_nonempty (blockScore Qb K b r)) * Vr (kj b j) d : ℝ) : EReal)) := by
  have m0 : ∀ y : S256x1.Idx, (st0 (F := Ideal)).1 y = (⊥ : EReal) := fun y => ofBits_neg_inf
  have l0 : ∀ y : S256x1.Idx, (st0 (F := Ideal)).2.1 y = (0 : EReal) := fun y => Ideal.ofBits_zero_f32
  have a0 : ∀ y : S256x1024.Idx, (st0 (F := Ideal)).2.2 y = (0 : EReal) := fun y => Ideal.ofBits_zero_f32
  obtain ⟨e1, e2, e3⟩ := stepNext_ereal i b hb hoff Qb K Vr st0
  unfold stepFirst
  simp only [blockScore_eq]
  refine ⟨fun r z => ?_, fun r z => ?_, fun r d => ?_⟩
  · rw [e1, m0, max_eq_right bot_le]; rfl
  · rw [e2, m0, m0, l0]
    simp only [max_eq_right bot_le, EReal.bot_sub, Ideal.exp_bot, zero_mul, zero_add, ← EReal.coe_sub, Ideal.exp_coe,
      ← Cert.Fin.coe_sum]
    rfl
  · rw [e3, m0, a0]
    simp only [max_eq_right bot_le, EReal.bot_sub, Ideal.exp_bot, zero_mul, zero_add, ← EReal.coe_sub, Ideal.exp_coe,
      ← EReal.coe_mul, ← Cert.Fin.coe_sum]
    rfl

/-- The stored output block: numerator over denominator, for a positive real denominator. -/
theorem outO_value (s : St Ideal) (L : Fin 256 → ℝ) (A : Fin 256 → Fin 1024 → ℝ) (hL : ∀ r, 0 < L r)
    (h2 : ∀ (r : Fin 256) (z : Fin 1), s.2.1 (ix2 r z) = ((L r : ℝ) : EReal))
    (h3 : ∀ (r : Fin 256) (d : Fin 1024), s.2.2 (ix2 r d) = ((A r d : ℝ) : EReal)) (r : Fin 256) (d : Fin 1024) :
    outO s (ix2 r d) = ((A r d / L r : ℝ) : EReal) := by
  unfold outO k1_pay3
  show Ideal.div (s.2.2 (ix2 r d)) (broadcastTo S256x1024 s.2.1 broadcasts_S256x1_S256x1024 (ix2 r d)) = _
  rw [bcast_col_apply, h3, h2]
  exact Cert.Fin.div_coe_coe _ _ (hL r).ne'

end Cert.KernelIdeal.Att

end
-- ==== Proof.KI.AttScratch.lean ====
/-
  The scratch after every point, read over the extended reals. When the query, key and value arrays hold real
  matrices Q, K, V, the scratch after point t = 8·qi + kv holds, in row r (query row i = 256·qi + r), the online softmax
  state after key blocks 0..kv: running maximum onM, denominator onL, numerator onA of the scores (Q · Kᵀ)/32.
  By induction on the point: at kv = 0 the update from the reset scratch is the recurrence's start, otherwise the
  update from the point before is the recurrence's step; the point's query block is rows [256·qi, 256·qi + 256) of Q, its
  key and value blocks are the whole arrays, and the key rows read are [512·kv, 512·kv + 512).
-/
import proofs.«406591_j58067957842421_3_alg».proof.Proof.KI.AttDat
import proofs.«406591_j58067957842421_3_alg».proof.Proof.KI.AttStepValue

set_option maxRecDepth 16384

noncomputable section

namespace Cert.KernelIdeal.Att

open Idealize.ShloMosaic Idealize.ShloMosaic.TcCoe Idealize.SL.Sem
open Idealize.ShloMosaic.Pipeline (Dat Cfg Window)
open Cert.KernelIdeal Cert.KernelIdeal.Gen Cert.Attn

open ValueIdx

variable (V : (c : Dev nD) → (b : Ref sig .tc) → Buf (Elt Ideal) ((c : Thread nD τ).loc b))

/-! ## The points' blocks -/

/-- Row r of query block q, as a row of the whole matrix (total by reduction modulo 4096, exact for q < 16). -/
def qrow (q : ℕ) (r : Fin 256) : Fin 4096 := ⟨(256 * q + r.val) % 4096, Nat.mod_lt _ (by norm_num)⟩

theorem qrow_eq (q : ℕ) (r : Fin 256) (h : 256 * q + r.val < 4096) : qrow q r = ⟨256 * q + r.val, h⟩ :=
  Fin.ext (Nat.mod_eq_of_lt h)

/-- Rows [256·q, 256·q + 256) of a 4096-row matrix. -/
def qrows (Q : Fin 4096 → Fin 1024 → ℝ) (q : ℕ) : Fin 256 → Fin 1024 → ℝ :=
  fun r d => Q (qrow q r) d

theorem qrows_apply (Q : Fin 4096 → Fin 1024 → ℝ) (q : ℕ) (r : Fin 256) (d : Fin 1024) (h : 256 * q + r.val < 4096) :
    qrows Q q r d = Q ⟨256 * q + r.val, h⟩ d := by
  unfold qrows
  rw [qrow_eq q r h]

/-- The windows' block indices over the grid: the query window moves with the query block, the key and value windows
    stay on their one block. -/
theorem idx1_0 : ∀ t : Fin cfg1.N, win1_0.index t (0 : Fin 2) = t.val / 8 ∧ win1_0.index t (1 : Fin 2) = 0 :=
  (by decide +kernel : ∀ t : Fin grid1.N, win1_0.index t (0 : Fin 2) = t.val / 8 ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)

/-- The key rows read at point t start at 512·(t mod 8). -/
theorem off1_eq : ∀ t : Fin cfg1.N, k1_off1 (grid1.coords t) = ![512 * (t.val % 8), 0] :=
  (by decide +kernel : ∀ t : Fin grid1.N, k1_off1 (grid1.coords t) = ![512 * (t.val % 8), 0])

/-- The query block at point t is rows [256·(t/8), 256·(t/8) + 256) of Q. -/
theorem iblk1_q (c : Dev nD) (Q : Fin 4096 → Fin 1024 → ℝ)
    (hq : (V c main_call0_v0_0 : Vec Ideal S4096x1024 .f32) = arr2 Q) (t : Fin cfg1.N) :
    (iblk1 V c 0 t : Vec Ideal S256x1024 .f32) = arr2 (qrows Q (t.val / 8)) := by
  funext j
  have e : (iblk1 V c 0 t : Vec Ideal S256x1024 .f32) j
      = (V c main_call0_v0_0 : Vec Ideal S4096x1024 .f32) (((cfg1.win 0).blk t).view.emb j) := rfl
  rw [e, hq, arr2_apply, arr2_apply]
  obtain ⟨e0, e1⟩ := idx1_0 t
  have hN : t.val < 128 := lt_of_lt_of_eq t.isLt (show cfg1.N = 128 from N_1)
  have hj0 : (j 0).val < 256 := (j 0).isLt
  have hj1 : (j 1).val < 1024 := (j 1).isLt
  have h0 : ((cfg1.win 0).blk t).view.emb j 0 = ⟨(256 * (t.val / 8) + (j 0).val) % 4096, Nat.mod_lt _ (by norm_num)⟩ := by
    apply Fin.ext
    show win1_0.index t (0 : Fin 2) * 256 + 1 * (j 0).val = (256 * (t.val / 8) + (j 0).val) % 4096
    rw [e0, Nat.mod_eq_of_lt (by omega)]; omega
  have h1 : ((cfg1.win 0).blk t).view.emb j 1 = j 1 := by
    apply Fin.ext
    show win1_0.index t (1 : Fin 2) * 1024 + 1 * (j 1).val = (j 1).val
    rw [e1]; omega
  rw [h0, h1]
  rfl

/-- The key block at every point is the whole key array. -/
theorem iblk1_k (c : Dev nD) (K : Fin 4096 → Fin 1024 → ℝ)
    (hk : (V c main_call0_v0_1 : Vec Ideal S4096x1024 .f32) = arr2 K) (t : Fin cfg1.N) :
    (iblk1 V c 1 t : Vec Ideal S4096x1024 .f32) = arr2 K := by
  funext j
  have e : (iblk1 V c 1 t : Vec Ideal S4096x1024 .f32) j
      = (V c main_call0_v0_1 : Vec Ideal S4096x1024 .f32) (((cfg1.win 1).blk t).view.emb j) := rfl
  rw [e]
  obtain ⟨e0, e1⟩ := idx1_1 t
  have h : ((cfg1.win 1).blk t).view.emb j = j := by
    funext a; apply Fin.ext
    match a with
    | ⟨0, _⟩ => show win1_1.index t (0 : Fin 2) * 4096 + 1 * (j 0).val = (j 0).val; rw [e0]; omega
    | ⟨1, _⟩ => show win1_1.index t (1 : Fin 2) * 1024 + 1 * (j 1).val = (j 1).val; rw [e1]; omega
  rw [h, hk]

/-- The value block at every point is the whole value array. -/
theorem iblk1_v (c : Dev nD) (Vr : Fin 4096 → Fin 1024 → ℝ)
    (hv : (V c main_call0_v0_2 : Vec Ideal S4096x1024 .bf16) = arr2 Vr) (t : Fin cfg1.N) :
    (iblk1 V c 2 t : Vec Ideal S4096x1024 .bf16) = arr2 Vr := by
  funext j
  have e : (iblk1 V c 2 t : Vec Ideal S4096x1024 .bf16) j
      = (V c main_call0_v0_2 : Vec Ideal S4096x1024 .bf16) (((cfg1.win 2).blk t).view.emb j) := rfl
  rw [e]
  obtain ⟨e0, e1⟩ := idx1_2 t
  have h : ((cfg1.win 2).blk t).view.emb j = j := by
    funext a; apply Fin.ext
    match a with
    | ⟨0, _⟩ => show win1_2.index t (0 : Fin 2) * 4096 + 1 * (j 0).val = (j 0).val; rw [e0]; omega
    | ⟨1, _⟩ => show win1_2.index t (1 : Fin 2) * 1024 + 1 * (j 1).val = (j 1).val; rw [e1]; omega
  rw [h, hv]

/-! ## One point's update in terms of the scores -/

/-- A query block's scores against a key block are the whole matrices' scores at the block's rows and keys. -/
theorem blockScore_qrows (Q K : Fin 4096 → Fin 1024 → ℝ) (q b : ℕ) (r : Fin 256) :
    blockScore (qrows Q q) K b r = fun j => score Q K (qrow q r) (kj b j) := rfl

theorem sup_blockScore (Q K : Fin 4096 → Fin 1024 → ℝ) (q b : ℕ) (r : Fin 256) :
    Finset.univ.sup' Finset.univ_nonempty (blockScore (qrows Q q) K b r) = bmax (score Q K) (qrow q r) b := rfl

/-- The update from the reset scratch at key block 0 is the online recurrence's start. -/
theorem first_value (i : grid1.Coords) (hoff : k1_off1 i = ![512 * 0, 0]) (Q K Vr : Fin 4096 → Fin 1024 → ℝ) (q : ℕ) (r : Fin 256) :
    (∀ z : Fin 1, (stepFirst (F := Ideal) i (arr2 (qrows Q q)) (arr2 K) (arr2 Vr)).1 (ix2 r z) = ((onM (score Q K) (qrow q r) 0 : ℝ) : EReal))
    ∧ (∀ z : Fin 1, (stepFirst (F := Ideal) i (arr2 (qrows Q q)) (arr2 K) (arr2 Vr)).2.1 (ix2 r z) = ((onL (score Q K) (qrow q r) 0 : ℝ) : EReal))
    ∧ (∀ d : Fin 1024, (stepFirst (F := Ideal) i (arr2 (qrows Q q)) (arr2 K) (arr2 Vr)).2.2 (ix2 r d) = ((onA (score Q K) Vr (qrow q r) d 0 : ℝ) : EReal)) := by
  obtain ⟨g1, g2, g3⟩ := stepFirst_value i 0 (by norm_num) hoff (qrows Q q) K Vr
  refine ⟨fun z => ?_, fun z => ?_, fun d => ?_⟩
  · rw [g1 r z]; rfl
  · rw [g2 r z]; rfl
  · rw [g3 r d]; rfl

/-- The update at key block k + 1 from the online state after block k is the online recurrence's step. -/
theorem next_value (i : grid1.Coords) (k : ℕ) (hk : k + 1 < 8) (hoff : k1_off1 i = ![512 * (k + 1), 0])
    (Q K Vr : Fin 4096 → Fin 1024 → ℝ) (q : ℕ) (s : St Ideal)
    (h1 : ∀ (r : Fin 256) (z : Fin 1), s.1 (ix2 r z) = ((onM (score Q K) (qrow q r) k : ℝ) : EReal))
    (h2 : ∀ (r : Fin 256) (z : Fin 1), s.2.1 (ix2 r z) = ((onL (score Q K) (qrow q r) k : ℝ) : EReal))
    (h3 : ∀ (r : Fin 256) (d : Fin 1024), s.2.2 (ix2 r d) = ((onA (score Q K) Vr (qrow q r) d k : ℝ) : EReal)) (r : Fin 256) :
    (∀ z : Fin 1, (stepNext i (arr2 (qrows Q q)) (arr2 K) (arr2 Vr) s).1 (ix2 r z) = ((onM (score Q K) (qrow q r) (k + 1) : ℝ) : EReal))
    ∧ (∀ z : Fin 1, (stepNext i (arr2 (qrows Q q)) (arr2 K) (arr2 Vr) s).2.1 (ix2 r z) = ((onL (score Q K) (qrow q r) (k + 1) : ℝ) : EReal))
    ∧ (∀ d : Fin 1024, (stepNext i (arr2 (qrows Q q)) (arr2 K) (arr2 Vr) s).2.2 (ix2 r d) = ((onA (score Q K) Vr (qrow q r) d (k + 1) : ℝ) : EReal)) := by
  obtain ⟨g1, g2, g3⟩ := stepNext_value i (k + 1) hk hoff (qrows Q q) K Vr s
    (fun r => onM (score Q K) (qrow q r) k) (fun r => onL (score Q K) (qrow q r) k) (fun r d => onA (score Q K) Vr (qrow q r) d k) h1 h2 h3
  refine ⟨fun z => ?_, fun z => ?_, fun d => ?_⟩
  · rw [g1 r z]; rfl
  · rw [g2 r z]; rfl
  · rw [g3 r d]; rfl

/-! ## The scratch after every point -/

/-- The scratch after point n holds, in row r, the online state of query row 256·(n/8) + r after key blocks 0..n mod 8. -/
theorem scAt_value_aux (c : Dev nD) (Q K Vr : Fin 4096 → Fin 1024 → ℝ)
    (hq : (V c main_call0_v0_0 : Vec Ideal S4096x1024 .f32) = arr2 Q) (hk : (V c main_call0_v0_1 : Vec Ideal S4096x1024 .f32) = arr2 K)
    (hv : (V c main_call0_v0_2 : Vec Ideal S4096x1024 .bf16) = arr2 Vr) :
    ∀ (n : ℕ) (hn : n < cfg1.N) (r : Fin 256),
      (∀ z : Fin 1, (scAt V c n hn).1 (ix2 r z) = ((onM (score Q K) (qrow (n / 8) r) (n % 8) : ℝ) : EReal))
      ∧ (∀ z : Fin 1, (scAt V c n hn).2.1 (ix2 r z) = ((onL (score Q K) (qrow (n / 8) r) (n % 8) : ℝ) : EReal))
      ∧ (∀ d : Fin 1024, (scAt V c n hn).2.2 (ix2 r d) = ((onA (score Q K) Vr (qrow (n / 8) r) d (n % 8) : ℝ) : EReal)) := by
  intro n
  induction n using Nat.strong_induction_on with
  | _ n ih =>
    intro hn r
    have hN : n < 128 := lt_of_lt_of_eq hn (show cfg1.N = 128 from N_1)
    have hoff : k1_off1 (grid1.coords ⟨n, hn⟩) = ![512 * (n % 8), 0] := off1_eq ⟨n, hn⟩
    have eq : (iblk1 V c 0 ⟨n, hn⟩ : Vec Ideal S256x1024 .f32) = arr2 (qrows Q (n / 8)) := iblk1_q V c Q hq ⟨n, hn⟩
    have ek := iblk1_k V c K hk ⟨n, hn⟩
    have ev := iblk1_v V c Vr hv ⟨n, hn⟩
    by_cases h0 : n % 8 = 0
    · have h : scAt V c n hn = stepFirst (grid1.coords ⟨n, hn⟩) (iblk1 V c 0 ⟨n, hn⟩) (iblk1 V c 1 ⟨n, hn⟩) (iblk1 V c 2 ⟨n, hn⟩) :=
        scAt_first V c ⟨n, hn⟩ h0
      rw [h, eq, ek, ev, h0]
      rw [h0] at hoff
      exact first_value (grid1.coords ⟨n, hn⟩) hoff Q K Vr (n / 8) r
    · have h : scAt V c n hn = stepNext (grid1.coords ⟨n, hn⟩) (iblk1 V c 0 ⟨n, hn⟩) (iblk1 V c 1 ⟨n, hn⟩) (iblk1 V c 2 ⟨n, hn⟩)
          (scAt V c (n - 1) (Nat.lt_of_le_of_lt (Nat.sub_le _ _) hn)) :=
        scAt_next V c ⟨n, hn⟩ h0
      obtain ⟨k, hk8⟩ : ∃ k, n % 8 = k + 1 := ⟨n % 8 - 1, by omega⟩
      have e1 : (n - 1) / 8 = n / 8 := by omega
      have e2 : (n - 1) % 8 = k := by omega
      have ih' := ih (n - 1) (by omega) (Nat.lt_of_le_of_lt (Nat.sub_le _ _) hn)
      rw [e1, e2] at ih'
      rw [h, eq, ek, ev, hk8]
      rw [hk8] at hoff
      exact next_value (grid1.coords ⟨n, hn⟩) k (by omega) hoff Q K Vr (n / 8) _
        (fun r z => (ih' r).1 z) (fun r z => (ih' r).2.1 z) (fun r d => (ih' r).2.2 d) r

theorem scAt_value (c : Dev nD) (Q K Vr : Fin 4096 → Fin 1024 → ℝ)
    (hq : (V c main_call0_v0_0 : Vec Ideal S4096x1024 .f32) = arr2 Q) (hk : (V c main_call0_v0_1 : Vec Ideal S4096x1024 .f32) = arr2 K)
    (hv : (V c main_call0_v0_2 : Vec Ideal S4096x1024 .bf16) = arr2 Vr)
    (t : Fin cfg1.N) (r : Fin 256) (hi : 256 * (t.val / 8) + r.val < 4096) :
    (∀ z : Fin 1, (scAt V c t.val t.isLt).1 (ix2 r z) = ((onM (score Q K) ⟨256 * (t.val / 8) + r.val, hi⟩ (t.val % 8) : ℝ) : EReal))
    ∧ (∀ z : Fin 1, (scAt V c t.val t.isLt).2.1 (ix2 r z) = ((onL (score Q K) ⟨256 * (t.val / 8) + r.val, hi⟩ (t.val % 8) : ℝ) : EReal))
    ∧ (∀ d : Fin 1024, (scAt V c t.val t.isLt).2.2 (ix2 r d) = ((onA (score Q K) Vr ⟨256 * (t.val / 8) + r.val, hi⟩ d (t.val % 8) : ℝ) : EReal)) := by
  have h := scAt_value_aux V c Q K Vr hq hk hv t.val t.isLt r
  rw [qrow_eq (t.val / 8) r hi] at h
  exact h

end Cert.KernelIdeal.Att

end
-- ==== Proof.KI.AttValue.lean ====
/-
  What the attention region leaves in the result array, read over the extended reals. At the last key block of query
  block qi (point 8·qi + 7) the stored block is numerator over denominator of the online state after all 8 key blocks,
  which is softmax attention of rows [256·qi, 256·qi + 256) (online_final); these 16 points are the ones written back, and
  their blocks cover the array.
-/
import proofs.«406591_j58067957842421_3_alg».proof.Proof.KI.AttScratch

set_option maxRecDepth 16384
set_option pp.maxSteps 5000
set_option pp.deepTerms false

noncomputable section

namespace Cert.KernelIdeal.Att

open Idealize.ShloMosaic Idealize.ShloMosaic.TcCoe Idealize.SL.Sem
open Idealize.ShloMosaic.Pipeline (Dat Cfg Window)
open Cert.KernelIdeal Cert.KernelIdeal.Gen Cert.Attn

open ValueIdx

variable (V : (c : Dev nD) → (b : Ref sig .tc) → Buf (Elt Ideal) ((c : Thread nD τ).loc b))

/-! ## The result block's place in the array

The printed index map of the result window, decided once over the 128 grid points: at point t = 8·qi + kv the block sits
at block row qi = t / 8, block column 0. -/

theorem idx_out : ∀ t : Fin cfg1.N, win1_3.index t (0 : Fin 2) = t.val / 8 ∧ win1_3.index t (1 : Fin 2) = 0 :=
  (by decide +kernel : ∀ t : Fin grid1.N, win1_3.index t (0 : Fin 2) = t.val / 8 ∧ win1_3.index t (1 : Fin 2) = 0)

/-- A stored block whose rows hold the online denominators and numerators of query rows [256·b, 256·b + 256) after all 8
    key blocks is, at entry (r, d), softmax attention at row 256·b + r, column d (the online quotient after the last block). -/
theorem outO_attn (Q K Vr : Fin 4096 → Fin 1024 → ℝ) (s : St Ideal) (b : ℕ) (hb : ∀ r : Fin 256, 256 * b + r.val < 4096)
    (h2 : ∀ (r : Fin 256) (z : Fin 1), s.2.1 (ix2 r z) = ((onL (score Q K) ⟨256 * b + r.val, hb r⟩ 7 : ℝ) : EReal))
    (h3 : ∀ (r : Fin 256) (d : Fin 1024), s.2.2 (ix2 r d) = ((onA (score Q K) Vr ⟨256 * b + r.val, hb r⟩ d 7 : ℝ) : EReal))
    (r : Fin 256) (d : Fin 1024) (i : S4096x1024.Idx) (hi0 : (i 0).val = 256 * b + r.val) (hi1 : (i 1).val = d.val) :
    outO s (ix2 r d) = (arr2 (attn (score Q K) Vr) : Vec Ideal S4096x1024 .f32) i := by
  rw [outO_value s (fun r => onL (score Q K) ⟨256 * b + r.val, hb r⟩ 7)
    (fun r d => onA (score Q K) Vr ⟨256 * b + r.val, hb r⟩ d 7) (fun r => onL_pos _ _ _) h2 h3 r d]
  rw [online_final, arr2_apply]
  have e0 : (i 0 : Fin 4096) = ⟨256 * b + r.val, hb r⟩ := Fin.ext hi0
  have e1 : (i 1 : Fin 1024) = d := Fin.ext hi1
  rw [e0, e1]
  rfl

/-- Rows [256·(t/8), 256·(t/8) + 256) lie inside the 4096 rows, for every point of the 16 × 8 grid. -/
theorem row_lt (t : Fin cfg1.N) (r : Fin 256) : 256 * (t.val / 8) + r.val < 4096 := by
  have hN : t.val < 128 := lt_of_lt_of_eq t.isLt (show cfg1.N = 128 from N_1)
  have hr := r.isLt
  omega

/-- What a last-key-block point t = 8·qi + 7 writes back is block qi of softmax attention: the online quotient after all
    8 key blocks, row by row. -/
theorem flushedO_eq (c : Dev nD) (Q K Vr : Fin 4096 → Fin 1024 → ℝ)
    (hq : (V c main_call0_v0_0 : Vec Ideal S4096x1024 .f32) = arr2 Q) (hk : (V c main_call0_v0_1 : Vec Ideal S4096x1024 .f32) = arr2 K)
    (hv : (V c main_call0_v0_2 : Vec Ideal S4096x1024 .bf16) = arr2 Vr) (t : Fin cfg1.N) (h7 : t.val % 8 = 7) :
    (dat1 V c).flushed 3 t
      = ((cfg1.win 3).blk t).view.read (Elt Ideal) (arr2 (attn (score Q K) Vr) : Vec Ideal S4096x1024 .f32) := by
  show (cfg1.win 3).cut (grid1.coords t) ((dat1 V c).after 3 t) = _
  rw [after1_3]
  obtain ⟨i0, i1⟩ := idx_out t
  -- the online state after the point, row by row, with t % 8 = 7
  have hL : ∀ (r : Fin 256) (z : Fin 1), (scAt V c t.val t.isLt).2.1 (ix2 r z)
      = ((onL (score Q K) ⟨256 * (t.val / 8) + r.val, row_lt t r⟩ 7 : ℝ) : EReal) := fun r z => by
    have h := (scAt_value V c Q K Vr hq hk hv t r (row_lt t r)).2.1 z
    rwa [h7] at h
  have hA : ∀ (r : Fin 256) (d : Fin 1024), (scAt V c t.val t.isLt).2.2 (ix2 r d)
      = ((onA (score Q K) Vr ⟨256 * (t.val / 8) + r.val, row_lt t r⟩ d 7 : ℝ) : EReal) := fun r d => by
    have h := (scAt_value V c Q K Vr hq hk hv t r (row_lt t r)).2.2 d
    rwa [h7] at h
  funext j
  show outO (scAt V c t.val t.isLt) j
    = (arr2 (attn (score Q K) Vr) : Vec Ideal S4096x1024 .f32) (((cfg1.win 3).blk t).view.emb j)
  -- the block's entry j sits at row 256·(t/8) + j₀, column j₁ of the array
  refine (congrArg (outO (scAt V c t.val t.isLt)) (eq_ix2 j)).trans
    (outO_attn Q K Vr (scAt V c t.val t.isLt) (t.val / 8) (row_lt t) hL hA (j 0) (j 1) (((cfg1.win 3).blk t).view.emb j) ?_ ?_)
  · show win1_3.index t (0 : Fin 2) * 256 + 1 * (j 0).val = 256 * (t.val / 8) + (j 0).val
    rw [i0]; omega
  · show win1_3.index t (1 : Fin 2) * 1024 + 1 * (j 1).val = (j 1).val
    rw [i1]; omega

/-! ## The blocks cover the array -/

/-- An index of the array is in point t's block iff each coordinate is in the block's range on its axis. -/
theorem mem_blkO (t : Fin cfg1.N) (i : S4096x1024.Idx) :
    i ∈ ((cfg1.win 3).blk t).view.set
      ↔ ∀ a : Fin 2, win1_3.index t a * S256x1024.size a ≤ (i a).val
          ∧ (i a).val < win1_3.index t a * S256x1024.size a + S256x1024.size a := by
  show i ∈ ((View.whole main_v0).slice (win1_3.rect t)).set ↔ _
  rw [View.set_slice_whole, Rect.mem_set_unit]
  exact Iff.rfl

/-- Row i₀ of the array is in the block written back at the last key block of query block i₀ / 256. -/
theorem coverO (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hlt : 8 * ((i 0).val / 256) + 7 < cfg1.N := lt_of_lt_of_eq (by omega) (show cfg1.N = 128 from N_1).symm
  have htv : (⟨8 * ((i 0).val / 256) + 7, hlt⟩ : Fin cfg1.N).val = 8 * ((i 0).val / 256) + 7 := rfl
  obtain ⟨i0, i1⟩ := idx_out ⟨8 * ((i 0).val / 256) + 7, hlt⟩
  refine ⟨⟨8 * ((i 0).val / 256) + 7, hlt⟩, (flush1_3 _).mpr (by rw [htv]; omega), ?_⟩
  rw [mem_blkO]
  intro a
  match a with
  | ⟨0, _⟩ =>
    show win1_3.index ⟨8 * ((i 0).val / 256) + 7, hlt⟩ (0 : Fin 2) * 256 ≤ (i 0).val
      ∧ (i 0).val < win1_3.index ⟨8 * ((i 0).val / 256) + 7, hlt⟩ (0 : Fin 2) * 256 + 256
    rw [i0, htv]; omega
  | ⟨1, _⟩ =>
    show win1_3.index ⟨8 * ((i 0).val / 256) + 7, hlt⟩ (1 : Fin 2) * 1024 ≤ (i 1).val
      ∧ (i 1).val < win1_3.index ⟨8 * ((i 0).val / 256) + 7, hlt⟩ (1 : Fin 2) * 1024 + 1024
    rw [i1]; omega

/-- The result array after the region: softmax attention of the three real matrices. -/
theorem att_final (c : Dev nD) (Q K Vr : Fin 4096 → Fin 1024 → ℝ)
    (hq : (V c main_call0_v0_0 : Vec Ideal S4096x1024 .f32) = arr2 Q) (hk : (V c main_call0_v0_1 : Vec Ideal S4096x1024 .f32) = arr2 K)
    (hv : (V c main_call0_v0_2 : Vec Ideal S4096x1024 .bf16) = arr2 Vr) :
    ((dat1 V c).arrAt 3 cfg1.N : Vec Ideal S4096x1024 .f32) = arr2 (attn (score Q K) Vr) :=
  (dat1 V c).arrAt_eq_of_cover 3 (arr2 (attn (score Q K) Vr) : Vec Ideal S4096x1024 .f32)
    (fun t hf => flushedO_eq V c Q K Vr hq hk hv t ((flush1_3 t).mp hf)) coverO

end Cert.KernelIdeal.Att

end
-- ==== Proof.KI.Finite.lean ====
/-
  From the precondition to real matrices: "every float input is finite" says each entry x of the four argument
  arrays satisfies |x| < +∞, so each is (the image of) a real number; choosing those reals gives four real matrices
  whose images are the argument arrays.
-/
import proofs.«406591_j58067957842421_3_alg».proof.Defs
import proofs.«406591_j58067957842421_3_alg».proof.Proof.Gen.Pre_finite_inputs
import proofs.«406591_j58067957842421_3_alg».proof.Proof.Gen.KernelIdeal
import proofs.«406591_j58067957842421_3_alg».proof.Proof.RealArr
import proofs.«406591_j58067957842421_3_alg».proof.Proof.LibFinite
import Idealize.ShloMosaic.Lib.ReduceAll
import Idealize.ShloMosaic.Lib.ValueIdx

set_option maxRecDepth 16384

noncomputable section

namespace Cert.KernelIdeal.Fin

open Idealize.ShloMosaic Idealize.ShloMosaic.TcCoe Idealize.SL.Sem
open Cert.KernelIdeal Cert.Attn

/-- The rank-0 shape has exactly one index (the empty tuple). -/
instance instSubsingletonScalarIdx : Subsingleton (⟨0, ![]⟩ : Shape).Idx :=
  ⟨fun a b => funext fun d => d.elim0⟩

/-- The single-precision word with all-ones exponent and zero significand denotes +∞. -/
theorem ofBits_inf : Ideal.ofBits .f32 0x7F800000#32 = (⊤ : EReal) := by
  simp [Ideal.ofBits, Ideal.ieee]

/-- An extended real x with |x| = max x (−x) strictly below +∞ is a real number: x = +∞ gives |x| = +∞, and
    x = −∞ gives −x = +∞, so |x| = +∞ again. -/
theorem exists_real_of_abs_lt_top (x : EReal) (h : max x (-x) < ⊤) : ∃ r : ℝ, x = (r : EReal) := by
  induction x using EReal.rec with
  | bot => simp at h
  | coe r => exact ⟨r, rfl⟩
  | top => simp at h

/-- One array: if the conjunction over all entries of "|v i| < +∞" is true, then v is the image of a real matrix.
    The conjunction being 1 makes every entry's comparison 1; the comparison is the order's "<" against +∞; each
    entry is then a real number, and the matrix collects the chosen reals. -/
theorem real_of_all {a b : ℕ} {axes : List (Fin 2)} (v : FVec Ideal ⟨2, ![a, b]⟩ .f32)
    (bc : (⟨0, ![]⟩ : Shape).BroadcastsInDim ⟨2, ![a, b]⟩ (![] : Fin 0 → Fin 2))
    (red : (⟨2, ![a, b]⟩ : Shape).ReducesTo axes ⟨0, ![]⟩) (hS : 0 < (⟨0, ![]⟩ : Shape).numel)
    (init : IVec ⟨0, ![]⟩ 1)
    (e : Host.reduce IntOp.andi
          (cmpf .olt (Host.absf v)
            (broadcastInDim ⟨2, ![a, b]⟩ ![] bc (constant ⟨0, ![]⟩ .f32 0x7F800000#32)))
          init red hS ValueIdx.ix0 = 1#1) :
    ∃ X : Fin a → Fin b → ℝ, v = arr2 X := by
  have hel : ∀ i, ∃ r : ℝ, v i = (r : EReal) := by
    intro i
    have hi := Host.reduce_andi_all _ init red hS ValueIdx.ix0 e i
    have hi' : BitVec.ofBool (decide (max (v i) (-(v i)) < Ideal.ofBits .f32 0x7F800000#32)) = 1#1 := hi
    rw [ofBits_inf] at hi'
    have hlt : max (v i) (-(v i)) < ⊤ := by
      by_contra hn
      rw [decide_eq_false hn] at hi'
      exact absurd hi' (by decide)
    exact exists_real_of_abs_lt_top _ hlt
  choose f hf using hel
  refine ⟨fun p q => f (ValueIdx.ix2 p q), ?_⟩
  funext i
  rw [ValueIdx.eq_ix2 i]
  exact hf _

/-- Under the precondition each argument array is the image of a real matrix. -/
theorem real_of_pre [hPre : Cert.Pre_finite_inputs.Facts] (m : (ℓ : Loc nD τ sig) → Buf (Elt Ideal) ℓ) (h : Cert.Pre_KernelIdeal m) (c : Dev nD) :
    ∃ (xr : Fin 4096 → Fin 1024 → ℝ) (wq wk wv : Fin 1024 → Fin 1024 → ℝ),
      (m ((c.tc : Thread nD τ).loc main_arg0) : Vec Ideal S4096x1024 .f32) = arr2 xr
      ∧ (m ((c.tc : Thread nD τ).loc main_arg1) : Vec Ideal S1024x1024 .f32) = arr2 wq
      ∧ (m ((c.tc : Thread nD τ).loc main_arg2) : Vec Ideal S1024x1024 .f32) = arr2 wk
      ∧ (m ((c.tc : Thread nD τ).loc main_arg3) : Vec Ideal S1024x1024 .f32) = arr2 wv := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  obtain ⟨xr, hxr⟩ := real_of_all _ _ _ _ _ h0'
  obtain ⟨wq, hwq⟩ := real_of_all _ _ _ _ _ h1
  obtain ⟨wk, hwk⟩ := real_of_all _ _ _ _ _ h2
  obtain ⟨wv, hwv⟩ := real_of_all _ _ _ _ _ h3
  exact ⟨xr, wq, wk, wv, hxr, hwq, hwk, hwv⟩

end Cert.KernelIdeal.Fin

end
-- ==== Proof.RefValue.lean ====
/-
  The reference program's result over the extended reals: on real matrices x, W_query, W_key, W_value its composed
  term is softmax attention of x·W_query, x·W_key, x·W_value with each weight divided by the denominator first
  (attnRef). Its scale is 1 / √1024 = 1/32; its row maximum is max(−∞, max_j s) = max_j s; the exponentials are of
  real numbers, the denominator a positive real, so every stage stays real.
-/
import proofs.«406591_j58067957842421_3_alg».proof.Proof.Gen.ReferenceIdeal.Read
import proofs.«406591_j58067957842421_3_alg».proof.Proof.AttnSpec
import proofs.«406591_j58067957842421_3_alg».proof.Proof.RealArr
import proofs.«406591_j58067957842421_3_alg».proof.Proof.LibFinite
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Read Cert.Attn

/-! ### Scalars -/

/-- The word of `1024.0` denotes the real number 1024. -/
theorem ofBits_1024 : Ideal.ofBits .f32 0x44800000#32 = ((1024 : ℝ) : EReal) := by
  simp [Ideal.ofBits, Ideal.ieee, -EReal.coe_mul]; norm_num

/-- The word of `-inf` denotes −∞. -/
theorem ofBits_neg_inf : Ideal.ofBits .f32 0xFF800000#32 = (⊥ : EReal) := by
  simp [Ideal.ofBits, Ideal.ieee]

/-- √1024 = 32. -/
theorem sqrt_1024 : Real.sqrt 1024 = 32 := by
  rw [show (1024 : ℝ) = 32 ^ 2 by norm_num]
  exact Real.sqrt_sq (by norm_num)

/-- The maximum, from −∞, of finitely many reals read as extended reals is their real maximum. -/
theorem fold_max_coe {n : ℕ} (hn : (Finset.univ : Finset (Fin n)).Nonempty) (g : Fin n → ℝ) :
    (Finset.univ : Finset (Fin n)).fold max (⊥ : EReal) (fun k => ((g k : ℝ) : EReal))
      = ((Finset.univ.sup' hn g : ℝ) : EReal) := by
  apply le_antisymm
  · exact (Finset.fold_max_le _).2
      ⟨bot_le, fun k _ => EReal.coe_le_coe_iff.2 (Finset.le_sup' g (Finset.mem_univ k))⟩
  · obtain ⟨k, _, hk⟩ := Finset.exists_mem_eq_sup' hn g
    rw [hk]
    exact (Finset.le_fold_max _).2 (Or.inr ⟨k, Finset.mem_univ k, le_rfl⟩)

section Stages

variable (xr : Fin 4096 → Fin 1024 → ℝ) (wq wk wv : Fin 1024 → Fin 1024 → ℝ)

/-- Stage 0: the product x·W, entry by entry. -/
theorem v0_val (w : Fin 1024 → Fin 1024 → ℝ) (i : S4096x1024.Idx) :
    val_main_v0 (F := Ideal) (arr2 xr) (arr2 w) i = ((proj xr w (i 0) (i 1) : ℝ) : EReal) := by
  rw [val_main_v0_apply]
  unfold proj
  rw [Cert.Fin.coe_sum]
  refine Finset.sum_congr rfl fun k _ => ?_
  rw [EReal.coe_mul]
  rfl

/-- Stage 1 is the same product with the second weight. -/
theorem v1_val (w : Fin 1024 → Fin 1024 → ℝ) (i : S4096x1024.Idx) :
    val_main_v1 (F := Ideal) (arr2 xr) (arr2 w) i = ((proj xr w (i 0) (i 1) : ℝ) : EReal) :=
  v0_val xr w i

/-- Stage 2 is the same product with the third weight. -/
theorem v2_val (w : Fin 1024 → Fin 1024 → ℝ) (i : S4096x1024.Idx) :
    val_main_v2 (F := Ideal) (arr2 xr) (arr2 w) i = ((proj xr w (i 0) (i 1) : ℝ) : EReal) :=
  v0_val xr w i

/-- Stage 5: the transpose of the keys. -/
theorem v5_val (i : S1024x4096.Idx) :
    val_main_v5 (F := Ideal) (arr2 xr) (arr2 wk) i = ((proj xr wk (i 1) (i 0) : ℝ) : EReal) := by
  rw [val_main_v5_apply, v1_val]
  rfl

/-- Stage 6: Q·Kᵀ. -/
theorem v6_val (i : S4096x4096.Idx) :
    val_main_v6 (F := Ideal) (arr2 xr) (arr2 wq) (arr2 wk) i
      = ((∑ d : Fin 1024, proj xr wq (i 0) d * proj xr wk (i 1) d : ℝ) : EReal) := by
  rw [val_main_v6_apply, Cert.Fin.coe_sum]
  refine Finset.sum_congr rfl fun k _ => ?_
  rw [v0_val, v5_val, EReal.coe_mul]
  rfl

/-- Stage 4: the scale 1 / √1024 = 1/32. -/
theorem v4_val (i : S_.Idx) : val_main_v4 (F := Ideal) i = ((1 / 32 : ℝ) : EReal) := by
  rw [val_main_v4_apply, val_main_cst_0_apply, val_main_v3_apply, val_main_cst_apply]
  simp only [Ideal.ofBits_def, Ideal.hostDivf_def, Ideal.hostUnary_sqrt_def]
  rw [Cert.Fin.ofBits_one, ofBits_1024, Ideal.sqrt_coe, if_neg (by norm_num), sqrt_1024, ← EReal.coe_one]
  exact Cert.Fin.div_coe_coe 1 32 (by norm_num)

/-- Stage 8: the scaled scores. -/
theorem v8_val (i : S4096x4096.Idx) :
    val_main_v8 (F := Ideal) (arr2 xr) (arr2 wq) (arr2 wk) i
      = ((score (proj xr wq) (proj xr wk) (i 0) (i 1) : ℝ) : EReal) := by
  rw [val_main_v8_apply, v6_val, val_main_v7_apply, v4_val]
  unfold score
  rw [EReal.coe_mul]
  rfl

/-- Stage 9: the row maximum, a fold of max from −∞ over the row. -/
theorem v9_val (j : S4096.Idx) :
    val_main_v9 (F := Ideal) (arr2 xr) (arr2 wq) (arr2 wk) j
      = ((rowMax (score (proj xr wq) (proj xr wk)) (j 0) : ℝ) : EReal) := by
  have hR : S4096x4096.Reduces [1] S4096 := by decide
  unfold val_main_v9
  rw [Host.reduce_eq_fold_single FloatOps.maximumf _ _ reducesTo_S4096x4096_S4096_d1 hR h_S_]
  have hb : (val_main_cst_1 (F := Ideal)) (Shape.Idx.first h_S_) = (⊥ : EReal) := ofBits_neg_inf
  have hf : (val_main_v8 (F := Ideal) (arr2 xr) (arr2 wq) (arr2 wk)) ∘ hR.lift j
      = fun k : Fin 4096 => ((score (proj xr wq) (proj xr wk) (j 0) k : ℝ) : EReal) :=
    funext fun k => by
      have h0 : (hR.lift j k) 0 = j 0 := Fin.ext rfl
      have h1 : (hR.lift j k) 1 = k := Fin.ext rfl
      rw [Function.comp_apply, v8_val, h0, h1]
  rw [hb, hf]
  exact fold_max_coe Finset.univ_nonempty _

/-- Stage 11: max(−∞, M) = M. -/
theorem v11_val (j : S4096.Idx) :
    val_main_v11 (F := Ideal) (arr2 xr) (arr2 wq) (arr2 wk) j
      = ((rowMax (score (proj xr wq) (proj xr wk)) (j 0) : ℝ) : EReal) := by
  rw [val_main_v11_apply, v9_val, val_main_v10_apply, val_main_cst_2_apply]
  simp only [Ideal.ofBits_def, Ideal.maximumf_def]
  rw [ofBits_neg_inf]
  exact max_bot_left _

/-- Stage 13: the row maximum broadcast along the row. -/
theorem v13_val (i : S4096x4096.Idx) :
    val_main_v13 (F := Ideal) (arr2 xr) (arr2 wq) (arr2 wk) i
      = ((rowMax (score (proj xr wq) (proj xr wk)) (i 0) : ℝ) : EReal) := by
  rw [val_main_v13_apply, val_main_v12_apply, v11_val]
  rfl

/-- Stage 15: exp(s − M). -/
theorem v15_val (i : S4096x4096.Idx) :
    val_main_v15 (F := Ideal) (arr2 xr) (arr2 wq) (arr2 wk) i
      = ((Real.exp (score (proj xr wq) (proj xr wk) (i 0) (i 1)
          - rowMax (score (proj xr wq) (proj xr wk)) (i 0)) : ℝ) : EReal) := by
  rw [val_main_v15_apply, val_main_v14_apply, v8_val, v13_val]
  simp only [Ideal.subf_def, Ideal.hostUnary_exp_def]
  rw [← EReal.coe_sub, Ideal.exp_coe]

/-- Stage 16: the denominator. -/
theorem v16_val (j : S4096.Idx) :
    val_main_v16 (F := Ideal) (arr2 xr) (arr2 wq) (arr2 wk) j
      = ((denom (score (proj xr wq) (proj xr wk)) (j 0) : ℝ) : EReal) := by
  rw [val_main_v16_apply, val_main_cst_3_apply]
  simp only [Ideal.ofBits_def]
  rw [Cert.Fin.ofBits_zero, zero_add]
  unfold denom
  rw [Cert.Fin.coe_sum]
  refine Finset.sum_congr rfl fun k _ => ?_
  rw [v15_val]
  rfl

/-- Stage 18: the denominator broadcast along the row. -/
theorem v18_val (i : S4096x4096.Idx) :
    val_main_v18 (F := Ideal) (arr2 xr) (arr2 wq) (arr2 wk) i
      = ((denom (score (proj xr wq) (proj xr wk)) (i 0) : ℝ) : EReal) := by
  rw [val_main_v18_apply, val_main_v17_apply, v16_val]
  rfl

/-- Stage 19: the normalised weights. -/
theorem v19_val (i : S4096x4096.Idx) :
    val_main_v19 (F := Ideal) (arr2 xr) (arr2 wq) (arr2 wk) i
      = ((Real.exp (score (proj xr wq) (proj xr wk) (i 0) (i 1)
          - rowMax (score (proj xr wq) (proj xr wk)) (i 0))
          / denom (score (proj xr wq) (proj xr wk)) (i 0) : ℝ) : EReal) := by
  rw [val_main_v19_apply, v15_val, v18_val]
  simp only [Ideal.hostDivf_def]
  exact Cert.Fin.div_coe_coe _ _ (denom_pos _ _).ne'

end Stages

/-- The reference's last stage on real matrices is `attnRef` of the three projections. -/
theorem ref_final (xr : Fin 4096 → Fin 1024 → ℝ) (wq wk wv : Fin 1024 → Fin 1024 → ℝ) :
    (val_main_v20 (F := Ideal) (arr2 xr) (arr2 wq) (arr2 wk) (arr2 wv) : Vec Ideal S4096x1024 .f32)
      = arr2 (attnRef (score (proj xr wq) (proj xr wk)) (proj xr wv)) := by
  funext i
  rw [val_main_v20_apply, arr2_apply]
  unfold attnRef
  rw [Cert.Fin.coe_sum]
  refine Finset.sum_congr rfl fun k _ => ?_
  rw [v19_val, v2_val, EReal.coe_mul]
  rfl

end Cert.ReferenceIdeal.RefValue

end
-- ==== Proof.lean ====
/-
  The kernel computes single-head softmax attention in two pallas_calls: a projection kernel (queries, keys, values
  = x · W_query, x · W_key, x · W_value, one block of 256 rows per grid point) and a flash-attention kernel that, for
  each block of 256 query rows, sweeps the keys in 8 blocks of 512 keeping a running row maximum m, denominator l and
  numerator acc in scratch, and stores acc / l after the last key block. The reference computes
  softmax((x·W_query)(x·W_key)ᵀ / √1024) · (x·W_value) in one pass.

  Over the extended reals, under the precondition that every input is finite, all three projections are real
  matrices; the scores are real, 1/√1024 is the kernel's literal 1/32, and both programs' results are real. The online
  recurrence  m' = max(m, max s),  l' = exp(m − m')·l + Σ exp(s − m'),  acc' = exp(m − m')·acc + Σ exp(s − m')·v
  started from (−∞, 0, 0) ends, after all 8 key blocks, at a numerator and denominator whose quotient is
  (Σ_j exp(s_j − M)·v_j) / (Σ_j exp(s_j − M)) (exp(m − m')·exp(s − m) = exp(s − m')); the reference divides each weight
  by the same positive denominator before summing, which is the same real number. Finiteness is used: the
  distributive steps fail at infinities.

  Frames: each region's body is run once per control case (the projection has one; the attention kernel three: first,
  middle and last key block), the attention region's invariant names the scratch after every point, and the two
  regions are chained with the three projected arrays handed from the first to the second. The idealized
  program's run also names the result array, which the value claim reads.
-/
import proofs.«406591_j58067957842421_3_alg».proof.Defs
import proofs.«406591_j58067957842421_3_alg».proof.Proof.Gen.Kernel
import proofs.«406591_j58067957842421_3_alg».proof.Proof.Gen.KernelIdeal
import proofs.«406591_j58067957842421_3_alg».proof.Proof.Gen.ReferenceIdeal
import proofs.«406591_j58067957842421_3_alg».proof.Proof.Gen.ReferenceIdeal.Run
import proofs.«406591_j58067957842421_3_alg».proof.Proof.Gen.ReferenceIdeal.Read
import proofs.«406591_j58067957842421_3_alg».proof.Proof.Gen.Pre_finite_inputs
import proofs.«406591_j58067957842421_3_alg».proof.Proof.K.AttRun
import proofs.«406591_j58067957842421_3_alg».proof.Proof.KI.AttRun
import proofs.«406591_j58067957842421_3_alg».proof.Proof.KI.ProjValue
import proofs.«406591_j58067957842421_3_alg».proof.Proof.KI.AttValue
import proofs.«406591_j58067957842421_3_alg».proof.Proof.KI.Finite
import proofs.«406591_j58067957842421_3_alg».proof.Proof.RefValue

noncomputable section

namespace Cert.Proof

open Idealize.ShloMosaic Idealize.ShloMosaic.TcCoe Idealize.SL.Sem Cert.Attn

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Run.frame m ρ

/-- The idealized program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end, from memories agreeing on the finite inputs, at softmax attention of the three real
    projections: the kernel's online quotient and the reference's weight-by-weight quotient are the same real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hw := fun c => Cert.KernelIdeal.Fin.real_of_pre (hPre := Cert.Pre_finite_inputs.Gen.facts) m hpre c
  choose xr wq wk wv hx hq hk hv using hw
  refine ⟨fun c => arr2 (attn (score (proj (xr c) (wq c)) (proj (xr c) (wk c))) (proj (xr c) (wv c))), ?_, ?_⟩
  · refine (θ_run Cert.KernelIdeal.defs _ _).mono (fun _ h c => ⟨(h c).1.trans ?_, (h c).2⟩)
      (Cert.KernelIdeal.Run.run_main (F := Ideal) m ρ)
    exact Cert.KernelIdeal.Att.att_final (Cert.KernelIdeal.Run.V2 m) c _ _ _
      ((Cert.KernelIdeal.Run.V2_q m c).trans (Cert.KernelIdeal.Proj.projQ_final (Cert.KernelIdeal.Run.V1 m) c (xr c) (wq c) (hx c) (hq c)))
      ((Cert.KernelIdeal.Run.V2_k m c).trans (Cert.KernelIdeal.Proj.projK_final (Cert.KernelIdeal.Run.V1 m) c (xr c) (wk c) (hx c) (hk c)))
      ((Cert.KernelIdeal.Run.V2_v m c).trans (Cert.KernelIdeal.Proj.projV_final (Cert.KernelIdeal.Run.V1 m) c (xr c) (wv c) (hx c) (hv c)))
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    refine (Cert.ReferenceIdeal.Read.val_main_v20_eq (F := Ideal) _ _ _ _).trans ?_
    have e := Cert.ReferenceIdeal.RefValue.ref_final (xr c) (wq c) (wk c) (wv c)
    rw [attnRef_eq] at e
    exact (congr (congr (congr (congrArg (Cert.ReferenceIdeal.Read.val_main_v20 (F := Ideal)) (hx c)) (hq c)) (hk c)) (hv c)).trans e

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
